-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S2x1600000 32) (main_arg6 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S64x128 : Shape := ⟨2, ![64, 128]⟩
abbrev S5000x64 : Shape := ⟨2, ![5000, 64]⟩
abbrev S64 : Shape := ⟨1, ![64]⟩
abbrev S64x1 : Shape := ⟨2, ![64, 1]⟩

abbrev nBuf : Space → Nat
  | .hbm => 73
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x1600000, .i32⟩
  | .hbm, ⟨6, _⟩ => ⟨S100000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x1, .i32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S64x128, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S64, .f32⟩
  | .hbm, ⟨65, _⟩ => ⟨S100000x1, .i32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64x1, .f32⟩
  | .hbm, ⟨71, _⟩ => ⟨S64x128, .f32⟩
  | .hbm, ⟨72, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x1, .i32⟩
  | .local _ .vmem, ⟨21, _⟩ => ⟨S5000x1, .i32⟩
  | .local _ .vmem, ⟨22, _⟩ => ⟨S64x128, .f32⟩
  | .local _ .vmem, ⟨23, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v30 : BitVec 1 := Scalar.cmpi .eq arg0 c19_i32
  let v31 : BitVec 32 := Scalar.extui v30
  let c0_i32_13 : BitVec 32 := 0#32
  let v32 : BitVec 1 := Scalar.cmpi .ne v31 c0_i32_13
  v32

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S5000x64_d1_w32 : S5000x64.Iotas .tc 32 [1]
  broadcasts_S5000x1_S5000x64 : S5000x1.Broadcasts S5000x64
  natLt_1_32 : 1 < 32
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x64_S5000x128_S64x128_0_0_1_1_n_n_wf : DotDims.WF S5000x64 S5000x128 S64x128 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .i32 = 32 ∨ (Rect.block (s := S100000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S64x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x1600000, .i32⟩
  | .hbm, ⟨6, _⟩ => ⟨S100000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S64x128, .f32⟩
  | .hbm, ⟨95, _⟩ => ⟨S100000x1, .i32⟩
  | .hbm, ⟨96, _⟩ => ⟨S64x128, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S64, .f32⟩
  | .hbm, ⟨101, _⟩ => ⟨S100000x1, .i32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x128, .f32⟩
  | .hbm, ⟨108, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KB.Dat0.lean ====
/-
  Region 0 (the first linear layer): the data the pipeline's rule is applied at.

  At a grid point t the kernel reads rows 5000 t … 5000 t + 4999 of the node features, the whole 128 × 128 weight and the
  same rows of the degree scale, and writes the same rows of the result: the matrix product of the row block with the
  weight, each row then multiplied by that row's scale. Everything is stated at a parameter V, the contents of the
  TensorCore's buffers when the region is entered.
-/
import proofs.«409848_j24326694765010_2_alg».proof.Proof.Gen.Kernel.Launch
import proofs.«409848_j24326694765010_2_alg».proof.Proof.Gen.Kernel.Skeleton
import proofs.«409848_j24326694765010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 128 block, the whole 128 × 128 block, the whole 5000 × 1 block, as rectangles. -/
abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rD : Rect S5000x1 := Rect.unit (s := S5000x1) ![0, 0] S5000x1.size inb_S5000x1_S5000x1_0_0

/-- What the body leaves in the result window's buffer, from the three input blocks: one store of the whole block. -/
def out0_3 (x0 : Vec F S5000x128 .f32) (x1 : Vec F S128x128 .f32) (x2 : Vec F S5000x1 .f32) : Vec F S5000x128 .f32 :=
  View.canon [⟨rX, k0_pay1 (View.ld x0 rX) (View.ld x1 rW) (View.ld x2 rD)⟩]

/-- The pipeline's data on core c: the arrays as found; after the body each input's buffer at its block and the
    result's at out0_3 of the input blocks; nothing carried from point to point; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.KB.Dat1.lean ====
/-
  Region 1 (the second layer's linear step, fused with the first layer's bias and rectifier): the data the pipeline's
  rule is applied at.

  At a grid point t the kernel reads rows 5000 t … 5000 t + 4999 of the aggregated features and of the degree scale, the
  bias row and the whole weight, and writes the same rows of the result: each aggregated row times its scale, plus the
  bias, clipped below at zero, multiplied into the weight, each row of the product again times its scale. Stated at a
  parameter V, the contents of the TensorCore's buffers when the region is entered.
-/
import proofs.«409848_j24326694765010_2_alg».proof.Proof.Gen.Kernel.Launch
import proofs.«409848_j24326694765010_2_alg».proof.Proof.Gen.Kernel.Skeleton
import proofs.«409848_j24326694765010_2_alg».proof.Proof.Gen.Kernel.Points
import proofs.«409848_j24326694765010_2_alg».proof.Proof.KB.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1 × 128 block as a rectangle. -/
abbrev rB : Rect S1x128 := Rect.unit (s := S1x128) ![0, 0] S1x128.size inb_S1x128_S1x128_0_0

/-- What the body leaves in the result window's buffer, from the four input blocks (the scale block is loaded twice):
    one store of the whole block. -/
def out1_4 (x0 : Vec F S5000x128 .f32) (x1 : Vec F S5000x1 .f32) (x2 : Vec F S1x128 .f32) (x3 : Vec F S128x128 .f32) :
    Vec F S5000x128 .f32 :=
  View.canon [⟨rX, k1_pay1 (View.ld x0 rX) (View.ld x1 rD) (View.ld x2 rB) (View.ld x3 rW) (View.ld x1 rD)⟩]

/-- The pipeline's data on core c: the arrays as found; after the body each input's buffer at its block and the
    result's at out1_4 of the input blocks; nothing carried from point to point; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Cert.Kernel.Hand

end
-- ==== Proof.KB.Dat2.lean ====
/-
  Region 2 (the second layer's bias and rectifier fused with the pooling): the data the pipeline's rule is applied at.

  The kernel keeps a 64 × 128 accumulator in a scratch buffer across the 20 grid points. At the first point it clears
  the accumulator; at every point t it adds to it the product of the transposed one-hot matrix of the graph ids of rows
  5000 t … 5000 t + 4999 with the rectified rows; at the last point it copies the accumulator to the result window,
  which is written back there and nowhere else. So the accumulator after point n is a recursion on n, and the region's
  invariant between points holds the scratch buffer at that value. Stated at a parameter V, the contents of the
  TensorCore's buffers when the region is entered.
-/
import proofs.«409848_j24326694765010_2_alg».proof.Proof.Gen.Kernel.Launch
import proofs.«409848_j24326694765010_2_alg».proof.Proof.Gen.Kernel.Skeleton
import proofs.«409848_j24326694765010_2_alg».proof.Proof.Gen.Kernel.Points
import proofs.«409848_j24326694765010_2_alg».proof.Proof.KB.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 64 × 128 block as a rectangle. -/
abbrev rO : Rect S64x128 := Rect.unit (s := S64x128) ![0, 0] S64x128.size inb_S64x128_S64x128_0_0

/-- The scratch buffer the kernel accumulates in. -/
abbrev scM2 : Memref sig .tc .vmem S64x128 .f32 := Memref.whole cc2_scratch0

/-- The cleared accumulator: what the first point's store leaves. -/
def init2 : Vec F S64x128 .f32 := View.canon [⟨rO, k2_pay1 (F := F)⟩]

/-- One point's update of the accumulator from the point's four input blocks. -/
def step2 (x0 : Vec F S5000x128 .f32) (x1 : Vec F S5000x1 .f32) (x2 : Vec F S1x128 .f32) (x3 : Vec F S5000x1 .i32)
    (acc : Vec F S64x128 .f32) : Vec F S64x128 .f32 :=
  View.canon [⟨rO, k2_pay2 (View.ld x0 rX) (View.ld x1 rD) (View.ld x2 rB) (View.ld x3 rD) (View.ld acc rO)⟩]

/-- The accumulator after grid point n: cleared and updated once at the first point, updated once more at each later one. -/
def accAt2 (c : Dev nD) : (n : ℕ) → n < cfg2.N → Vec F S64x128 .f32
  | 0, h => step2 (iblk2 V c 0 ⟨0, h⟩) (iblk2 V c 1 ⟨0, h⟩) (iblk2 V c 2 ⟨0, h⟩) (iblk2 V c 3 ⟨0, h⟩) init2
  | n + 1, h => step2 (iblk2 V c 0 ⟨n + 1, h⟩) (iblk2 V c 1 ⟨n + 1, h⟩) (iblk2 V c 2 ⟨n + 1, h⟩) (iblk2 V c 3 ⟨n + 1, h⟩)
      (accAt2 c n (Nat.lt_of_succ_lt h))

theorem accAt2_zero (c : Dev nD) (h : 0 < cfg2.N) :
    accAt2 V c 0 h = step2 (iblk2 V c 0 ⟨0, h⟩) (iblk2 V c 1 ⟨0, h⟩) (iblk2 V c 2 ⟨0, h⟩) (iblk2 V c 3 ⟨0, h⟩) init2 := rfl

theorem accAt2_succ (c : Dev nD) (n : ℕ) (h : n + 1 < cfg2.N) :
    accAt2 V c (n + 1) h = step2 (iblk2 V c 0 ⟨n + 1, h⟩) (iblk2 V c 1 ⟨n + 1, h⟩) (iblk2 V c 2 ⟨n + 1, h⟩) (iblk2 V c 3 ⟨n + 1, h⟩)
      (accAt2 V c n (Nat.lt_of_succ_lt h)) := rfl

/-- The region's invariant before grid point n: before the first point every scoped buffer that is no staging buffer
    of this call at anything; afterwards the scratch buffer at the accumulator the point before left, the other such
    buffers at anything; the generator register at some state throughout. -/
def PhiS2 (c : Dev nD) : (n : ℕ) → n ≤ cfg2.N → sProp 𝕄
  | 0, _ => Pipeline.ΦA spec2 c
  | n + 1, hn => iprop(owns (c : Thread nD τ) scM2 fullShare (accAt2 V c n hn)
      ∗ Pipeline.scopedRestBut (Ix := Unit) (Name := ℕ) (U := UR sig nD τ) (Lvl := ℕ) (Val := Elt F) spec2 c [cc2_scratch0]
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (accAt2 V c n hn)
      ∗ Pipeline.scopedRestBut (Ix := Unit) (Name := ℕ) (U := UR sig nD τ) (Lvl := ℕ) (Val := Elt F) spec2 c [cc2_scratch0]
      ∗ (∃ r, prngReg c r)) := rfl

/-- The pipeline's data on core c: the arrays as found; after the body each input's buffer at its block and the
    result window's at the accumulator after that point (read only at the last point, the one point that stores it and
    writes it back); between points the invariant PhiS2; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = accAt2 V c t.val t.isLt := by dsimp only [dat2]

end Cert.Kernel.Hand

end
-- ==== Proof.KB.Stages.lean ====
/-
  The contents of the core's buffers between the items of @main.

  Region k is entered with the buffers at E_k: the launch contents carried through the stretches of host operations
  and the earlier regions. A region leaves its result array at what its 20 write-backs make of it and every other
  buffer as it found it; `outs` collects what the three regions leave, so that the valuations V4 … V9 of
  the conditional frame, read at `outs`, are the true contents.
-/
import proofs.«409848_j24326694765010_2_alg».proof.Proof.KB.Dat2
import proofs.«409848_j24326694765010_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents when each region is entered, and what each region leaves -/

/-- The buffers as region 0 finds them: the launch contents after the first three stretches of host operations. -/
abbrev E0 : (c : Dev nD) → (b : Ref sig .tc) → Buf (Elt F) ((c : Thread nD τ).loc b) := fun c b => Gen.V3 m c b

/-- The buffers as region 0 leaves them: its result array at what the 20 write-backs leave, the rest as found. -/
def o4 (c : Dev nD) : Valuation τ sig (Elt F) :=
  Pipeline.withArrays spec0 c (Gen.V3 m c) fun w => (dat0 (E0 m) c).arrAt w cfg0.N

/-- The contents the regions leave, as far as region 0. -/
def outsA : Gen.Outs (F := F) := fun _ r c => o4 m c r

/-- The buffers as region 1 finds them. -/
abbrev E1 : (c : Dev nD) → (b : Ref sig .tc) → Buf (Elt F) ((c : Thread nD τ).loc b) := fun c b => Gen.V5 m (outsA m) c b

/-- The buffers as region 1 leaves them. -/
def o6 (c : Dev nD) : Valuation τ sig (Elt F) :=
  Pipeline.withArrays spec1 c (Gen.V5 m (outsA m) c) fun w => (dat1 (E1 m) c).arrAt w cfg1.N

/-- The contents the regions leave, as far as region 1. -/
def outsB : Gen.Outs (F := F) := fun J r c => match J with
  | 6 => o6 m c r
  | _ => o4 m c r

/-- The buffers as region 2 finds them. -/
abbrev E2 : (c : Dev nD) → (b : Ref sig .tc) → Buf (Elt F) ((c : Thread nD τ).loc b) := fun c b => Gen.V7 m (outsB m) c b

/-- The buffers as region 2 leaves them. -/
def o8 (c : Dev nD) : Valuation τ sig (Elt F) :=
  Pipeline.withArrays spec2 c (Gen.V7 m (outsB m) c) fun w => (dat2 (E2 m) c).arrAt w cfg2.N

/-- The contents every region leaves. -/
def outs : Gen.Outs (F := F) := fun J r c => match J with
  | 8 => o8 m c r
  | 6 => o6 m c r
  | _ => o4 m c r

theorem V4_outs (c : Dev nD) : Gen.V4 m (outs m) c = Gen.V4 m (outsA m) c := rfl
theorem V5_outs (c : Dev nD) : Gen.V5 m (outs m) c = Gen.V5 m (outsA m) c := rfl
theorem V6_outs (c : Dev nD) : Gen.V6 m (outs m) c = Gen.V6 m (outsB m) c := rfl
theorem V7_outs (c : Dev nD) : Gen.V7 m (outs m) c = Gen.V7 m (outsB m) c := rfl

end Cert.Kernel.Hand

end
-- ==== Proof.KB.Run.lean ====
/-
  The run of the whole program: its three kernel regions between stretches of host operations.

  Between two items of @main every buffer of the core that outlives a region holds known contents: the launch
  contents, then what each stretch of host operations computes from them, then, after a region, the region's result
  array at what the region's 20 write-backs leave and everything else unchanged. The three regions are entered from
  and left at exactly those contents; beside the buffers a core carries only its generator register and the fact that
  it owes no signal. From this the program terminates without a fault on every weakly fair execution, its arguments
  end unchanged, and its result buffer ends at the last stretch's value of the third region's result.
-/
import proofs.«409848_j24326694765010_2_alg».proof.Proof.KB.Stages
import proofs.«409848_j24326694765010_2_alg».proof.Proof.KB.RunPost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and what rides beside the buffers -/

/-- Every pipeline's data, each at its region's entry contents. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What a core carries beside its buffers through every item: its generator register at some state, and that it owes nothing. -/
abbrev R (c : Dev nD) : sProp 𝕄 := iprop((∃ r, prngReg c r) ∗ ∃ W, owes (c : Thread nD τ) (0 : CellTallies nD τ sig Unit) W)

/-- Region 0's result array after the region: what its write-backs leave. -/
theorem out0_eq (c : Dev nD) : Gen.V4 m (outs m) c main_v17 = (dat0 (E0 m) c).arrAt 3 cfg0.N := by
  show Function.update _ _ _ _ = _
  rw [Function.update_self]
  exact Pipeline.withArrays_arr spec0 launch0.win.arr_inj c (Gen.V3 m c) (fun w => (dat0 (E0 m) c).arrAt w cfg0.N) 3

/-- After region 0 each of its arrays holds what the write-backs leave: an input array what it held (it is never
    written), the result array the region's result. -/
theorem hF0 (c : Dev nD) (w : Fin cfg0.W) :
    (dat0 (E0 m) c).arrAt w cfg0.N = (fun b : Ref sig .tc => Gen.V4 m (outs m) c b) (Pipeline.arrRef spec0 w) := by
  match w with
  | ⟨0, _⟩ => exact (((dat0 (E0 m) c).arrAt_in 0 rfl _).trans (A_eq0 (E0 m) c 0)).trans (Gen.V4_of m (outs m) c main_arg0 (by decide)).symm
  | ⟨1, _⟩ => exact (((dat0 (E0 m) c).arrAt_in 1 rfl _).trans (A_eq0 (E0 m) c 1)).trans (Gen.V4_of m (outs m) c main_arg1 (by decide)).symm
  | ⟨2, _⟩ => exact (((dat0 (E0 m) c).arrAt_in 2 rfl _).trans (A_eq0 (E0 m) c 2)).trans (Gen.V4_of m (outs m) c main_v15 (by decide)).symm
  | ⟨3, _⟩ => exact (out0_eq m c).symm

/-- and every other buffer what it held at entry. -/
theorem hrest0 (c : Dev nD) : ∀ b : Ref sig .tc, b ∉ Finset.univ.image (Pipeline.arrRef spec0) →
    (fun b : Ref sig .tc => Gen.V4 m (outs m) c b) b = E0 m c b := fun b hb =>
  Gen.V4_of m (outs m) c b (fun h => hb (Finset.mem_image.mpr ⟨3, Finset.mem_univ _, (List.mem_singleton.mp h).symm⟩))

-- the pinned configuration a library lemma is stated over and the printed one are the same configuration once plain
-- definitions are unfolded
set_option backward.isDefEq.respectTransparency.types false in
/-- Region 0: entered with every buffer that outlives a region at Gen.V3 m c, left with them at Gen.V4 m (outs m) c. Its windows'
    arrays are split out of those buffers at entry and put back, at what the write-backs leave, at exit; the generator
    register goes into the region's invariant and comes back; the core owes nothing; the kernel has no semaphore of its own. -/
def reg0 (hb : ∀ c, BodyObligation (dat0 (F := F) (E0 m) c) (defs₀ (F := F)) Variants.none () Set.univ) :
    Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (fun b => (Gen.V4 m (outs m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's result array after the region: what its write-backs leave. -/
theorem out1_eq (c : Dev nD) : Gen.V6 m (outs m) c main_v29 = (dat1 (E1 m) c).arrAt 4 cfg1.N := by
  show Function.update _ _ _ _ = _
  rw [Function.update_self]
  exact Pipeline.withArrays_arr spec1 launch1.win.arr_inj c (Gen.V5 m (outsA m) c) (fun w => (dat1 (E1 m) c).arrAt w cfg1.N) 4

/-- After region 1 each of its arrays holds what the write-backs leave: an input array what it held (it is never
    written), the result array the region's result. -/
theorem hF1 (c : Dev nD) (w : Fin cfg1.W) :
    (dat1 (E1 m) c).arrAt w cfg1.N = (fun b : Ref sig .tc => Gen.V6 m (outs m) c b) (Pipeline.arrRef spec1 w) := by
  match w with
  | ⟨0, _⟩ => exact (((dat1 (E1 m) c).arrAt_in 0 rfl _).trans (A_eq1 (E1 m) c 0)).trans (Gen.V6_of m (outs m) c main_v27 (by decide)).symm
  | ⟨1, _⟩ => exact (((dat1 (E1 m) c).arrAt_in 1 rfl _).trans (A_eq1 (E1 m) c 1)).trans (Gen.V6_of m (outs m) c main_v15 (by decide)).symm
  | ⟨2, _⟩ => exact (((dat1 (E1 m) c).arrAt_in 2 rfl _).trans (A_eq1 (E1 m) c 2)).trans (Gen.V6_of m (outs m) c main_v28 (by decide)).symm
  | ⟨3, _⟩ => exact (((dat1 (E1 m) c).arrAt_in 3 rfl _).trans (A_eq1 (E1 m) c 3)).trans (Gen.V6_of m (outs m) c main_arg3 (by decide)).symm
  | ⟨4, _⟩ => exact (out1_eq m c).symm

/-- and every other buffer what it held at entry. -/
theorem hrest1 (c : Dev nD) : ∀ b : Ref sig .tc, b ∉ Finset.univ.image (Pipeline.arrRef spec1) →
    (fun b : Ref sig .tc => Gen.V6 m (outs m) c b) b = E1 m c b := fun b hb =>
  Gen.V6_of m (outs m) c b (fun h => hb (Finset.mem_image.mpr ⟨4, Finset.mem_univ _, (List.mem_singleton.mp h).symm⟩))

-- the pinned configuration a library lemma is stated over and the printed one are the same configuration once plain
-- definitions are unfolded
set_option backward.isDefEq.respectTransparency.types false in
/-- Region 1: entered with every buffer that outlives a region at Gen.V5 m (outs m) c, left with them at Gen.V6 m (outs m) c. Its windows'
    arrays are split out of those buffers at entry and put back, at what the write-backs leave, at exit; the generator
    register goes into the region's invariant and comes back; the core owes nothing; the kernel has no semaphore of its own. -/
def reg1 (hb : ∀ c, BodyObligation (dat1 (F := F) (E1 m) c) (defs₀ (F := F)) Variants.none () Set.univ) :
    Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Gen.V5 m (outsA m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => (Gen.V6 m (outs m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's result array after the region: what its write-backs leave. -/
theorem out2_eq (c : Dev nD) : Gen.V8 m (outs m) c main_v41 = (dat2 (E2 m) c).arrAt 4 cfg2.N := by
  show Function.update _ _ _ _ = _
  rw [Function.update_self]
  exact Pipeline.withArrays_arr spec2 launch2.win.arr_inj c (Gen.V7 m (outsB m) c) (fun w => (dat2 (E2 m) c).arrAt w cfg2.N) 4

/-- After region 2 each of its arrays holds what the write-backs leave: an input array what it held (it is never
    written), the result array the region's result. -/
theorem hF2 (c : Dev nD) (w : Fin cfg2.W) :
    (dat2 (E2 m) c).arrAt w cfg2.N = (fun b : Ref sig .tc => Gen.V8 m (outs m) c b) (Pipeline.arrRef spec2 w) := by
  match w with
  | ⟨0, _⟩ => exact (((dat2 (E2 m) c).arrAt_in 0 rfl _).trans (A_eq2 (E2 m) c 0)).trans (Gen.V8_of m (outs m) c main_v39 (by decide)).symm
  | ⟨1, _⟩ => exact (((dat2 (E2 m) c).arrAt_in 1 rfl _).trans (A_eq2 (E2 m) c 1)).trans (Gen.V8_of m (outs m) c main_v15 (by decide)).symm
  | ⟨2, _⟩ => exact (((dat2 (E2 m) c).arrAt_in 2 rfl _).trans (A_eq2 (E2 m) c 2)).trans (Gen.V8_of m (outs m) c main_v40 (by decide)).symm
  | ⟨3, _⟩ => exact (((dat2 (E2 m) c).arrAt_in 3 rfl _).trans (A_eq2 (E2 m) c 3)).trans (Gen.V8_of m (outs m) c main_v16 (by decide)).symm
  | ⟨4, _⟩ => exact (out2_eq m c).symm

/-- and every other buffer what it held at entry. -/
theorem hrest2 (c : Dev nD) : ∀ b : Ref sig .tc, b ∉ Finset.univ.image (Pipeline.arrRef spec2) →
    (fun b : Ref sig .tc => Gen.V8 m (outs m) c b) b = E2 m c b := fun b hb =>
  Gen.V8_of m (outs m) c b (fun h => hb (Finset.mem_image.mpr ⟨4, Finset.mem_univ _, (List.mem_singleton.mp h).symm⟩))

-- the pinned configuration a library lemma is stated over and the printed one are the same configuration once plain
-- definitions are unfolded
set_option backward.isDefEq.respectTransparency.types false in
/-- Region 2: entered with every buffer that outlives a region at Gen.V7 m (outs m) c, left with them at Gen.V8 m (outs m) c. Its windows'
    arrays are split out of those buffers at entry and put back, at what the write-backs leave, at exit; the generator
    register goes into the region's invariant and comes back; the core owes nothing; the kernel has no semaphore of its own. -/
def reg2 (hi2 : ∀ c, Pipeline.ΦA spec2 c ⊢ (dat2 (F := F) (E2 m) c).Φ 0)
    (ho2 : ∀ c, (dat2 (F := F) (E2 m) c).Φ (Fin.last cfg2.N) ⊢ Pipeline.ΦA spec2 c)
    (hb : ∀ c, BodyObligation (dat2 (F := F) (E2 m) c) (defs₀ (F := F)) Variants.none () Set.univ) :
    Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (Gen.V7 m (outsB m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hi2 c)
    unfold Pipeline.ΦA
    iintro ⟨Hp, -, Hr⟩
    isplitl [Hr]; · iexact Hr
    iexact Hp
  hout c := by
    rw [Pipeline.ownSems0_none]
    refine Idealize.SL.BI.BIBase.Entails.trans (ho2 c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E2 m c) (fun b => (Gen.V8 m (outs m) c) b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

/-- Every weakly fair execution of @main from the memory m with zero counters terminates without a fault; its result
    buffer ends at the last stretch's value over what the regions leave, and every argument array as launched. -/
theorem run_outs
    (hb0 : ∀ c, BodyObligation (dat0 (F := F) (E0 m) c) (defs₀ (F := F)) Variants.none () Set.univ)
    (hb1 : ∀ c, BodyObligation (dat1 (F := F) (E1 m) c) (defs₀ (F := F)) Variants.none () Set.univ)
    (hb2 : ∀ c, BodyObligation (dat2 (F := F) (E2 m) c) (defs₀ (F := F)) Variants.none () Set.univ)
    (hi2 : ∀ c, Pipeline.ΦA spec2 c ⊢ (dat2 (F := F) (E2 m) c).Φ 0)
    (ho2 : ∀ c, (dat2 (F := F) (E2 m) c).Φ (Fin.last cfg2.N) ⊢ Pipeline.ΦA spec2 c) :
    θ_run defs (onTc (τ := τ) (main (F := F))) ⟨m, fun _ => 0, ρ⟩ (fun r => ∀ c : Dev nD,
      r.2.mem ((c.tc : Thread nD τ).loc main_v50) = Gen.V9 m (outs m) c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond_res m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m hb0) (fun c => .rfl) (fun c => .rfl)
    (reg1 m hb1) (fun c => .rfl) (fun c => .rfl)
    (reg2 m hi2 ho2 hb2) (fun c => .rfl) (fun c => .rfl)

end Cert.Kernel.Hand

end
-- ==== Proof.KB.Body0.lean ====
/-
  Region 0 (the first linear layer): the body's obligation at every grid point.

  At a grid point the body reads the whole of three staging blocks (a 5000 x 128 block of node features, the
  128 x 128 weight, a 5000 x 1 block of degree scales), reads the result's staging block without using what it
  read, and overwrites the whole result block once with the product of the feature block and the weight, each row
  scaled by that row's degree scale. Nothing is carried from one point to the next.

  So two things are to be shown. First, each input's current staging block holds that window's block of its array
  at every point, whether or not a transfer brought it in at that very point: the feature and scale blocks are
  brought in afresh at every point, while the weight is brought in at the first point only and afterwards stays,
  its block index never moving. Second, one store of the whole block leaves the result's staging block at the
  stored value whatever it held before, because that one store covers every position of the block.
-/
import proofs.«409848_j24326694765010_2_alg».proof.Proof.Gen.Kernel.Launch
import proofs.«409848_j24326694765010_2_alg».proof.Proof.Gen.Kernel.Skeleton
import proofs.«409848_j24326694765010_2_alg».proof.Proof.Gen.Kernel.Points
import proofs.«409848_j24326694765010_2_alg».proof.Proof.KB.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging blocks hold the windows' blocks -/

/-- The feature window's current staging block holds rows 5000 t … 5000 t + 4999 of the features at every point:
    it is brought in afresh at every point. -/
theorem features_staged0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight window's staging block holds the whole weight at every point: brought in at the first point, and
    at every later point still there, since the body leaves it as found and its block index never moves. -/
theorem weight_staged0 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The scale window's current staging block holds rows 5000 t … 5000 t + 4999 of the degree scale at every point:
    it is brought in afresh at every point. -/
theorem scale_staged0 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The one store covers the result block -/

/-- A single store of the whole 5000 x 128 block reaches every position of it: the block is one tile of its own
    size. -/
theorem whole_store_covers0 (p : Vec F S5000x128 .f32) (y : S5000x128.Idx) :
    ∃ pc ∈ ([⟨rX, p⟩] : List (View.Piece (Elt F) S5000x128 .f32)), y ∈ pc.1.set :=
  View.cover_of_tiled [⟨rX, p⟩] S5000x128.size (by rfl) y

/-! ## The body on whole staging blocks -/

set_option maxHeartbeats 1000000 in
/-- The body, run on four whole staging blocks of which the three inputs read x0, x1, x2 and the result holds
    anything, ends with the inputs as they were and the result at the one stored value: the three loads read the
    inputs' contents, the fourth load's value is unused, and the store, covering the block, fixes what it reads
    afterwards. -/
theorem linear_dinv_on_blocks (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x1 .f32) (harg3 : arg3.IsWhole)
    (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E
          (cc0__linear_dinv_kernel i arg1 harg1 arg2 harg2 arg3 harg3 arg4 harg4) K := by
  simp only [cc0__linear_dinv_kernel_eq_skeleton]; unfold cc0__linear_dinv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole_store_covers0 _)

/-! ## The obligation at a grid point -/

/-- What the body is handed at point t: the invariant, what the core owes, and each window's current staging
    block at what it then holds. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, the inputs' blocks as found, the result's block at the
    scaled product. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging blocks hold their windows' blocks, so the body's behaviour on
    whole blocks applies; the invariant and the debt pass through untouched. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [features_staged0, weight_staged0, scale_staged0]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (linear_dinv_on_blocks c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation in region 0, at every grid point. -/
theorem body_obligation0 (c : Dev nD) : BodyObligation (dat0 (F := F) V c) (defs₀ (F := F)) Variants.none () Set.univ := fun t => by
  rw [bigSep_W0, bigSep_W0]
  exact body_at0 V c t

end Cert.Kernel.Hand

end
-- ==== Proof.KB.Body1.lean ====
/-
  Region 1 (the second layer's linear step, fused with the first layer's bias and rectifier): the body's
  obligation at every grid point.

  At a grid point the body reads the whole of four staging blocks (a 5000 x 128 block of aggregated features, a
  5000 x 1 block of degree scales, the 1 x 128 bias row, the 128 x 128 weight), reads the scale block a second
  time, reads the result's staging block without using what it read, and overwrites the whole result block once:
  each aggregated row times its scale, plus the bias, clipped below at zero, multiplied into the weight, each row
  of the product again times its scale. Nothing is carried from one point to the next.

  So two things are to be shown. First, each input's current staging block holds that window's block of its array
  at every point, whether or not a transfer brought it in at that very point: the feature and scale blocks are
  brought in afresh at every point, while the bias row and the weight are brought in at the first point only and
  afterwards stay, their block indices never moving. Both reads of the scale block see the same contents, no
  store coming between them. Second, one store of the whole block leaves the result's staging block at the stored
  value whatever it held before, because that one store covers every position of the block.
-/
import proofs.«409848_j24326694765010_2_alg».proof.Proof.Gen.Kernel.Launch
import proofs.«409848_j24326694765010_2_alg».proof.Proof.Gen.Kernel.Skeleton
import proofs.«409848_j24326694765010_2_alg».proof.Proof.Gen.Kernel.Points
import proofs.«409848_j24326694765010_2_alg».proof.Proof.KB.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging blocks hold the windows' blocks -/

/-- The feature window's current staging block holds rows 5000 t … 5000 t + 4999 of the aggregated features at
    every point: it is brought in afresh at every point. -/
theorem features_staged1 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The scale window's current staging block holds rows 5000 t … 5000 t + 4999 of the degree scale at every point:
    it is brought in afresh at every point. -/
theorem scale_staged1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The bias window's staging block holds the whole bias row at every point: brought in at the first point, and
    at every later point still there, since the body leaves it as found and its block index never moves. -/
theorem bias_staged1 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The weight window's staging block holds the whole weight at every point, for the same reason as the bias
    row's. -/
theorem weight_staged1 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The one store covers the result block -/

/-- A single store of the whole 5000 x 128 block reaches every position of it: the block is one tile of its own
    size. -/
theorem whole_store_covers1 (p : Vec F S5000x128 .f32) (y : S5000x128.Idx) :
    ∃ pc ∈ ([⟨rX, p⟩] : List (View.Piece (Elt F) S5000x128 .f32)), y ∈ pc.1.set :=
  View.cover_of_tiled [⟨rX, p⟩] S5000x128.size (by rfl) y

/-! ## The body on whole staging blocks -/

set_option maxHeartbeats 1000000 in
/-- The body, run on five whole staging blocks of which the four inputs read x0, x1, x2, x3 and the result holds
    anything, ends with the inputs as they were and the result at the one stored value: the loads read the
    inputs' contents (the scale block's twice, the same both times), the last load's value is unused, and the
    store, covering the block, fixes what it reads afterwards. -/
theorem bias_relu_linear_dinv_on_blocks (c : Dev nD) (E : Set ℕ) (i : grid1.Coords)
    (arg1 : Memref sig .tc .vmem S5000x128 .f32) (harg1 : arg1.IsWhole)
    (arg2 : Memref sig .tc .vmem S5000x1 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S5000x128 .f32) (harg5 : arg5.IsWhole)
    (x0 : Vec F S5000x128 .f32) (x1 : Vec F S5000x1 .f32) (x2 : Vec F S1x128 .f32) (x3 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__fused_bias_relu_linear_dinv_kernel i arg1 harg1 arg2 harg2 arg3 harg3 arg4 harg4 arg5 harg5) K := by
  simp only [cc1__fused_bias_relu_linear_dinv_kernel_eq_skeleton]; unfold cc1__fused_bias_relu_linear_dinv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole_store_covers1 _)

/-! ## The obligation at a grid point -/

/-- What the body is handed at point t: the invariant, what the core owes, and each window's current staging
    block at what it then holds. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the same invariant and debt, the inputs' blocks as found, the result's block at the
    stored value. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' staging blocks hold their windows' blocks, so the body's behaviour on
    whole blocks applies; the invariant and the debt pass through untouched. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [features_staged1, scale_staged1, bias_staged1, weight_staged1]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (bias_relu_linear_dinv_on_blocks c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation in region 1, at every grid point. -/
theorem body_obligation1 (c : Dev nD) : BodyObligation (dat1 (F := F) V c) (defs₀ (F := F)) Variants.none () Set.univ := fun t => by
  rw [bigSep_W1, bigSep_W1]
  exact body_at1 V c t

end Cert.Kernel.Hand

end
-- ==== Proof.KB.Body2.lean ====
/-
  Region 2 (the second layer's bias and rectifier fused with the pooling): the body's obligation.

  The kernel's body has two conditionals on the grid coordinate: at the first point it clears the 64 × 128 accumulator it
  keeps in a scratch buffer; at every point it adds to the accumulator the product of the transposed one-hot matrix of the
  point's graph ids with the point's rectified rows; at the last point it copies the accumulator to the result buffer. So
  the 20 points fall into three control cases — the first, a middle one, the last — and the body is run once per case,
  on any buffers, with what it leaves stated in closed form. The obligation at a point then picks the point's case from
  its position; the invariant between points carries the scratch buffer at the accumulator the point before left; the
  result buffer is handed back as found at every point but the last, where alone it is written back.
-/
import proofs.«409848_j24326694765010_2_alg».proof.Proof.KB.Dat2
import Idealize.ShloMosaic.Lib.Pipeline.Value

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The all-zero offset of a rank-two rectangle, however it is spelt. -/
theorem zeros2 : (![0, 0] : Fin 2 → Nat) = fun _ => 0 := by funext a; fin_cases a <;> rfl

/-- The kernel's first branch condition (the point is the first), from the grid coordinate. -/
abbrev cond2_0 (i : grid2.Coords) : Prop :=
  (Scalar.cmpi .ne (Scalar.extui (Scalar.cmpi .eq (BitVec.ofNat 32 (i 0).val) 0#32)) 0#32) = 1#1
/-- It holds at coordinate 0 only. -/
theorem hcond2_0 : ∀ t : Fin cfg2.N, cond2_0 (grid2.coords t) ↔ t.val = 0 :=
  (by decide +kernel : ∀ t : Fin grid2.N, cond2_0 (grid2.coords t) ↔ t.val = 0)

/-- The kernel's second branch condition (the point is the last). -/
abbrev cond2_1 (i : grid2.Coords) : Prop := k2_cond2 i = 1#1
/-- It holds at coordinate 19 only. -/
theorem hcond2_1 : ∀ t : Fin cfg2.N, cond2_1 (grid2.coords t) ↔ t.val = 19 :=
  (by decide +kernel : ∀ t : Fin grid2.N, cond2_1 (grid2.coords t) ↔ t.val = 19)

/-- The four input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- The result window is idle, and not written back, at every point but the last; live at the last. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- Each window's current staging buffer at point t, and that it is a whole buffer. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x128 .f32 := win2_4.stage (cfg2.slots t 4)
abbrev hs2_4 (t : Fin cfg2.N) : (ms2_4 t).IsWhole := hstage2_4 ((cfg2.slots t 4).cast nbuf2_4)

/-- One store through the whole-block rectangle leaves its payload; last of several, it leaves its payload whatever the
    earlier ones were; a load through it of what one such store left reads the payload; a load through it of given
    contents reads them. -/
theorem canon_rO (w : Vec F S64x128 .f32) :
    View.canon [(⟨rO, w⟩ : View.Piece (Elt F) S64x128 .f32)] = w :=
  View.canon_unit_zero (S := S64x128) zeros2 inb_S64x128_S64x128_0_0 w
theorem canon_cons_rO (w : Vec F S64x128 .f32) (L : List (View.Piece (Elt F) S64x128 .f32)) :
    View.canon ((⟨rO, w⟩ : View.Piece (Elt F) S64x128 .f32) :: L) = w :=
  View.canon_cons_unit_zero (S := S64x128) zeros2 inb_S64x128_S64x128_0_0 w L
theorem readCov_rO (v : View sig .tc .vmem S64x128 .f32) (w : Vec F S64x128 .f32) :
    v.readCov [(⟨rO, w⟩ : View.Piece (Elt F) S64x128 .f32)] rO.toLoadRect = w :=
  View.readCov_unit_zero v zeros2 inb_S64x128_S64x128_0_0 w
theorem ld_rO (X : Vec F S64x128 .f32) : View.ld X rO = X :=
  View.ld_unit_zero (S := S64x128) zeros2 inb_S64x128_S64x128_0_0 X
/-- Every index of the block lies in the whole-block rectangle. -/
theorem mem_rO (y : S64x128.Idx) : y ∈ rO.set :=
  View.mem_set_unit_zero (S := S64x128) zeros2 inb_S64x128_S64x128_0_0 y

/-- What any view of the block reads after one store through the whole-block rectangle, or after several the last of
    which is through it: that store's payload, whatever the buffer held. -/
theorem read_one_rO (v : View sig .tc .vmem S64x128 .f32) (f : v.ty.Contents (Elt F)) (w : Vec F S64x128 .f32) :
    v.read (Elt F) (v.writes (Elt F) f [(⟨rO, w⟩ : View.Piece (Elt F) S64x128 .f32)]) = w := by
  rw [View.read_writes_eq_canon v f _
    (fun y => ⟨(⟨rO, w⟩ : View.Piece (Elt F) S64x128 .f32), List.mem_cons.mpr (Or.inl rfl), mem_rO y⟩), canon_rO]
theorem read_cons_rO (v : View sig .tc .vmem S64x128 .f32) (f : v.ty.Contents (Elt F)) (w : Vec F S64x128 .f32)
    (L : List (View.Piece (Elt F) S64x128 .f32)) :
    v.read (Elt F) (v.writes (Elt F) f ((⟨rO, w⟩ : View.Piece (Elt F) S64x128 .f32) :: L)) = w := by
  rw [View.read_writes_eq_canon v f _
    (fun y => ⟨(⟨rO, w⟩ : View.Piece (Elt F) S64x128 .f32), List.mem_cons.mpr (Or.inl rfl), mem_rO y⟩), canon_cons_rO]

set_option maxHeartbeats 1600000 in
/-- The body at the first point. From the four input buffers at x0 … x3, the result buffer at xo and the scratch buffer at
    anything (acc), the body clears the scratch buffer, updates it once from the four blocks, and stores nothing into the
    result buffer: it leaves the inputs and the result buffer as they were and the scratch buffer at one update of the
    cleared accumulator. -/
theorem runA (c : Dev nD) (i : grid2.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S64x128 .f32) (h5 : a5.IsWhole) (a6 : Memref sig .tc .vmem S64x128 .f32) (h6 : a6.IsWhole)
    (hc0 : cond2_0 i) (hc1 : ¬cond2_1 i)
    (x0 : Vec F S5000x128 .f32) (x1 : Vec F S5000x1 .f32) (x2 : Vec F S1x128 .f32) (x3 : Vec F S5000x1 .i32)
    (xo acc : Vec F S64x128 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xo ∗ owns (c : Thread nD τ) a6 fullShare acc
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare xo
            ∗ owns (c : Thread nD τ) a6 fullShare (step2 x0 x1 x2 x3 init2)) -∗ K ⟨⟩))
      ⊢ wp frame (wpE (defs₀ (F := F)) Variants.none c none) E (cc2__pool_kernel i a1 h1 a2 h2 a3 h3 a4 h4 a5 h5 a6 h6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_run_names
  rw [read_cons_rO, readCov_rO]
  unfold step2
  rw [canon_rO, ld_rO]
  unfold init2
  rw [canon_rO]
  simp only [View.readAt_eq_ld, hf0, hf1, hf2, hf3]

set_option maxHeartbeats 1600000 in
/-- The body at a middle point. From the four input buffers at x0 … x3, the result buffer at xo and the scratch buffer at
    acc, the body updates the scratch buffer once from the four blocks and stores nothing into the result buffer: it
    leaves the inputs and the result buffer as they were and the scratch buffer at one update of acc. -/
theorem runB (c : Dev nD) (i : grid2.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S64x128 .f32) (h5 : a5.IsWhole) (a6 : Memref sig .tc .vmem S64x128 .f32) (h6 : a6.IsWhole)
    (hc0 : ¬cond2_0 i) (hc1 : ¬cond2_1 i)
    (x0 : Vec F S5000x128 .f32) (x1 : Vec F S5000x1 .f32) (x2 : Vec F S1x128 .f32) (x3 : Vec F S5000x1 .i32)
    (xo acc : Vec F S64x128 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xo ∗ owns (c : Thread nD τ) a6 fullShare acc
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare xo
            ∗ owns (c : Thread nD τ) a6 fullShare (step2 x0 x1 x2 x3 acc)) -∗ K ⟨⟩))
      ⊢ wp frame (wpE (defs₀ (F := F)) Variants.none c none) E (cc2__pool_kernel i a1 h1 a2 h2 a3 h3 a4 h4 a5 h5 a6 h6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [read_one_rO]
  unfold step2
  rw [canon_rO]
  simp only [View.readAt_eq_ld, hf0, hf1, hf2, hf3, hf5]

set_option maxHeartbeats 1600000 in
/-- The body at the last point. From the four input buffers at x0 … x3, the result buffer at anything (xo) and the scratch
    buffer at acc, the body updates the scratch buffer once from the four blocks, then copies it to the result buffer:
    it leaves the inputs as they were and both the scratch buffer and the result buffer at one update of acc. -/
theorem runC (c : Dev nD) (i : grid2.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S64x128 .f32) (h5 : a5.IsWhole) (a6 : Memref sig .tc .vmem S64x128 .f32) (h6 : a6.IsWhole)
    (hc0 : ¬cond2_0 i) (hc1 : cond2_1 i)
    (x0 : Vec F S5000x128 .f32) (x1 : Vec F S5000x1 .f32) (x2 : Vec F S1x128 .f32) (x3 : Vec F S5000x1 .i32)
    (xo acc : Vec F S64x128 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xo ∗ owns (c : Thread nD τ) a6 fullShare acc
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (step2 x0 x1 x2 x3 acc)
            ∗ owns (c : Thread nD τ) a6 fullShare (step2 x0 x1 x2 x3 acc)) -∗ K ⟨⟩))
      ⊢ wp frame (wpE (defs₀ (F := F)) Variants.none c none) E (cc2__pool_kernel i a1 h1 a2 h2 a3 h3 a4 h4 a5 h5 a6 h6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [read_one_rO, readCov_rO]
    unfold step2
    rw [canon_rO]
    simp only [View.readAt_eq_ld, hf0, hf1, hf2, hf3, hf5]
  iexists _; isplitr
  swap; · iexact H5
  ipureintro
  sl_unfold_run_names
  rw [read_one_rO]
  unfold step2
  rw [canon_rO]
  simp only [View.readAt_eq_ld, hf0, hf1, hf2, hf3, hf5]

/-- The scoped buffers that are neither a staging buffer of this call nor its scratch, at anything. -/
abbrev restBut2 (c : Dev nD) : sProp 𝕄 :=
  Pipeline.scopedRestBut (Ix := Unit) (Name := ℕ) (U := UR sig nD τ) (Lvl := ℕ) (Val := Elt F) spec2 c [cc2_scratch0]

/-- What the launch hands the region, with the scratch buffer split off the other scoped buffers and owned as a
    memref at some contents. -/
theorem PhiA2_eq (c : Dev nD) :
    (Pipeline.ΦA spec2 c : sProp 𝕄)
      = iprop(((∃ d, owns (c : Thread nD τ) scM2 fullShare d) ∗ restBut2 (F := F) c) ∗ (∃ r, prngReg c r)) := by
  unfold Pipeline.ΦA
  rw [Pipeline.scopedRest_split_of_list spec2 c [cc2_scratch0] (by decide) (by decide)]
  simp only [bigSepL_singleton, scM2, owns_whole]
  rfl

/-- Before a point that is not the first, the scratch buffer holds the accumulator the point before left. -/
theorem PhiS2_pos (c : Dev nD) (n : ℕ) (h : n ≤ cfg2.N) (hz : n ≠ 0) :
    PhiS2 V c n h = iprop(owns (c : Thread nD τ) scM2 fullShare (accAt2 V c (n - 1) (by omega))
      ∗ restBut2 (F := F) c ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The accumulator after the first point: one update of the cleared accumulator. -/
theorem accAt2_first (c : Dev nD) (t : Fin cfg2.N) (h : t.val = 0) :
    accAt2 V c t.val t.isLt = step2 (iblk2 V c 0 t) (iblk2 V c 1 t) (iblk2 V c 2 t) (iblk2 V c 3 t) init2 := by
  obtain ⟨n, hn⟩ := t
  cases n with
  | zero => rfl
  | succ n => exact absurd h (Nat.succ_ne_zero n)

/-- The accumulator after a later point: one update of what the point before left. -/
theorem accAt2_later (c : Dev nD) (t : Fin cfg2.N) (h : t.val ≠ 0) :
    accAt2 V c t.val t.isLt = step2 (iblk2 V c 0 t) (iblk2 V c 1 t) (iblk2 V c 2 t) (iblk2 V c 3 t)
      (accAt2 V c (t.val - 1) (Nat.lt_of_le_of_lt (Nat.sub_le _ _) t.isLt)) := by
  obtain ⟨n, hn⟩ := t
  cases n with
  | zero => exact absurd rfl h
  | succ n => rfl

/-- Each input window's current buffer holds the window's block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The input buffers hold their blocks; the position says which of the three control cases
    the point is in: the first point (the scratch at anything, cleared and updated once), a middle point (the scratch
    at what the point before left, updated once), the last point (the same, then copied to the result buffer). The
    invariant hands the body the scratch buffer and takes it back at this point's accumulator; the result buffer is
    handed back as found everywhere but at the last point, where it holds the accumulator; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 20 := lt_of_lt_of_eq t.isLt (show cfg2.N = 20 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [accAt2_first V c t h0]
    rw [PhiS2_castSucc V c t, PhiS2_zero V c _ _ h0, PhiA2_eq]
    iintro ⟨⟨⟨⟨%ds, HS⟩, Hrest⟩, Hg⟩, Ho, ⟨%d0, H0⟩, ⟨%d1, H1⟩, ⟨%d2, H2⟩, ⟨%d3, H3⟩, ⟨%d4, H4⟩⟩
    iapply (runA c (grid2.coords t) _ _ _ _ _ _ _ _ _ _ _ _ hc0 hc1 (iblk2 V c 0 t) (iblk2 V c 1 t) (iblk2 V c 2 t) (iblk2 V c 3 t) _ ds Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    iexists _; iexact H4
  · by_cases h1 : t.val = 19
    · have hc0 : ¬cond2_0 (grid2.coords t) := fun h => h0 ((hcond2_0 t).mp h)
      have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      rw [accAt2_later V c t h0]
      rw [PhiS2_castSucc V c t, PhiS2_pos V c _ _ h0]
      iintro ⟨⟨HS, Hrest, Hg⟩, Ho, ⟨%d0, H0⟩, ⟨%d1, H1⟩, ⟨%d2, H2⟩, ⟨%d3, H3⟩, ⟨%d4, H4⟩⟩
      iapply (runC c (grid2.coords t) _ _ _ _ _ _ _ _ _ _ _ _ hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 4 t (idleAt2_4 t hc1) (noFlush2_4 t hc1)]
      rw [accAt2_later V c t h0]
      rw [PhiS2_castSucc V c t, PhiS2_pos V c _ _ h0]
      iintro ⟨⟨HS, Hrest, Hg⟩, Ho, ⟨%d0, H0⟩, ⟨%d1, H1⟩, ⟨%d2, H2⟩, ⟨%d3, H3⟩, ⟨%d4, H4⟩⟩
      iapply (runB c (grid2.coords t) _ _ _ _ _ _ _ _ _ _ _ _ hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact Idealize.SL.BI.Entails.refl _

/-- After the last point the invariant gives back what the launch handed over: the accumulator's value is forgotten. -/
theorem hout2 (c : Dev nD) : (dat2 (F := F) V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro ⟨HS, Hrest, Hg⟩
  isplitl [HS Hrest]
  · isplitl [HS]
    · iexists _; iexact HS
    iexact Hrest
  iexact Hg

end Cert.Kernel.Hand

end
-- ==== Proof.KB.Frame.lean ====
/-
  The frame of the program.

  Every weakly fair execution of @main, from any launch memory with every counter at zero, terminates without a fault,
  and each of the seven argument arrays ends holding what it held at launch. This is the run of the whole program
  (its three kernel regions between stretches of host operations, each region entered from and left at known
  contents) with the statement about the result buffer dropped; the three regions' bodies are supplied here: at every
  grid point each body, handed the staged blocks, returns them with the result block stored, and region 2's invariant
  is entered from and left at the plain array invariant.
-/
import proofs.«409848_j24326694765010_2_alg».proof.Proof.KB.Run
import proofs.«409848_j24326694765010_2_alg».proof.Proof.KB.Body0
import proofs.«409848_j24326694765010_2_alg».proof.Proof.KB.Body1
import proofs.«409848_j24326694765010_2_alg».proof.Proof.KB.Body2

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- THE FRAME: the program runs to the end without a fault on every weakly fair execution, and its seven argument
    arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2)
    (run_outs m ρ (fun c => body_obligation0 (E0 m) c) (fun c => body_obligation1 (E1 m) c)
      (fun c => body_obligation2 (E2 m) c) (fun c => hin2 (E2 m) c) (fun c => hout2 (E2 m) c))

end Cert.Kernel.Hand

end
-- ==== Proof.KI.Dat0.lean ====
/-
  Region 0 (the first linear layer): the data the pipeline's rule is applied at.

  At a grid point t the kernel reads rows 5000 t … 5000 t + 4999 of the node features, the whole 128 × 128 weight and the
  same rows of the degree scale, and writes the same rows of the result: the matrix product of the row block with the
  weight, each row then multiplied by that row's scale. Everything is stated at a parameter V, the contents of the
  TensorCore's buffers when the region is entered.
-/
import proofs.«409848_j24326694765010_2_alg».proof.Proof.Gen.KernelIdeal.Launch
import proofs.«409848_j24326694765010_2_alg».proof.Proof.Gen.KernelIdeal.Skeleton
import proofs.«409848_j24326694765010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 128 block, the whole 128 × 128 block, the whole 5000 × 1 block, as rectangles. -/
abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rD : Rect S5000x1 := Rect.unit (s := S5000x1) ![0, 0] S5000x1.size inb_S5000x1_S5000x1_0_0

/-- What the body leaves in the result window's buffer, from the three input blocks: one store of the whole block. -/
def out0_3 (x0 : Vec F S5000x128 .f32) (x1 : Vec F S128x128 .f32) (x2 : Vec F S5000x1 .f32) : Vec F S5000x128 .f32 :=
  View.canon [⟨rX, k0_pay1 (View.ld x0 rX) (View.ld x1 rW) (View.ld x2 rD)⟩]

/-- The pipeline's data on core c: the arrays as found; after the body each input's buffer at its block and the
    result's at out0_3 of the input blocks; nothing carried from point to point; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.Dat1.lean ====
/-
  Region 1 (the second layer's linear step, fused with the first layer's bias and rectifier): the data the pipeline's
  rule is applied at.

  At a grid point t the kernel reads rows 5000 t … 5000 t + 4999 of the aggregated features and of the degree scale, the
  bias row and the whole weight, and writes the same rows of the result: each aggregated row times its scale, plus the
  bias, clipped below at zero, multiplied into the weight, each row of the product again times its scale. Stated at a
  parameter V, the contents of the TensorCore's buffers when the region is entered.
-/
import proofs.«409848_j24326694765010_2_alg».proof.Proof.Gen.KernelIdeal.Launch
import proofs.«409848_j24326694765010_2_alg».proof.Proof.Gen.KernelIdeal.Skeleton
import proofs.«409848_j24326694765010_2_alg».proof.Proof.Gen.KernelIdeal.Points
import proofs.«409848_j24326694765010_2_alg».proof.Proof.KI.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1 × 128 block as a rectangle. -/
abbrev rB : Rect S1x128 := Rect.unit (s := S1x128) ![0, 0] S1x128.size inb_S1x128_S1x128_0_0

/-- What the body leaves in the result window's buffer, from the four input blocks (the scale block is loaded twice):
    one store of the whole block. -/
def out1_4 (x0 : Vec F S5000x128 .f32) (x1 : Vec F S5000x1 .f32) (x2 : Vec F S1x128 .f32) (x3 : Vec F S128x128 .f32) :
    Vec F S5000x128 .f32 :=
  View.canon [⟨rX, k1_pay1 (View.ld x0 rX) (View.ld x1 rD) (View.ld x2 rB) (View.ld x3 rW) (View.ld x1 rD)⟩]

/-- The pipeline's data on core c: the arrays as found; after the body each input's buffer at its block and the
    result's at out1_4 of the input blocks; nothing carried from point to point; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Cert.KernelIdeal.Hand

end
-- ==== Proof.KI.Dat2.lean ====
/-
  Region 2 (the second layer's bias and rectifier fused with the pooling): the data the pipeline's rule is applied at.

  The kernel keeps a 64 × 128 accumulator in a scratch buffer across the 20 grid points. At the first point it clears
  the accumulator; at every point t it adds to it the product of the transposed one-hot matrix of the graph ids of rows
  5000 t … 5000 t + 4999 with the rectified rows; at the last point it copies the accumulator to the result window,
  which is written back there and nowhere else. So the accumulator after point n is a recursion on n, and the region's
  invariant between points holds the scratch buffer at that value. Stated at a parameter V, the contents of the
  TensorCore's buffers when the region is entered.
-/
import proofs.«409848_j24326694765010_2_alg».proof.Proof.Gen.KernelIdeal.Launch
import proofs.«409848_j24326694765010_2_alg».proof.Proof.Gen.KernelIdeal.Skeleton
import proofs.«409848_j24326694765010_2_alg».proof.Proof.Gen.KernelIdeal.Points
import proofs.«409848_j24326694765010_2_alg».proof.Proof.KI.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 64 × 128 block as a rectangle. -/
abbrev rO : Rect S64x128 := Rect.unit (s := S64x128) ![0, 0] S64x128.size inb_S64x128_S64x128_0_0

/-- The scratch buffer the kernel accumulates in. -/
abbrev scM2 : Memref sig .tc .vmem S64x128 .f32 := Memref.whole cc2_scratch0

/-- The cleared accumulator: what the first point's store leaves. -/
def init2 : Vec F S64x128 .f32 := View.canon [⟨rO, k2_pay1 (F := F)⟩]

/-- One point's update of the accumulator from the point's four input blocks. -/
def step2 (x0 : Vec F S5000x128 .f32) (x1 : Vec F S5000x1 .f32) (x2 : Vec F S1x128 .f32) (x3 : Vec F S5000x1 .i32)
    (acc : Vec F S64x128 .f32) : Vec F S64x128 .f32 :=
  View.canon [⟨rO, k2_pay2 (View.ld x0 rX) (View.ld x1 rD) (View.ld x2 rB) (View.ld x3 rD) (View.ld acc rO)⟩]

/-- The accumulator after grid point n: cleared and updated once at the first point, updated once more at each later one. -/
def accAt2 (c : Dev nD) : (n : ℕ) → n < cfg2.N → Vec F S64x128 .f32
  | 0, h => step2 (iblk2 V c 0 ⟨0, h⟩) (iblk2 V c 1 ⟨0, h⟩) (iblk2 V c 2 ⟨0, h⟩) (iblk2 V c 3 ⟨0, h⟩) init2
  | n + 1, h => step2 (iblk2 V c 0 ⟨n + 1, h⟩) (iblk2 V c 1 ⟨n + 1, h⟩) (iblk2 V c 2 ⟨n + 1, h⟩) (iblk2 V c 3 ⟨n + 1, h⟩)
      (accAt2 c n (Nat.lt_of_succ_lt h))

theorem accAt2_zero (c : Dev nD) (h : 0 < cfg2.N) :
    accAt2 V c 0 h = step2 (iblk2 V c 0 ⟨0, h⟩) (iblk2 V c 1 ⟨0, h⟩) (iblk2 V c 2 ⟨0, h⟩) (iblk2 V c 3 ⟨0, h⟩) init2 := rfl

theorem accAt2_succ (c : Dev nD) (n : ℕ) (h : n + 1 < cfg2.N) :
    accAt2 V c (n + 1) h = step2 (iblk2 V c 0 ⟨n + 1, h⟩) (iblk2 V c 1 ⟨n + 1, h⟩) (iblk2 V c 2 ⟨n + 1, h⟩) (iblk2 V c 3 ⟨n + 1, h⟩)
      (accAt2 V c n (Nat.lt_of_succ_lt h)) := rfl

/-- The region's invariant before grid point n: before the first point every scoped buffer that is no staging buffer
    of this call at anything; afterwards the scratch buffer at the accumulator the point before left, the other such
    buffers at anything; the generator register at some state throughout. -/
def PhiS2 (c : Dev nD) : (n : ℕ) → n ≤ cfg2.N → sProp 𝕄
  | 0, _ => Pipeline.ΦA spec2 c
  | n + 1, hn => iprop(owns (c : Thread nD τ) scM2 fullShare (accAt2 V c n hn)
      ∗ Pipeline.scopedRestBut (Ix := Unit) (Name := ℕ) (U := UR sig nD τ) (Lvl := ℕ) (Val := Elt F) spec2 c [cc2_scratch0]
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (accAt2 V c n hn)
      ∗ Pipeline.scopedRestBut (Ix := Unit) (Name := ℕ) (U := UR sig nD τ) (Lvl := ℕ) (Val := Elt F) spec2 c [cc2_scratch0]
      ∗ (∃ r, prngReg c r)) := rfl

/-- The pipeline's data on core c: the arrays as found; after the body each input's buffer at its block and the
    result window's at the accumulator after that point (read only at the last point, the one point that stores it and
    writes it back); between points the invariant PhiS2; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = accAt2 V c t.val t.isLt := by dsimp only [dat2]

end Cert.KernelIdeal.Hand

end
-- ==== Proof.KI.Stages.lean ====
/-
  The contents of the core's buffers between the items of @main.

  Region k is entered with the buffers at E_k: the launch contents carried through the stretches of host operations
  and the earlier regions. A region leaves its result array at what its 20 write-backs make of it and every other
  buffer as it found it; `outs` collects what the three regions leave, so that the valuations V4 … V9 of
  the conditional frame, read at `outs`, are the true contents.
-/
import proofs.«409848_j24326694765010_2_alg».proof.Proof.KI.Dat2
import proofs.«409848_j24326694765010_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents when each region is entered, and what each region leaves -/

/-- The buffers as region 0 finds them: the launch contents after the first three stretches of host operations. -/
abbrev E0 : (c : Dev nD) → (b : Ref sig .tc) → Buf (Elt F) ((c : Thread nD τ).loc b) := fun c b => Gen.V3 m c b

/-- The buffers as region 0 leaves them: its result array at what the 20 write-backs leave, the rest as found. -/
def o4 (c : Dev nD) : Valuation τ sig (Elt F) :=
  Pipeline.withArrays spec0 c (Gen.V3 m c) fun w => (dat0 (E0 m) c).arrAt w cfg0.N

/-- The contents the regions leave, as far as region 0. -/
def outsA : Gen.Outs (F := F) := fun _ r c => o4 m c r

/-- The buffers as region 1 finds them. -/
abbrev E1 : (c : Dev nD) → (b : Ref sig .tc) → Buf (Elt F) ((c : Thread nD τ).loc b) := fun c b => Gen.V5 m (outsA m) c b

/-- The buffers as region 1 leaves them. -/
def o6 (c : Dev nD) : Valuation τ sig (Elt F) :=
  Pipeline.withArrays spec1 c (Gen.V5 m (outsA m) c) fun w => (dat1 (E1 m) c).arrAt w cfg1.N

/-- The contents the regions leave, as far as region 1. -/
def outsB : Gen.Outs (F := F) := fun J r c => match J with
  | 6 => o6 m c r
  | _ => o4 m c r

/-- The buffers as region 2 finds them. -/
abbrev E2 : (c : Dev nD) → (b : Ref sig .tc) → Buf (Elt F) ((c : Thread nD τ).loc b) := fun c b => Gen.V7 m (outsB m) c b

/-- The buffers as region 2 leaves them. -/
def o8 (c : Dev nD) : Valuation τ sig (Elt F) :=
  Pipeline.withArrays spec2 c (Gen.V7 m (outsB m) c) fun w => (dat2 (E2 m) c).arrAt w cfg2.N

/-- The contents every region leaves. -/
def outs : Gen.Outs (F := F) := fun J r c => match J with
  | 8 => o8 m c r
  | 6 => o6 m c r
  | _ => o4 m c r

theorem V4_outs (c : Dev nD) : Gen.V4 m (outs m) c = Gen.V4 m (outsA m) c := rfl
theorem V5_outs (c : Dev nD) : Gen.V5 m (outs m) c = Gen.V5 m (outsA m) c := rfl
theorem V6_outs (c : Dev nD) : Gen.V6 m (outs m) c = Gen.V6 m (outsB m) c := rfl
theorem V7_outs (c : Dev nD) : Gen.V7 m (outs m) c = Gen.V7 m (outsB m) c := rfl

end Cert.KernelIdeal.Hand

end
-- ==== Proof.KI.Run.lean ====
/-
  The run of the whole program: its three kernel regions between stretches of host operations.

  Between two items of @main every buffer of the core that outlives a region holds known contents: the launch
  contents, then what each stretch of host operations computes from them, then, after a region, the region's result
  array at what the region's 20 write-backs leave and everything else unchanged. The three regions are entered from
  and left at exactly those contents; beside the buffers a core carries only its generator register and the fact that
  it owes no signal. From this the program terminates without a fault on every weakly fair execution, its arguments
  end unchanged, and its result buffer ends at the last stretch's value of the third region's result.
-/
import proofs.«409848_j24326694765010_2_alg».proof.Proof.KI.Stages
import proofs.«409848_j24326694765010_2_alg».proof.Proof.KI.RunPost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and what rides beside the buffers -/

/-- Every pipeline's data, each at its region's entry contents. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What a core carries beside its buffers through every item: its generator register at some state, and that it owes nothing. -/
abbrev R (c : Dev nD) : sProp 𝕄 := iprop((∃ r, prngReg c r) ∗ ∃ W, owes (c : Thread nD τ) (0 : CellTallies nD τ sig Unit) W)

/-- Region 0's result array after the region: what its write-backs leave. -/
theorem out0_eq (c : Dev nD) : Gen.V4 m (outs m) c main_v17 = (dat0 (E0 m) c).arrAt 3 cfg0.N := by
  show Function.update _ _ _ _ = _
  rw [Function.update_self]
  exact Pipeline.withArrays_arr spec0 launch0.win.arr_inj c (Gen.V3 m c) (fun w => (dat0 (E0 m) c).arrAt w cfg0.N) 3

/-- After region 0 each of its arrays holds what the write-backs leave: an input array what it held (it is never
    written), the result array the region's result. -/
theorem hF0 (c : Dev nD) (w : Fin cfg0.W) :
    (dat0 (E0 m) c).arrAt w cfg0.N = (fun b : Ref sig .tc => Gen.V4 m (outs m) c b) (Pipeline.arrRef spec0 w) := by
  match w with
  | ⟨0, _⟩ => exact (((dat0 (E0 m) c).arrAt_in 0 rfl _).trans (A_eq0 (E0 m) c 0)).trans (Gen.V4_of m (outs m) c main_arg0 (by decide)).symm
  | ⟨1, _⟩ => exact (((dat0 (E0 m) c).arrAt_in 1 rfl _).trans (A_eq0 (E0 m) c 1)).trans (Gen.V4_of m (outs m) c main_arg1 (by decide)).symm
  | ⟨2, _⟩ => exact (((dat0 (E0 m) c).arrAt_in 2 rfl _).trans (A_eq0 (E0 m) c 2)).trans (Gen.V4_of m (outs m) c main_v15 (by decide)).symm
  | ⟨3, _⟩ => exact (out0_eq m c).symm

/-- and every other buffer what it held at entry. -/
theorem hrest0 (c : Dev nD) : ∀ b : Ref sig .tc, b ∉ Finset.univ.image (Pipeline.arrRef spec0) →
    (fun b : Ref sig .tc => Gen.V4 m (outs m) c b) b = E0 m c b := fun b hb =>
  Gen.V4_of m (outs m) c b (fun h => hb (Finset.mem_image.mpr ⟨3, Finset.mem_univ _, (List.mem_singleton.mp h).symm⟩))

-- the pinned configuration a library lemma is stated over and the printed one are the same configuration once plain
-- definitions are unfolded
set_option backward.isDefEq.respectTransparency.types false in
/-- Region 0: entered with every buffer that outlives a region at Gen.V3 m c, left with them at Gen.V4 m (outs m) c. Its windows'
    arrays are split out of those buffers at entry and put back, at what the write-backs leave, at exit; the generator
    register goes into the region's invariant and comes back; the core owes nothing; the kernel has no semaphore of its own. -/
def reg0 (hb : ∀ c, BodyObligation (dat0 (F := F) (E0 m) c) (defs₀ (F := F)) Variants.none () Set.univ) :
    Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (fun b => (Gen.V4 m (outs m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's result array after the region: what its write-backs leave. -/
theorem out1_eq (c : Dev nD) : Gen.V6 m (outs m) c main_v29 = (dat1 (E1 m) c).arrAt 4 cfg1.N := by
  show Function.update _ _ _ _ = _
  rw [Function.update_self]
  exact Pipeline.withArrays_arr spec1 launch1.win.arr_inj c (Gen.V5 m (outsA m) c) (fun w => (dat1 (E1 m) c).arrAt w cfg1.N) 4

/-- After region 1 each of its arrays holds what the write-backs leave: an input array what it held (it is never
    written), the result array the region's result. -/
theorem hF1 (c : Dev nD) (w : Fin cfg1.W) :
    (dat1 (E1 m) c).arrAt w cfg1.N = (fun b : Ref sig .tc => Gen.V6 m (outs m) c b) (Pipeline.arrRef spec1 w) := by
  match w with
  | ⟨0, _⟩ => exact (((dat1 (E1 m) c).arrAt_in 0 rfl _).trans (A_eq1 (E1 m) c 0)).trans (Gen.V6_of m (outs m) c main_v27 (by decide)).symm
  | ⟨1, _⟩ => exact (((dat1 (E1 m) c).arrAt_in 1 rfl _).trans (A_eq1 (E1 m) c 1)).trans (Gen.V6_of m (outs m) c main_v15 (by decide)).symm
  | ⟨2, _⟩ => exact (((dat1 (E1 m) c).arrAt_in 2 rfl _).trans (A_eq1 (E1 m) c 2)).trans (Gen.V6_of m (outs m) c main_v28 (by decide)).symm
  | ⟨3, _⟩ => exact (((dat1 (E1 m) c).arrAt_in 3 rfl _).trans (A_eq1 (E1 m) c 3)).trans (Gen.V6_of m (outs m) c main_arg3 (by decide)).symm
  | ⟨4, _⟩ => exact (out1_eq m c).symm

/-- and every other buffer what it held at entry. -/
theorem hrest1 (c : Dev nD) : ∀ b : Ref sig .tc, b ∉ Finset.univ.image (Pipeline.arrRef spec1) →
    (fun b : Ref sig .tc => Gen.V6 m (outs m) c b) b = E1 m c b := fun b hb =>
  Gen.V6_of m (outs m) c b (fun h => hb (Finset.mem_image.mpr ⟨4, Finset.mem_univ _, (List.mem_singleton.mp h).symm⟩))

-- the pinned configuration a library lemma is stated over and the printed one are the same configuration once plain
-- definitions are unfolded
set_option backward.isDefEq.respectTransparency.types false in
/-- Region 1: entered with every buffer that outlives a region at Gen.V5 m (outs m) c, left with them at Gen.V6 m (outs m) c. Its windows'
    arrays are split out of those buffers at entry and put back, at what the write-backs leave, at exit; the generator
    register goes into the region's invariant and comes back; the core owes nothing; the kernel has no semaphore of its own. -/
def reg1 (hb : ∀ c, BodyObligation (dat1 (F := F) (E1 m) c) (defs₀ (F := F)) Variants.none () Set.univ) :
    Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Gen.V5 m (outsA m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => (Gen.V6 m (outs m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's result array after the region: what its write-backs leave. -/
theorem out2_eq (c : Dev nD) : Gen.V8 m (outs m) c main_v41 = (dat2 (E2 m) c).arrAt 4 cfg2.N := by
  show Function.update _ _ _ _ = _
  rw [Function.update_self]
  exact Pipeline.withArrays_arr spec2 launch2.win.arr_inj c (Gen.V7 m (outsB m) c) (fun w => (dat2 (E2 m) c).arrAt w cfg2.N) 4

/-- After region 2 each of its arrays holds what the write-backs leave: an input array what it held (it is never
    written), the result array the region's result. -/
theorem hF2 (c : Dev nD) (w : Fin cfg2.W) :
    (dat2 (E2 m) c).arrAt w cfg2.N = (fun b : Ref sig .tc => Gen.V8 m (outs m) c b) (Pipeline.arrRef spec2 w) := by
  match w with
  | ⟨0, _⟩ => exact (((dat2 (E2 m) c).arrAt_in 0 rfl _).trans (A_eq2 (E2 m) c 0)).trans (Gen.V8_of m (outs m) c main_v39 (by decide)).symm
  | ⟨1, _⟩ => exact (((dat2 (E2 m) c).arrAt_in 1 rfl _).trans (A_eq2 (E2 m) c 1)).trans (Gen.V8_of m (outs m) c main_v15 (by decide)).symm
  | ⟨2, _⟩ => exact (((dat2 (E2 m) c).arrAt_in 2 rfl _).trans (A_eq2 (E2 m) c 2)).trans (Gen.V8_of m (outs m) c main_v40 (by decide)).symm
  | ⟨3, _⟩ => exact (((dat2 (E2 m) c).arrAt_in 3 rfl _).trans (A_eq2 (E2 m) c 3)).trans (Gen.V8_of m (outs m) c main_v16 (by decide)).symm
  | ⟨4, _⟩ => exact (out2_eq m c).symm

/-- and every other buffer what it held at entry. -/
theorem hrest2 (c : Dev nD) : ∀ b : Ref sig .tc, b ∉ Finset.univ.image (Pipeline.arrRef spec2) →
    (fun b : Ref sig .tc => Gen.V8 m (outs m) c b) b = E2 m c b := fun b hb =>
  Gen.V8_of m (outs m) c b (fun h => hb (Finset.mem_image.mpr ⟨4, Finset.mem_univ _, (List.mem_singleton.mp h).symm⟩))

-- the pinned configuration a library lemma is stated over and the printed one are the same configuration once plain
-- definitions are unfolded
set_option backward.isDefEq.respectTransparency.types false in
/-- Region 2: entered with every buffer that outlives a region at Gen.V7 m (outs m) c, left with them at Gen.V8 m (outs m) c. Its windows'
    arrays are split out of those buffers at entry and put back, at what the write-backs leave, at exit; the generator
    register goes into the region's invariant and comes back; the core owes nothing; the kernel has no semaphore of its own. -/
def reg2 (hi2 : ∀ c, Pipeline.ΦA spec2 c ⊢ (dat2 (F := F) (E2 m) c).Φ 0)
    (ho2 : ∀ c, (dat2 (F := F) (E2 m) c).Φ (Fin.last cfg2.N) ⊢ Pipeline.ΦA spec2 c)
    (hb : ∀ c, BodyObligation (dat2 (F := F) (E2 m) c) (defs₀ (F := F)) Variants.none () Set.univ) :
    Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (Gen.V7 m (outsB m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hi2 c)
    unfold Pipeline.ΦA
    iintro ⟨Hp, -, Hr⟩
    isplitl [Hr]; · iexact Hr
    iexact Hp
  hout c := by
    rw [Pipeline.ownSems0_none]
    refine Idealize.SL.BI.BIBase.Entails.trans (ho2 c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E2 m c) (fun b => (Gen.V8 m (outs m) c) b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

/-- Every weakly fair execution of @main from the memory m with zero counters terminates without a fault; its result
    buffer ends at the last stretch's value over what the regions leave, and every argument array as launched. -/
theorem run_outs
    (hb0 : ∀ c, BodyObligation (dat0 (F := F) (E0 m) c) (defs₀ (F := F)) Variants.none () Set.univ)
    (hb1 : ∀ c, BodyObligation (dat1 (F := F) (E1 m) c) (defs₀ (F := F)) Variants.none () Set.univ)
    (hb2 : ∀ c, BodyObligation (dat2 (F := F) (E2 m) c) (defs₀ (F := F)) Variants.none () Set.univ)
    (hi2 : ∀ c, Pipeline.ΦA spec2 c ⊢ (dat2 (F := F) (E2 m) c).Φ 0)
    (ho2 : ∀ c, (dat2 (F := F) (E2 m) c).Φ (Fin.last cfg2.N) ⊢ Pipeline.ΦA spec2 c) :
    θ_run defs (onTc (τ := τ) (main (F := F))) ⟨m, fun _ => 0, ρ⟩ (fun r => ∀ c : Dev nD,
      r.2.mem ((c.tc : Thread nD τ).loc main_v50) = Gen.V9 m (outs m) c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond_res m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m hb0) (fun c => .rfl) (fun c => .rfl)
    (reg1 m hb1) (fun c => .rfl) (fun c => .rfl)
    (reg2 m hi2 ho2 hb2) (fun c => .rfl) (fun c => .rfl)

end Cert.KernelIdeal.Hand

end
-- ==== Proof.KI.Body0.lean ====
/-
  Region 0 (the first linear layer): the body's obligation at every grid point.

  At a grid point the body reads the whole of three staging blocks (a 5000 x 128 block of node features, the
  128 x 128 weight, a 5000 x 1 block of degree scales), reads the result's staging block without using what it
  read, and overwrites the whole result block once with the product of the feature block and the weight, each row
  scaled by that row's degree scale. Nothing is carried from one point to the next.

  So two things are to be shown. First, each input's current staging block holds that window's block of its array
  at every point, whether or not a transfer brought it in at that very point: the feature and scale blocks are
  brought in afresh at every point, while the weight is brought in at the first point only and afterwards stays,
  its block index never moving. Second, one store of the whole block leaves the result's staging block at the
  stored value whatever it held before, because that one store covers every position of the block.
-/
import proofs.«409848_j24326694765010_2_alg».proof.Proof.Gen.KernelIdeal.Launch
import proofs.«409848_j24326694765010_2_alg».proof.Proof.Gen.KernelIdeal.Skeleton
import proofs.«409848_j24326694765010_2_alg».proof.Proof.Gen.KernelIdeal.Points
import proofs.«409848_j24326694765010_2_alg».proof.Proof.KI.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging blocks hold the windows' blocks -/

/-- The feature window's current staging block holds rows 5000 t … 5000 t + 4999 of the features at every point:
    it is brought in afresh at every point. -/
theorem features_staged0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight window's staging block holds the whole weight at every point: brought in at the first point, and
    at every later point still there, since the body leaves it as found and its block index never moves. -/
theorem weight_staged0 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The scale window's current staging block holds rows 5000 t … 5000 t + 4999 of the degree scale at every point:
    it is brought in afresh at every point. -/
theorem scale_staged0 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The one store covers the result block -/

/-- A single store of the whole 5000 x 128 block reaches every position of it: the block is one tile of its own
    size. -/
theorem whole_store_covers0 (p : Vec F S5000x128 .f32) (y : S5000x128.Idx) :
    ∃ pc ∈ ([⟨rX, p⟩] : List (View.Piece (Elt F) S5000x128 .f32)), y ∈ pc.1.set :=
  View.cover_of_tiled [⟨rX, p⟩] S5000x128.size (by rfl) y

/-! ## The body on whole staging blocks -/

set_option maxHeartbeats 1000000 in
/-- The body, run on four whole staging blocks of which the three inputs read x0, x1, x2 and the result holds
    anything, ends with the inputs as they were and the result at the one stored value: the three loads read the
    inputs' contents, the fourth load's value is unused, and the store, covering the block, fixes what it reads
    afterwards. -/
theorem linear_dinv_on_blocks (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x1 .f32) (harg3 : arg3.IsWhole)
    (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E
          (cc0__linear_dinv_kernel i arg1 harg1 arg2 harg2 arg3 harg3 arg4 harg4) K := by
  simp only [cc0__linear_dinv_kernel_eq_skeleton]; unfold cc0__linear_dinv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole_store_covers0 _)

/-! ## The obligation at a grid point -/

/-- What the body is handed at point t: the invariant, what the core owes, and each window's current staging
    block at what it then holds. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, the inputs' blocks as found, the result's block at the
    scaled product. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging blocks hold their windows' blocks, so the body's behaviour on
    whole blocks applies; the invariant and the debt pass through untouched. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [features_staged0, weight_staged0, scale_staged0]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (linear_dinv_on_blocks c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation in region 0, at every grid point. -/
theorem body_obligation0 (c : Dev nD) : BodyObligation (dat0 (F := F) V c) (defs₀ (F := F)) Variants.none () Set.univ := fun t => by
  rw [bigSep_W0, bigSep_W0]
  exact body_at0 V c t

end Cert.KernelIdeal.Hand

end
-- ==== Proof.KI.Body1.lean ====
/-
  Region 1 (the second layer's linear step, fused with the first layer's bias and rectifier): the body's
  obligation at every grid point.

  At a grid point the body reads the whole of four staging blocks (a 5000 x 128 block of aggregated features, a
  5000 x 1 block of degree scales, the 1 x 128 bias row, the 128 x 128 weight), reads the scale block a second
  time, reads the result's staging block without using what it read, and overwrites the whole result block once:
  each aggregated row times its scale, plus the bias, clipped below at zero, multiplied into the weight, each row
  of the product again times its scale. Nothing is carried from one point to the next.

  So two things are to be shown. First, each input's current staging block holds that window's block of its array
  at every point, whether or not a transfer brought it in at that very point: the feature and scale blocks are
  brought in afresh at every point, while the bias row and the weight are brought in at the first point only and
  afterwards stay, their block indices never moving. Both reads of the scale block see the same contents, no
  store coming between them. Second, one store of the whole block leaves the result's staging block at the stored
  value whatever it held before, because that one store covers every position of the block.
-/
import proofs.«409848_j24326694765010_2_alg».proof.Proof.Gen.KernelIdeal.Launch
import proofs.«409848_j24326694765010_2_alg».proof.Proof.Gen.KernelIdeal.Skeleton
import proofs.«409848_j24326694765010_2_alg».proof.Proof.Gen.KernelIdeal.Points
import proofs.«409848_j24326694765010_2_alg».proof.Proof.KI.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging blocks hold the windows' blocks -/

/-- The feature window's current staging block holds rows 5000 t … 5000 t + 4999 of the aggregated features at
    every point: it is brought in afresh at every point. -/
theorem features_staged1 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The scale window's current staging block holds rows 5000 t … 5000 t + 4999 of the degree scale at every point:
    it is brought in afresh at every point. -/
theorem scale_staged1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The bias window's staging block holds the whole bias row at every point: brought in at the first point, and
    at every later point still there, since the body leaves it as found and its block index never moves. -/
theorem bias_staged1 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The weight window's staging block holds the whole weight at every point, for the same reason as the bias
    row's. -/
theorem weight_staged1 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The one store covers the result block -/

/-- A single store of the whole 5000 x 128 block reaches every position of it: the block is one tile of its own
    size. -/
theorem whole_store_covers1 (p : Vec F S5000x128 .f32) (y : S5000x128.Idx) :
    ∃ pc ∈ ([⟨rX, p⟩] : List (View.Piece (Elt F) S5000x128 .f32)), y ∈ pc.1.set :=
  View.cover_of_tiled [⟨rX, p⟩] S5000x128.size (by rfl) y

/-! ## The body on whole staging blocks -/

set_option maxHeartbeats 1000000 in
/-- The body, run on five whole staging blocks of which the four inputs read x0, x1, x2, x3 and the result holds
    anything, ends with the inputs as they were and the result at the one stored value: the loads read the
    inputs' contents (the scale block's twice, the same both times), the last load's value is unused, and the
    store, covering the block, fixes what it reads afterwards. -/
theorem bias_relu_linear_dinv_on_blocks (c : Dev nD) (E : Set ℕ) (i : grid1.Coords)
    (arg1 : Memref sig .tc .vmem S5000x128 .f32) (harg1 : arg1.IsWhole)
    (arg2 : Memref sig .tc .vmem S5000x1 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S5000x128 .f32) (harg5 : arg5.IsWhole)
    (x0 : Vec F S5000x128 .f32) (x1 : Vec F S5000x1 .f32) (x2 : Vec F S1x128 .f32) (x3 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__fused_bias_relu_linear_dinv_kernel i arg1 harg1 arg2 harg2 arg3 harg3 arg4 harg4 arg5 harg5) K := by
  simp only [cc1__fused_bias_relu_linear_dinv_kernel_eq_skeleton]; unfold cc1__fused_bias_relu_linear_dinv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole_store_covers1 _)

/-! ## The obligation at a grid point -/

/-- What the body is handed at point t: the invariant, what the core owes, and each window's current staging
    block at what it then holds. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the same invariant and debt, the inputs' blocks as found, the result's block at the
    stored value. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' staging blocks hold their windows' blocks, so the body's behaviour on
    whole blocks applies; the invariant and the debt pass through untouched. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [features_staged1, scale_staged1, bias_staged1, weight_staged1]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (bias_relu_linear_dinv_on_blocks c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation in region 1, at every grid point. -/
theorem body_obligation1 (c : Dev nD) : BodyObligation (dat1 (F := F) V c) (defs₀ (F := F)) Variants.none () Set.univ := fun t => by
  rw [bigSep_W1, bigSep_W1]
  exact body_at1 V c t

end Cert.KernelIdeal.Hand

end
-- ==== Proof.KI.Body2.lean ====
/-
  Region 2 (the second layer's bias and rectifier fused with the pooling): the body's obligation.

  The kernel's body has two conditionals on the grid coordinate: at the first point it clears the 64 × 128 accumulator it
  keeps in a scratch buffer; at every point it adds to the accumulator the product of the transposed one-hot matrix of the
  point's graph ids with the point's rectified rows; at the last point it copies the accumulator to the result buffer. So
  the 20 points fall into three control cases — the first, a middle one, the last — and the body is run once per case,
  on any buffers, with what it leaves stated in closed form. The obligation at a point then picks the point's case from
  its position; the invariant between points carries the scratch buffer at the accumulator the point before left; the
  result buffer is handed back as found at every point but the last, where alone it is written back.
-/
import proofs.«409848_j24326694765010_2_alg».proof.Proof.KI.Dat2
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The all-zero offset of a rank-two rectangle, however it is spelt. -/
theorem zeros2 : (![0, 0] : Fin 2 → Nat) = fun _ => 0 := by funext a; fin_cases a <;> rfl

/-- The kernel's first branch condition (the point is the first), from the grid coordinate. -/
abbrev cond2_0 (i : grid2.Coords) : Prop :=
  (Scalar.cmpi .ne (Scalar.extui (Scalar.cmpi .eq (BitVec.ofNat 32 (i 0).val) 0#32)) 0#32) = 1#1
/-- It holds at coordinate 0 only. -/
theorem hcond2_0 : ∀ t : Fin cfg2.N, cond2_0 (grid2.coords t) ↔ t.val = 0 :=
  (by decide +kernel : ∀ t : Fin grid2.N, cond2_0 (grid2.coords t) ↔ t.val = 0)

/-- The kernel's second branch condition (the point is the last). -/
abbrev cond2_1 (i : grid2.Coords) : Prop := k2_cond2 i = 1#1
/-- It holds at coordinate 19 only. -/
theorem hcond2_1 : ∀ t : Fin cfg2.N, cond2_1 (grid2.coords t) ↔ t.val = 19 :=
  (by decide +kernel : ∀ t : Fin grid2.N, cond2_1 (grid2.coords t) ↔ t.val = 19)

/-- The four input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- The result window is idle, and not written back, at every point but the last; live at the last. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- Each window's current staging buffer at point t, and that it is a whole buffer. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x128 .f32 := win2_4.stage (cfg2.slots t 4)
abbrev hs2_4 (t : Fin cfg2.N) : (ms2_4 t).IsWhole := hstage2_4 ((cfg2.slots t 4).cast nbuf2_4)

/-- One store through the whole-block rectangle leaves its payload; last of several, it leaves its payload whatever the
    earlier ones were; a load through it of what one such store left reads the payload; a load through it of given
    contents reads them. -/
theorem canon_rO (w : Vec F S64x128 .f32) :
    View.canon [(⟨rO, w⟩ : View.Piece (Elt F) S64x128 .f32)] = w :=
  View.canon_unit_zero (S := S64x128) zeros2 inb_S64x128_S64x128_0_0 w
theorem canon_cons_rO (w : Vec F S64x128 .f32) (L : List (View.Piece (Elt F) S64x128 .f32)) :
    View.canon ((⟨rO, w⟩ : View.Piece (Elt F) S64x128 .f32) :: L) = w :=
  View.canon_cons_unit_zero (S := S64x128) zeros2 inb_S64x128_S64x128_0_0 w L
theorem readCov_rO (v : View sig .tc .vmem S64x128 .f32) (w : Vec F S64x128 .f32) :
    v.readCov [(⟨rO, w⟩ : View.Piece (Elt F) S64x128 .f32)] rO.toLoadRect = w :=
  View.readCov_unit_zero v zeros2 inb_S64x128_S64x128_0_0 w
theorem ld_rO (X : Vec F S64x128 .f32) : View.ld X rO = X :=
  View.ld_unit_zero (S := S64x128) zeros2 inb_S64x128_S64x128_0_0 X
/-- Every index of the block lies in the whole-block rectangle. -/
theorem mem_rO (y : S64x128.Idx) : y ∈ rO.set :=
  View.mem_set_unit_zero (S := S64x128) zeros2 inb_S64x128_S64x128_0_0 y

/-- What any view of the block reads after one store through the whole-block rectangle, or after several the last of
    which is through it: that store's payload, whatever the buffer held. -/
theorem read_one_rO (v : View sig .tc .vmem S64x128 .f32) (f : v.ty.Contents (Elt F)) (w : Vec F S64x128 .f32) :
    v.read (Elt F) (v.writes (Elt F) f [(⟨rO, w⟩ : View.Piece (Elt F) S64x128 .f32)]) = w := by
  rw [View.read_writes_eq_canon v f _
    (fun y => ⟨(⟨rO, w⟩ : View.Piece (Elt F) S64x128 .f32), List.mem_cons.mpr (Or.inl rfl), mem_rO y⟩), canon_rO]
theorem read_cons_rO (v : View sig .tc .vmem S64x128 .f32) (f : v.ty.Contents (Elt F)) (w : Vec F S64x128 .f32)
    (L : List (View.Piece (Elt F) S64x128 .f32)) :
    v.read (Elt F) (v.writes (Elt F) f ((⟨rO, w⟩ : View.Piece (Elt F) S64x128 .f32) :: L)) = w := by
  rw [View.read_writes_eq_canon v f _
    (fun y => ⟨(⟨rO, w⟩ : View.Piece (Elt F) S64x128 .f32), List.mem_cons.mpr (Or.inl rfl), mem_rO y⟩), canon_cons_rO]

set_option maxHeartbeats 1600000 in
/-- The body at the first point. From the four input buffers at x0 … x3, the result buffer at xo and the scratch buffer at
    anything (acc), the body clears the scratch buffer, updates it once from the four blocks, and stores nothing into the
    result buffer: it leaves the inputs and the result buffer as they were and the scratch buffer at one update of the
    cleared accumulator. -/
theorem runA (c : Dev nD) (i : grid2.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S64x128 .f32) (h5 : a5.IsWhole) (a6 : Memref sig .tc .vmem S64x128 .f32) (h6 : a6.IsWhole)
    (hc0 : cond2_0 i) (hc1 : ¬cond2_1 i)
    (x0 : Vec F S5000x128 .f32) (x1 : Vec F S5000x1 .f32) (x2 : Vec F S1x128 .f32) (x3 : Vec F S5000x1 .i32)
    (xo acc : Vec F S64x128 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xo ∗ owns (c : Thread nD τ) a6 fullShare acc
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare xo
            ∗ owns (c : Thread nD τ) a6 fullShare (step2 x0 x1 x2 x3 init2)) -∗ K ⟨⟩))
      ⊢ wp frame (wpE (defs₀ (F := F)) Variants.none c none) E (cc2__pool_kernel i a1 h1 a2 h2 a3 h3 a4 h4 a5 h5 a6 h6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_run_names
  rw [read_cons_rO, readCov_rO]
  unfold step2
  rw [canon_rO, ld_rO]
  unfold init2
  rw [canon_rO]
  simp only [View.readAt_eq_ld, hf0, hf1, hf2, hf3]

set_option maxHeartbeats 1600000 in
/-- The body at a middle point. From the four input buffers at x0 … x3, the result buffer at xo and the scratch buffer at
    acc, the body updates the scratch buffer once from the four blocks and stores nothing into the result buffer: it
    leaves the inputs and the result buffer as they were and the scratch buffer at one update of acc. -/
theorem runB (c : Dev nD) (i : grid2.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S64x128 .f32) (h5 : a5.IsWhole) (a6 : Memref sig .tc .vmem S64x128 .f32) (h6 : a6.IsWhole)
    (hc0 : ¬cond2_0 i) (hc1 : ¬cond2_1 i)
    (x0 : Vec F S5000x128 .f32) (x1 : Vec F S5000x1 .f32) (x2 : Vec F S1x128 .f32) (x3 : Vec F S5000x1 .i32)
    (xo acc : Vec F S64x128 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xo ∗ owns (c : Thread nD τ) a6 fullShare acc
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare xo
            ∗ owns (c : Thread nD τ) a6 fullShare (step2 x0 x1 x2 x3 acc)) -∗ K ⟨⟩))
      ⊢ wp frame (wpE (defs₀ (F := F)) Variants.none c none) E (cc2__pool_kernel i a1 h1 a2 h2 a3 h3 a4 h4 a5 h5 a6 h6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [read_one_rO]
  unfold step2
  rw [canon_rO]
  simp only [View.readAt_eq_ld, hf0, hf1, hf2, hf3, hf5]

set_option maxHeartbeats 1600000 in
/-- The body at the last point. From the four input buffers at x0 … x3, the result buffer at anything (xo) and the scratch
    buffer at acc, the body updates the scratch buffer once from the four blocks, then copies it to the result buffer:
    it leaves the inputs as they were and both the scratch buffer and the result buffer at one update of acc. -/
theorem runC (c : Dev nD) (i : grid2.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S64x128 .f32) (h5 : a5.IsWhole) (a6 : Memref sig .tc .vmem S64x128 .f32) (h6 : a6.IsWhole)
    (hc0 : ¬cond2_0 i) (hc1 : cond2_1 i)
    (x0 : Vec F S5000x128 .f32) (x1 : Vec F S5000x1 .f32) (x2 : Vec F S1x128 .f32) (x3 : Vec F S5000x1 .i32)
    (xo acc : Vec F S64x128 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xo ∗ owns (c : Thread nD τ) a6 fullShare acc
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (step2 x0 x1 x2 x3 acc)
            ∗ owns (c : Thread nD τ) a6 fullShare (step2 x0 x1 x2 x3 acc)) -∗ K ⟨⟩))
      ⊢ wp frame (wpE (defs₀ (F := F)) Variants.none c none) E (cc2__pool_kernel i a1 h1 a2 h2 a3 h3 a4 h4 a5 h5 a6 h6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [read_one_rO, readCov_rO]
    unfold step2
    rw [canon_rO]
    simp only [View.readAt_eq_ld, hf0, hf1, hf2, hf3, hf5]
  iexists _; isplitr
  swap; · iexact H5
  ipureintro
  sl_unfold_run_names
  rw [read_one_rO]
  unfold step2
  rw [canon_rO]
  simp only [View.readAt_eq_ld, hf0, hf1, hf2, hf3, hf5]

/-- The scoped buffers that are neither a staging buffer of this call nor its scratch, at anything. -/
abbrev restBut2 (c : Dev nD) : sProp 𝕄 :=
  Pipeline.scopedRestBut (Ix := Unit) (Name := ℕ) (U := UR sig nD τ) (Lvl := ℕ) (Val := Elt F) spec2 c [cc2_scratch0]

/-- What the launch hands the region, with the scratch buffer split off the other scoped buffers and owned as a
    memref at some contents. -/
theorem PhiA2_eq (c : Dev nD) :
    (Pipeline.ΦA spec2 c : sProp 𝕄)
      = iprop(((∃ d, owns (c : Thread nD τ) scM2 fullShare d) ∗ restBut2 (F := F) c) ∗ (∃ r, prngReg c r)) := by
  unfold Pipeline.ΦA
  rw [Pipeline.scopedRest_split_of_list spec2 c [cc2_scratch0] (by decide) (by decide)]
  simp only [bigSepL_singleton, scM2, owns_whole]
  rfl

/-- Before a point that is not the first, the scratch buffer holds the accumulator the point before left. -/
theorem PhiS2_pos (c : Dev nD) (n : ℕ) (h : n ≤ cfg2.N) (hz : n ≠ 0) :
    PhiS2 V c n h = iprop(owns (c : Thread nD τ) scM2 fullShare (accAt2 V c (n - 1) (by omega))
      ∗ restBut2 (F := F) c ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The accumulator after the first point: one update of the cleared accumulator. -/
theorem accAt2_first (c : Dev nD) (t : Fin cfg2.N) (h : t.val = 0) :
    accAt2 V c t.val t.isLt = step2 (iblk2 V c 0 t) (iblk2 V c 1 t) (iblk2 V c 2 t) (iblk2 V c 3 t) init2 := by
  obtain ⟨n, hn⟩ := t
  cases n with
  | zero => rfl
  | succ n => exact absurd h (Nat.succ_ne_zero n)

/-- The accumulator after a later point: one update of what the point before left. -/
theorem accAt2_later (c : Dev nD) (t : Fin cfg2.N) (h : t.val ≠ 0) :
    accAt2 V c t.val t.isLt = step2 (iblk2 V c 0 t) (iblk2 V c 1 t) (iblk2 V c 2 t) (iblk2 V c 3 t)
      (accAt2 V c (t.val - 1) (Nat.lt_of_le_of_lt (Nat.sub_le _ _) t.isLt)) := by
  obtain ⟨n, hn⟩ := t
  cases n with
  | zero => exact absurd rfl h
  | succ n => rfl

/-- Each input window's current buffer holds the window's block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The input buffers hold their blocks; the position says which of the three control cases
    the point is in: the first point (the scratch at anything, cleared and updated once), a middle point (the scratch
    at what the point before left, updated once), the last point (the same, then copied to the result buffer). The
    invariant hands the body the scratch buffer and takes it back at this point's accumulator; the result buffer is
    handed back as found everywhere but at the last point, where it holds the accumulator; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 20 := lt_of_lt_of_eq t.isLt (show cfg2.N = 20 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [accAt2_first V c t h0]
    rw [PhiS2_castSucc V c t, PhiS2_zero V c _ _ h0, PhiA2_eq]
    iintro ⟨⟨⟨⟨%ds, HS⟩, Hrest⟩, Hg⟩, Ho, ⟨%d0, H0⟩, ⟨%d1, H1⟩, ⟨%d2, H2⟩, ⟨%d3, H3⟩, ⟨%d4, H4⟩⟩
    iapply (runA c (grid2.coords t) _ _ _ _ _ _ _ _ _ _ _ _ hc0 hc1 (iblk2 V c 0 t) (iblk2 V c 1 t) (iblk2 V c 2 t) (iblk2 V c 3 t) _ ds Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    iexists _; iexact H4
  · by_cases h1 : t.val = 19
    · have hc0 : ¬cond2_0 (grid2.coords t) := fun h => h0 ((hcond2_0 t).mp h)
      have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      rw [accAt2_later V c t h0]
      rw [PhiS2_castSucc V c t, PhiS2_pos V c _ _ h0]
      iintro ⟨⟨HS, Hrest, Hg⟩, Ho, ⟨%d0, H0⟩, ⟨%d1, H1⟩, ⟨%d2, H2⟩, ⟨%d3, H3⟩, ⟨%d4, H4⟩⟩
      iapply (runC c (grid2.coords t) _ _ _ _ _ _ _ _ _ _ _ _ hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 4 t (idleAt2_4 t hc1) (noFlush2_4 t hc1)]
      rw [accAt2_later V c t h0]
      rw [PhiS2_castSucc V c t, PhiS2_pos V c _ _ h0]
      iintro ⟨⟨HS, Hrest, Hg⟩, Ho, ⟨%d0, H0⟩, ⟨%d1, H1⟩, ⟨%d2, H2⟩, ⟨%d3, H3⟩, ⟨%d4, H4⟩⟩
      iapply (runB c (grid2.coords t) _ _ _ _ _ _ _ _ _ _ _ _ hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact Idealize.SL.BI.Entails.refl _

/-- After the last point the invariant gives back what the launch handed over: the accumulator's value is forgotten. -/
theorem hout2 (c : Dev nD) : (dat2 (F := F) V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro ⟨HS, Hrest, Hg⟩
  isplitl [HS Hrest]
  · isplitl [HS]
    · iexists _; iexact HS
    iexact Hrest
  iexact Hg

end Cert.KernelIdeal.Hand

end
-- ==== Proof.KI.Frame.lean ====
/-
  The frame of the program.

  Every weakly fair execution of @main, from any launch memory with every counter at zero, terminates without a fault,
  and each of the seven argument arrays ends holding what it held at launch. This is the run of the whole program
  (its three kernel regions between stretches of host operations, each region entered from and left at known
  contents) with the statement about the result buffer dropped; the three regions' bodies are supplied here: at every
  grid point each body, handed the staged blocks, returns them with the result block stored, and region 2's invariant
  is entered from and left at the plain array invariant.
-/
import proofs.«409848_j24326694765010_2_alg».proof.Proof.KI.Run
import proofs.«409848_j24326694765010_2_alg».proof.Proof.KI.Body0
import proofs.«409848_j24326694765010_2_alg».proof.Proof.KI.Body1
import proofs.«409848_j24326694765010_2_alg».proof.Proof.KI.Body2

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- THE FRAME: the program runs to the end without a fault on every weakly fair execution, and its seven argument
    arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2)
    (run_outs m ρ (fun c => body_obligation0 (E0 m) c) (fun c => body_obligation1 (E1 m) c)
      (fun c => body_obligation2 (E2 m) c) (fun c => hin2 (E2 m) c) (fun c => hout2 (E2 m) c))

end Cert.KernelIdeal.Hand

end
-- ==== Proof.KI.Vocab.lean ====
/-
  The graph quantities the kernel program computes on the host before and between its three regions, as functions
  of the edge list (a 2 x 1600000 array of node indices: row 0 the source ends, row 1 the target ends) and of the
  graph id of every node.

  * the source and the target end of every edge, each followed by every node once more, which gives every node an
    edge to itself;
  * the degree of every node (one added per edge at the edge's target) and the degree scale, one over the square
    root of the degree where the degree is positive and zero elsewhere;
  * the source ends with a negative index counted from the end of the node list;
  * the number of nodes of every graph, at least one.

  Each is the composition of the program's own operations, in the program's order, so that what the program's
  buffers hold is one of these by unfolding.
-/
import proofs.«409848_j24326694765010_2_alg».proof.Proof.Gen.KernelIdeal

noncomputable section

namespace Cert.KernelIdeal.Hand

open Cert.KernelIdeal.Gen
open Idealize.ShloMosaic

variable {F : FTy → Type} [FloatOps F]

/-- The source end of every edge, then every node once more (each node is given an edge to itself). -/
def Ksrc (x5 : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] x5 slices_S2x1600000_S1x1600000_0_0) shapeCasts_S1x1600000_S1600000⟩,
     ⟨S100000, iotaInDim S100000 32 0⟩] concatenates_S1600000_S100000_S1700000_d0

/-- The target end of every edge, then every node once more. -/
def Kdst (x5 : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] x5 slices_S2x1600000_S1x1600000_1_0) shapeCasts_S1x1600000_S1600000⟩,
     ⟨S100000, iotaInDim S100000 32 0⟩] concatenates_S1600000_S100000_S1700000_d0

/-- The degree of every node: one added per edge at the edge's target. -/
def Kdeg (x5 : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (Kdst x5))
    (broadcastInDim S1700000 ![] bcast_S_S1700000 (constant S_ .f32 0x3F800000#32))

/-- The degree scale of every node: one over the square root of the degree where the degree is positive, zero
    elsewhere. -/
def Kdinv (x5 : (⟨S2x1600000, .i32⟩ : BufTy).Contents (Elt F)) : (⟨S100000, .f32⟩ : BufTy).Contents (Elt F) :=
  select (cmpf .ogt (Kdeg x5) (broadcastInDim S100000 ![] bcast_S_S100000 (constant S_ .f32 0x00000000#32)))
    (Host.rsqrt (Kdeg x5))
    (broadcastInDim S100000 ![] bcast_S_S100000 (id (constant S_ .f32 0x00000000#32)))

/-- The source ends with a negative index counted from the end of the node list. -/
def KsrcN (x5 : (⟨S2x1600000, .i32⟩ : BufTy).Contents (Elt F)) : (⟨S1700000, .i32⟩ : BufTy).Contents (Elt F) :=
  select (cmpi .slt (Ksrc x5) (broadcastInDim S1700000 ![] bcast_S_S1700000 (constantI S_ 32 0#32)))
    (addi (Ksrc x5) (broadcastInDim S1700000 ![] bcast_S_S1700000 (constantI S_ 32 100000#32)))
    (Ksrc x5)

/-- The number of nodes of every graph, at least one. -/
def Kcnt (x6 : (⟨S100000, .i32⟩ : BufTy).Contents (Elt F)) : (⟨S64, .f32⟩ : BufTy).Contents (Elt F) :=
  maximumf
    (Host.scatterAdd scatter_S64_S100000x1_S100000_n_0_0_1
      (broadcastInDim S64 ![] bcast_S_S64 (constant S_ .f32 0x00000000#32))
      (broadcastInDim S100000x1 ![0] bcast_S100000_S100000x1_0 x6)
      (broadcastInDim S100000 ![] bcast_S_S100000 (constant S_ .f32 0x3F800000#32)))
    (broadcastInDim S64 ![] bcast_S_S64 (constant S_ .f32 0x3F800000#32))

end Cert.KernelIdeal.Hand

end
-- ==== Proof.LibSums.lean ====
/-
  General lemmas on sums, maxima and re-laid arrays at the ideal float instance, where a float is an extended
  real and an array of shape `S` is a function `S.Idx → EReal`. Indices are written by coordinates (`ix1` … `ix4`).

  * a sum (or a maximum) taken by the host over some axes of an array, read at an index as a `Fin`-indexed sum
    (a fold of `max`) over the coordinates on those axes;
  * the same for a vector reduction over one axis;
  * a row-major re-laying of an array (the flat position is preserved) read at an index, and the transport of a
    total sum along any bijection of index sets;
  * the split of a sum or a maximum over `m + n` coordinates into the two blocks;
  * a few identities of extended-real arithmetic: division by a power of two as a product, words of the f32 format
    evaluated, a difference of two scaled reals squared.
-/
import Idealize.ShloMosaic.Lib.ValueIdx
import Idealize.ShloMosaic.Lib.Pipeline.Value
import Idealize.ShloMosaic.PureOps.Ideal.Laws
import Mathlib.Algebra.BigOperators.Fin
import Mathlib.Order.Fin.Basic
import Mathlib.Tactic.Ring
import Mathlib.Tactic.NormNum

noncomputable section

open scoped BigOperators

namespace Idealize.ShloMosaic.LibSums

open Idealize.ShloMosaic Idealize.ShloMosaic.ValueIdx

/-! ## A sum over an index set, by coordinates -/

section ByCoordinates
variable {M : Type*} [AddCommMonoid M]

/-- A rank-1 index set is its one coordinate range … -/
def idxEquiv1 {n0 : Nat} : (⟨1, ![n0]⟩ : Shape).Idx ≃ Fin n0 where
  toFun i := i 0
  invFun a := ix1 a
  left_inv i := (eq_ix1 i).symm
  right_inv _ := rfl
/-- … so a sum over it is the sum over the coordinate. -/
theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end ByCoordinates

/-! ## The host's float sum, read at an index -/

section HostSum
variable {φ : FTy}

/-- The host's float sum at the ideal instance is the initial value's element plus the exact sum of the operand's
    elements that reduce to the index. -/
theorem hostReduceAdd_apply {s t u : Shape} {axes : List (Fin s.rank)} (x : FVec Ideal s φ) (init : u.Idx → Ideal φ)
    (h' : s.ReducesTo axes t) (hu : 0 < u.numel) (j : t.Idx) :
    Host.reduceAdd x init h' hu j = Ideal.hostReduceAdd h' x (init (Shape.Idx.first hu)) j := rfl

/-- The sum over the operand indices that reduce to `j`, re-indexed: if `lift` lists those indices without
    repetition (`proj` recovers the label of each), the sum runs over the labels. -/
theorem hostReduceAdd_of_lift {s t : Shape} {axes : List (Fin s.rank)} (h' : s.ReducesTo axes t) (x : s.Idx → EReal)
    (init : EReal) (j : t.Idx) {κ : Type} [Fintype κ] (lift : κ → s.Idx) (proj : s.Idx → κ)
    (h1 : ∀ k, h'.drop (lift k) = j) (h2 : ∀ k, proj (lift k) = k) (h3 : ∀ i, h'.drop i = j → lift (proj i) = i) :
    Ideal.hostReduceAdd h' x init j = init + ∑ k, x (lift k) := by
  unfold Ideal.hostReduceAdd
  refine congrArg (init + ·) ?_
  refine Finset.sum_nbij' proj lift ?_ ?_ ?_ ?_ ?_
  · intro i _; exact Finset.mem_univ _
  · intro k _; exact Finset.mem_filter.2 ⟨Finset.mem_univ _, h1 k⟩
  · intro i hi; exact h3 i (Finset.mem_filter.1 hi).2
  · intro k _; exact h2 k
  · intro i hi; rw [h3 i (Finset.mem_filter.1 hi).2]

/-- The total sum of a rank-4 array: a host sum into a result whose axes all have size one (the rank-0 result of a sum
    over every axis: `ht := fun b => b.elim0`) is the initial value plus the sum over the four coordinates. -/
theorem hostSum_all4 {n0 n1 n2 n3 : Nat} {t u : Shape} {axes : List (Fin 4)}
    (x : FVec Ideal ⟨4, ![n0, n1, n2, n3]⟩ φ) (init : u.Idx → Ideal φ)
    (h' : Shape.ReducesTo ⟨4, ![n0, n1, n2, n3]⟩ axes t) (hu : 0 < u.numel) (ht : ∀ b, t.size b = 1) (j : t.Idx) :
    Host.reduceAdd x init h' hu j
      = init (Shape.Idx.first hu) + ∑ a : Fin n0, ∑ b : Fin n1, ∑ c : Fin n2, ∑ d : Fin n3, x (ix4 a b c d) := by
  rw [hostReduceAdd_apply, Ideal.hostReduceAdd_total h' ht, sum_idx4]

/-- The total sum of a rank-3 array. -/
theorem hostSum_all3 {n0 n1 n2 : Nat} {t u : Shape} {axes : List (Fin 3)}
    (x : FVec Ideal ⟨3, ![n0, n1, n2]⟩ φ) (init : u.Idx → Ideal φ)
    (h' : Shape.ReducesTo ⟨3, ![n0, n1, n2]⟩ axes t) (hu : 0 < u.numel) (ht : ∀ b, t.size b = 1) (j : t.Idx) :
    Host.reduceAdd x init h' hu j
      = init (Shape.Idx.first hu) + ∑ a : Fin n0, ∑ b : Fin n1, ∑ c : Fin n2, x (ix3 a b c) := by
  rw [hostReduceAdd_apply, Ideal.hostReduceAdd_total h' ht, sum_idx3]

/-- The total sum of a rank-2 array. -/
theorem hostSum_all2 {n0 n1 : Nat} {t u : Shape} {axes : List (Fin 2)}
    (x : FVec Ideal ⟨2, ![n0, n1]⟩ φ) (init : u.Idx → Ideal φ)
    (h' : Shape.ReducesTo ⟨2, ![n0, n1]⟩ axes t) (hu : 0 < u.numel) (ht : ∀ b, t.size b = 1) (j : t.Idx) :
    Host.reduceAdd x init h' hu j = init (Shape.Idx.first hu) + ∑ a : Fin n0, ∑ b : Fin n1, x (ix2 a b) := by
  rw [hostReduceAdd_apply, Ideal.hostReduceAdd_total h' ht, sum_idx2]

/-- The total sum of a rank-1 array. -/
theorem hostSum_all1 {n0 : Nat} {t u : Shape} {axes : List (Fin 1)}
    (x : FVec Ideal ⟨1, ![n0]⟩ φ) (init : u.Idx → Ideal φ)
    (h' : Shape.ReducesTo ⟨1, ![n0]⟩ axes t) (hu : 0 < u.numel) (ht : ∀ b, t.size b = 1) (j : t.Idx) :
    Host.reduceAdd x init h' hu j = init (Shape.Idx.first hu) + ∑ a : Fin n0, x (ix1 a) := by
  rw [hostReduceAdd_apply, Ideal.hostReduceAdd_total h' ht, sum_idx1]

/-- The sum over axis 1 of a rank-4 array, at `(b, h, w)`: the initial value plus the sum over the coordinate `c` on
    that axis of the operand at `(b, c, h, w)`. -/
theorem hostSum_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduceAdd x init h' hu j = init (Shape.Idx.first hu) + ∑ c : Fin n1, x (ix4 (j 0) c (j 1) (j 2)) := by
  rw [hostReduceAdd_apply]
  refine hostReduceAdd_of_lift h' x _ j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- The sum over axes 2 and 3 of a rank-4 array, at `(b, c)`: the initial value plus the double sum over the
    coordinates `(h, w)` on those axes of the operand at `(b, c, h, w)`. -/
theorem hostSum_axes23_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (j : (⟨2, ![n0, n1]⟩ : Shape).Idx) :
    Host.reduceAdd x init h' hu j
      = init (Shape.Idx.first hu) + ∑ h : Fin n2, ∑ w : Fin n3, x (ix4 (j 0) (j 1) h w) := by
  rw [hostReduceAdd_apply, ← Fintype.sum_prod_type (f := fun p : Fin n2 × Fin n3 => x (ix4 (j 0) (j 1) p.1 p.2))]
  refine hostReduceAdd_of_lift h' x _ j (fun p : Fin n2 × Fin n3 => ix4 (j 0) (j 1) p.1 p.2) (fun i => (i 2, i 3)) ?_
    (fun _ => rfl) ?_
  · intro p; funext b
    match b with
    | ⟨0, _⟩ => rfl
    | ⟨1, _⟩ => rfl
  · intro i hi; subst hi; funext a
    match a with
    | ⟨0, _⟩ => rfl
    | ⟨1, _⟩ => rfl
    | ⟨2, _⟩ => rfl
    | ⟨3, _⟩ => rfl

end HostSum

/-! ## The host's float maximum over one axis, read at an index -/

section HostMax
variable {φ : FTy}

/-- The fold of a commutative and associative operation over the operand indices that reduce to `j`, re-indexed: if
    `lift` lists those indices without repetition (`proj` recovers the label of each), the fold runs over the labels. -/
theorem fold_filter_drop_of_lift {α : Type} {s t : Shape} {axes : List (Fin s.rank)} (h' : s.ReducesTo axes t)
    (op : α → α → α) [Std.Commutative op] [Std.Associative op] (init : α) (x : s.Idx → α) (j : t.Idx)
    {κ : Type} [Fintype κ] (lift : κ → s.Idx) (proj : s.Idx → κ)
    (h1 : ∀ k, h'.drop (lift k) = j) (h2 : ∀ k, proj (lift k) = k) (h3 : ∀ i, h'.drop i = j → lift (proj i) = i) :
    (Finset.univ.filter fun i => h'.drop i = j).fold op init x
      = (Finset.univ : Finset κ).fold op init (fun k => x (lift k)) := by
  classical
  have himg : (Finset.univ.filter fun i => h'.drop i = j) = Finset.univ.image lift := by
    ext i
    simp only [Finset.mem_filter, Finset.mem_univ, true_and, Finset.mem_image]
    exact ⟨fun hi => ⟨proj i, h3 i hi⟩, fun ⟨k, hk⟩ => by rw [← hk]; exact h1 k⟩
  rw [himg, Finset.fold_image (fun k _ k' _ e => by rw [← h2 k, ← h2 k', e])]
  rfl

/-- The host's maximum over axis 1 of a rank-4 array, at `(b, h, w)`: the fold of `max`, from the initial value's
    element, over the coordinate `c` on that axis of the operand at `(b, c, h, w)`. -/
theorem hostMax_axis1_of4_fold {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduce (FloatOps.maximumf (F := Ideal) (φ := φ)) x init h' hu j
      = (Finset.univ : Finset (Fin n1)).fold max (init (Shape.Idx.first hu)) (fun c => x (ix4 (j 0) c (j 1) (j 2))) := by
  rw [Host.reduce_eq_fold]
  refine fold_filter_drop_of_lift h' _ _ x j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- A fold of `max` from the least element is the supremum of the family. -/
theorem fold_max_bot {κ : Type} (S : Finset κ) (f : κ → EReal) : S.fold max ⊥ f = S.sup f := rfl

/-- A fold of `max` from any start is the maximum of the start and the supremum of the family. -/
theorem fold_max_eq_sup {κ : Type} (S : Finset κ) (b : EReal) (f : κ → EReal) : S.fold max b f = max b (S.sup f) := by
  classical
  induction S using Finset.induction_on with
  | empty => simp
  | insert a S ha ih => rw [Finset.fold_insert ha, ih, Finset.sup_insert]; exact max_left_comm _ _ _

/-- So, from the initial value `-∞`, the host's maximum over axis 1 is the supremum over the coordinate on that axis. -/
theorem hostMax_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (j : (⟨3, ![n0, n2, n3]⟩ : Shape).Idx) :
    Host.reduce (FloatOps.maximumf (F := Ideal) (φ := φ)) x init h' hu j
      = (Finset.univ : Finset (Fin n1)).sup (fun c => x (ix4 (j 0) c (j 1) (j 2))) := by
  rw [hostMax_axis1_of4_fold, hinit, fold_max_bot]

end HostMax

/-! ## The same readings at an index written by coordinates -/

section AtCoordinates
variable {φ : FTy}

/-- The host's sum over axis 1 of a rank-4 array at `(r, s, w)`. -/
theorem hostSum_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (r : Fin n0) (s : Fin n2) (w : Fin n3) :
    Host.reduceAdd x init h' hu (ix3 r s w) = init (Shape.Idx.first hu) + ∑ c : Fin n1, x (ix4 r c s w) :=
  hostSum_axis1_of4 x init h' hu (ix3 r s w)

/-- The host's sum over axes 2 and 3 of a rank-4 array at `(r, c)`. -/
theorem hostSum_axes23_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (r : Fin n0) (c : Fin n1) :
    Host.reduceAdd x init h' hu (ix2 r c)
      = init (Shape.Idx.first hu) + ∑ s : Fin n2, ∑ w : Fin n3, x (ix4 r c s w) :=
  hostSum_axes23_of4 x init h' hu (ix2 r c)

/-- The host's maximum over axis 1 of a rank-4 array, from `-∞`, at `(r, s, w)`. -/
theorem hostMax_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (r : Fin n0) (s : Fin n2) (w : Fin n3) :
    Host.reduce (FloatOps.maximumf (F := Ideal) (φ := φ)) x init h' hu (ix3 r s w)
      = (Finset.univ : Finset (Fin n1)).sup (fun c => x (ix4 r c s w)) :=
  hostMax_axis1_of4 x init h' hu hinit (ix3 r s w)

end AtCoordinates

/-! ## A sum or a maximum over `m + n` coordinates, split into the two blocks -/

section Split

/-- A sum over `N = m + n` coordinates is the sum over the first `m` plus the sum over the last `n`. -/
theorem sum_split {M : Type*} [AddCommMonoid M] {N : Nat} (m n : Nat) (hN : N = m + n) (f : Fin N → M) :
    ∑ c : Fin N, f c
      = ∑ c : Fin m, f ⟨c.val, by omega⟩ + ∑ c : Fin n, f ⟨m + c.val, by omega⟩ := by
  subst hN
  exact Fin.sum_univ_add f

/-- A sum over 256 coordinates is the sum over the first 128 plus the sum over the last 128. -/
theorem sum_split_256 {M : Type*} [AddCommMonoid M] (f : Fin 256 → M) :
    ∑ c : Fin 256, f c = ∑ c : Fin 128, f ⟨c.val, by omega⟩ + ∑ c : Fin 128, f ⟨128 + c.val, by omega⟩ :=
  sum_split 128 128 rfl f

/-- A supremum over `N = m + n` coordinates is the maximum of the supremum over the first `m` and the supremum over
    the last `n`. -/
theorem sup_split {N : Nat} (m n : Nat) (hN : N = m + n) (f : Fin N → EReal) :
    (Finset.univ : Finset (Fin N)).sup f
      = max ((Finset.univ : Finset (Fin m)).sup fun c => f ⟨c.val, by omega⟩)
          ((Finset.univ : Finset (Fin n)).sup fun c => f ⟨m + c.val, by omega⟩) := by
  apply le_antisymm
  · refine Finset.sup_le fun c _ => ?_
    by_cases hc : c.val < m
    · exact le_max_of_le_left
        (Finset.le_sup (f := fun c : Fin m => f ⟨c.val, by omega⟩) (Finset.mem_univ (⟨c.val, hc⟩ : Fin m)))
    · have hlt : c.val - m < n := by have := c.isLt; omega
      have hle := Finset.le_sup (f := fun c : Fin n => f ⟨m + c.val, by omega⟩) (Finset.mem_univ (⟨c.val - m, hlt⟩ : Fin n))
      have hcc : (⟨m + (c.val - m), by omega⟩ : Fin N) = c := Fin.ext (by show m + (c.val - m) = c.val; omega)
      simp only [hcc] at hle
      exact le_max_of_le_right hle
  · exact max_le (Finset.sup_le fun c _ => Finset.le_sup (Finset.mem_univ _))
      (Finset.sup_le fun c _ => Finset.le_sup (Finset.mem_univ _))

/-- A supremum over 256 coordinates is the maximum of the suprema over the first and the last 128. -/
theorem sup_split_256 (f : Fin 256 → EReal) :
    (Finset.univ : Finset (Fin 256)).sup f
      = max ((Finset.univ : Finset (Fin 128)).sup fun c => f ⟨c.val, by omega⟩)
          ((Finset.univ : Finset (Fin 128)).sup fun c => f ⟨128 + c.val, by omega⟩) :=
  sup_split 128 128 rfl f

/-- Starting a running maximum from `-∞` changes nothing. -/
theorem max_max_bot (a b : EReal) : max (max ⊥ a) b = max a b := by rw [max_eq_right (bot_le : (⊥ : EReal) ≤ a)]

/-- The maximum of `-∞` and `a` is `a`. -/
theorem max_bot_left (a : EReal) : max ⊥ a = a := max_eq_right bot_le

/-- Starting a running sum from `0` changes nothing. -/
theorem zero_add_ereal (a : EReal) : 0 + a = a := zero_add a

end Split

/-! ## A row-major re-laying of an array: the flat position is preserved -/

section Relay

/-- The flat position of `(p, q)` in an `a' × b'` grid is below `a' * b'`. -/
theorem flat_lt {a' b' : Nat} (p : Fin a') (q : Fin b') : p.val * b' + q.val < a' * b' := by
  have h1 : p.val * b' + q.val < p.val * b' + b' := Nat.add_lt_add_left q.isLt _
  have h2 : p.val * b' + b' = (p.val + 1) * b' := by rw [Nat.add_mul, Nat.one_mul]
  have h3 : (p.val + 1) * b' ≤ a' * b' := Nat.mul_le_mul_right _ p.isLt
  omega

/-- The row of the flat position `p * b' + q` in a grid of row length `b'` is `p`. -/
theorem flat_div {a' b' : Nat} (p : Fin a') (q : Fin b') : (p.val * b' + q.val) / b' = p.val := by
  have hb : 0 < b' := Nat.lt_of_le_of_lt (Nat.zero_le _) q.isLt
  rw [Nat.add_comm, Nat.add_mul_div_right _ _ hb, Nat.div_eq_of_lt q.isLt, Nat.zero_add]

/-- The column of the flat position `p * b' + q` in a grid of row length `b'` is `q`. -/
theorem flat_mod {a' b' : Nat} (p : Fin a') (q : Fin b') : (p.val * b' + q.val) % b' = q.val := by
  rw [Nat.add_comm, Nat.add_mul_mod_self_right, Nat.mod_eq_of_lt q.isLt]

/-- A grid with an element has a positive row length. -/
theorem pos_of_lt_mul {a b k : Nat} (hk : k < a * b) : 0 < b := by
  rcases Nat.eq_zero_or_pos b with h | h
  · subst h; simp at hk
  · exact h

/-- The row, in the `a × b` grid, of the element at `(p, q)` of an `a' × b'` grid with as many elements: the two have
    the same flat position. -/
def relayRow {a b a' b' : Nat} (hab : a * b = a' * b') (p : Fin a') (q : Fin b') : Fin a :=
  ⟨(p.val * b' + q.val) / b, Nat.div_lt_of_lt_mul (by have h := flat_lt p q; rw [← hab, Nat.mul_comm a b] at h; exact h)⟩

/-- The column, in the `a × b` grid, of the element at `(p, q)` of an `a' × b'` grid with as many elements. -/
def relayCol {a b a' b' : Nat} (hab : a * b = a' * b') (p : Fin a') (q : Fin b') : Fin b :=
  ⟨(p.val * b' + q.val) % b, Nat.mod_lt _ (pos_of_lt_mul (hab ▸ flat_lt p q))⟩

theorem relayRow_val {a b a' b' : Nat} (hab : a * b = a' * b') (p : Fin a') (q : Fin b') :
    (relayRow hab p q).val = (p.val * b' + q.val) / b := rfl

theorem relayCol_val {a b a' b' : Nat} (hab : a * b = a' * b') (p : Fin a') (q : Fin b') :
    (relayCol hab p q).val = (p.val * b' + q.val) % b := rfl

/-- The re-laid element has the same flat position. -/
theorem relay_flat {a b a' b' : Nat} (hab : a * b = a' * b') (p : Fin a') (q : Fin b') :
    (relayRow hab p q).val * b + (relayCol hab p q).val = p.val * b' + q.val :=
  Nat.div_add_mod' _ _

/-- Re-laying back gives the row again … -/
theorem relayRow_relay {a b a' b' : Nat} (hab : a * b = a' * b') (p : Fin a') (q : Fin b') :
    relayRow hab.symm (relayRow hab p q) (relayCol hab p q) = p :=
  Fin.ext (by rw [relayRow_val, relay_flat, flat_div])

/-- … and the column. -/
theorem relayCol_relay {a b a' b' : Nat} (hab : a * b = a' * b') (p : Fin a') (q : Fin b') :
    relayCol hab.symm (relayRow hab p q) (relayCol hab p q) = q :=
  Fin.ext (by rw [relayCol_val, relay_flat, flat_mod])

/-- Two grids with as many elements correspond by flat position. -/
def relayEquiv {a b a' b' : Nat} (hab : a * b = a' * b') : Fin a' × Fin b' ≃ Fin a × Fin b where
  toFun pq := (relayRow hab pq.1 pq.2, relayCol hab pq.1 pq.2)
  invFun rs := (relayRow hab.symm rs.1 rs.2, relayCol hab.symm rs.1 rs.2)
  left_inv pq := Prod.ext (relayRow_relay hab pq.1 pq.2) (relayCol_relay hab pq.1 pq.2)
  right_inv rs := Prod.ext (relayRow_relay hab.symm rs.1 rs.2) (relayCol_relay hab.symm rs.1 rs.2)

/-- THE SUM TRANSPORT over two grids with as many elements: summing over `(p, q)` the term at the re-laid position is
    summing over every `(r, s)`. At `a = b = 64`, `a' = 32`, `b' = 128`:
    `∑ p : Fin 32, ∑ q : Fin 128, F ((p·128+q)/64) ((p·128+q)%64) = ∑ r : Fin 64, ∑ s : Fin 64, F r s`. -/
theorem sum_relay {M : Type*} [AddCommMonoid M] {a b a' b' : Nat} (hab : a * b = a' * b') (F : Fin a → Fin b → M) :
    ∑ p : Fin a', ∑ q : Fin b', F (relayRow hab p q) (relayCol hab p q) = ∑ r : Fin a, ∑ s : Fin b, F r s :=
  (Fintype.sum_prod_type' (fun p q => F (relayRow hab p q) (relayCol hab p q))).symm.trans
    ((Fintype.sum_equiv (relayEquiv hab) (fun pq => F (relayRow hab pq.1 pq.2) (relayCol hab pq.1 pq.2))
      (fun rs => F rs.1 rs.2) (fun _ => rfl)).trans (Fintype.sum_prod_type' F))

/-- The same transport for a term given as a function of the flat position:
    `∑ p q, g (p·b' + q) = ∑ r s, g (r·b + s)`. -/
theorem sum_flat_relay {M : Type*} [AddCommMonoid M] {a b a' b' : Nat} (hab : a * b = a' * b') (g : Nat → M) :
    ∑ p : Fin a', ∑ q : Fin b', g (p.val * b' + q.val) = ∑ r : Fin a, ∑ s : Fin b, g (r.val * b + s.val) := by
  rw [← sum_relay hab (fun r s => g (r.val * b + s.val))]
  exact Finset.sum_congr rfl fun p _ => Finset.sum_congr rfl fun q _ => congrArg g (relay_flat hab p q).symm

/-- The total sum is carried along any bijection of index sets: if `y` reads `x` through `e`, their sums agree. -/
theorem sum_eq_of_equiv {ι κ M : Type*} [Fintype ι] [Fintype κ] [AddCommMonoid M] (e : ι ≃ κ) (y : ι → M) (x : κ → M)
    (h : ∀ i, y i = x (e i)) : ∑ i, y i = ∑ k, x k :=
  Fintype.sum_equiv e y x h

/-- A re-laid array has the same total sum. -/
theorem sum_shapeCast {M : Type} [AddCommMonoid M] {s t : Shape} (x : s.Idx → M) (h : s.ShapeCasts t) :
    ∑ j, shapeCast t x h j = ∑ i, x i :=
  Fintype.sum_equiv (Shape.reshapeEquiv h) _ _ (fun _ => rfl)

variable {α : Type}

/-- A rank-4 array whose two inner axes `a × b` are re-laid as `a' × b'` (as many elements) reads, at `(i0, i1, p, q)`,
    the operand at `(i0, i1)` and the inner position with the same flat position: `[8,256,64,64]` as `[8,256,32,128]`
    at `(b, c, p, q)` is the operand at `(b, c, (p·128+q)/64, (p·128+q)%64)`, and the other way round. -/
theorem shapeCast4_inner_apply {n0 n1 a b a' b' : Nat} (hab : a * b = a' * b')
    (x : (⟨4, ![n0, n1, a, b]⟩ : Shape).Idx → α)
    (h : (⟨4, ![n0, n1, a, b]⟩ : Shape).ShapeCasts ⟨4, ![n0, n1, a', b']⟩)
    (i0 : Fin n0) (i1 : Fin n1) (p : Fin a') (q : Fin b') :
    shapeCast ⟨4, ![n0, n1, a', b']⟩ x h (ix4 i0 i1 p q) = x (ix4 i0 i1 (relayRow hab p q) (relayCol hab p q)) :=
  shapeCast_apply x h _ _ (by
    rw [Shape.rowMajor_val_four, Shape.rowMajor_val_four]
    show ((i0.val * n1 + i1.val) * a + (relayRow hab p q).val) * b + (relayCol hab p q).val
        = ((i0.val * n1 + i1.val) * a' + p.val) * b' + q.val
    have hf := relay_flat hab p q
    calc ((i0.val * n1 + i1.val) * a + (relayRow hab p q).val) * b + (relayCol hab p q).val
        = (i0.val * n1 + i1.val) * (a * b) + ((relayRow hab p q).val * b + (relayCol hab p q).val) := by ring
      _ = (i0.val * n1 + i1.val) * (a' * b') + (p.val * b' + q.val) := by rw [hab, hf]
      _ = ((i0.val * n1 + i1.val) * a' + p.val) * b' + q.val := by ring)

/-- A rank-4 array `[n0, 1, a, b]` re-laid as the rank-3 array `[n0, a', b']` (as many inner elements) reads, at
    `(i0, p, q)`, the operand at `(i0, 0)` and the inner position with the same flat position. -/
theorem shapeCast_n1ab_nab_apply {n0 a b a' b' : Nat} (hab : a * b = a' * b')
    (x : (⟨4, ![n0, 1, a, b]⟩ : Shape).Idx → α)
    (h : (⟨4, ![n0, 1, a, b]⟩ : Shape).ShapeCasts ⟨3, ![n0, a', b']⟩)
    (i0 : Fin n0) (p : Fin a') (q : Fin b') :
    shapeCast ⟨3, ![n0, a', b']⟩ x h (ix3 i0 p q)
      = x (ix4 i0 (0 : Fin 1) (relayRow hab p q) (relayCol hab p q)) :=
  shapeCast_apply x h _ _ (by
    rw [Shape.rowMajor_val_four, Shape.rowMajor_val_three]
    show ((i0.val * 1 + 0) * a + (relayRow hab p q).val) * b + (relayCol hab p q).val
        = (i0.val * a' + p.val) * b' + q.val
    have hf := relay_flat hab p q
    calc ((i0.val * 1 + 0) * a + (relayRow hab p q).val) * b + (relayCol hab p q).val
        = i0.val * (a * b) + ((relayRow hab p q).val * b + (relayCol hab p q).val) := by ring
      _ = i0.val * (a' * b') + (p.val * b' + q.val) := by rw [hab, hf]
      _ = (i0.val * a' + p.val) * b' + q.val := by ring)

/-- A rank-3 array `[n0, a, b]` re-laid as the rank-4 array `[n0, 1, a', b']` (as many inner elements) reads, at
    `(i0, u, p, q)`, the operand at `i0` and the inner position with the same flat position. -/
theorem shapeCast_nab_n1ab_apply {n0 a b a' b' : Nat} (hab : a * b = a' * b')
    (x : (⟨3, ![n0, a, b]⟩ : Shape).Idx → α)
    (h : (⟨3, ![n0, a, b]⟩ : Shape).ShapeCasts ⟨4, ![n0, 1, a', b']⟩)
    (i0 : Fin n0) (u : Fin 1) (p : Fin a') (q : Fin b') :
    shapeCast ⟨4, ![n0, 1, a', b']⟩ x h (ix4 i0 u p q) = x (ix3 i0 (relayRow hab p q) (relayCol hab p q)) :=
  shapeCast_apply x h _ _ (by
    have hu : u.val = 0 := by omega
    rw [Shape.rowMajor_val_four, Shape.rowMajor_val_three]
    show (i0.val * a + (relayRow hab p q).val) * b + (relayCol hab p q).val
        = ((i0.val * 1 + u.val) * a' + p.val) * b' + q.val
    have hf := relay_flat hab p q
    rw [hu]
    calc (i0.val * a + (relayRow hab p q).val) * b + (relayCol hab p q).val
        = i0.val * (a * b) + ((relayRow hab p q).val * b + (relayCol hab p q).val) := by ring
      _ = i0.val * (a' * b') + (p.val * b' + q.val) := by rw [hab, hf]
      _ = ((i0.val * 1 + 0) * a' + p.val) * b' + q.val := by ring)

/-- A rank-4 array `[n0, m, 1, n]` flattened to `[n0, N]` with `N = m * n` reads, at `(i0, k)`, the operand at
    `(i0, k / n, 0, k % n)`: `[8,2,1,128]` as `[8,256]` at `(b, c)` is the operand at `(b, c / 128, 0, c % 128)`. -/
theorem shapeCast_nm1k_nN_apply {n0 m n N : Nat} (hN : N = m * n)
    (x : (⟨4, ![n0, m, 1, n]⟩ : Shape).Idx → α)
    (h : (⟨4, ![n0, m, 1, n]⟩ : Shape).ShapeCasts ⟨2, ![n0, N]⟩)
    (i0 : Fin n0) (k : Fin N) :
    shapeCast ⟨2, ![n0, N]⟩ x h (ix2 i0 k)
      = x (ix4 i0 ⟨k.val / n, Nat.div_lt_of_lt_mul (by rw [Nat.mul_comm, ← hN]; exact k.isLt)⟩ (0 : Fin 1)
          ⟨k.val % n, Nat.mod_lt _ (pos_of_lt_mul (a := m) (by rw [← hN]; exact k.isLt))⟩) :=
  shapeCast_apply x h _ _ (by
    rw [Shape.rowMajor_val_four, Shape.rowMajor_val_two]
    show ((i0.val * m + k.val / n) * 1 + 0) * n + k.val % n = i0.val * N + k.val
    have hf : k.val / n * n + k.val % n = k.val := Nat.div_add_mod' _ _
    calc ((i0.val * m + k.val / n) * 1 + 0) * n + k.val % n
        = i0.val * (m * n) + (k.val / n * n + k.val % n) := by ring
      _ = i0.val * N + k.val := by rw [hf, ← hN])

end Relay

/-! ## A vector reduction over one axis, read at an index -/

section VectorReduce

/-- A vector sum over axis 0 of a rank-3 vector, at `(r, c)`: the sum over the coordinate `k` on that axis of the
    source at `(k, r, c)`. The accumulator's fact is typed as the printed program's proof of it is. -/
theorem vecSum_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (j : (⟨2, ![n1, n2]⟩ : Shape).Idx) :
    multiReduction .add [0] ⟨2, ![n1, n2]⟩ x 0x00000000#32 h hφ hacc j = ∑ k : Fin n0, x (ix3 k (j 0) (j 1)) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (r : Fin n1) (c : Fin n2) :
    multiReduction .add [0] ⟨2, ![n1, n2]⟩ x 0x00000000#32 h hφ hacc (ix2 r c) = ∑ k : Fin n0, x (ix3 k r c) :=
  vecSum_axis0_of3 x h hφ hacc (ix2 r c)

/-- A vector sum over axis 2 of a rank-3 vector, at `(r, c)`: the sum over `k` of the source at `(r, c, k)`. -/
theorem vecSum_axis2_of3 {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (j : (⟨2, ![n0, n1]⟩ : Shape).Idx) :
    multiReduction .add [2] ⟨2, ![n0, n1]⟩ x 0x00000000#32 h hφ hacc j = ∑ k : Fin n2, x (ix3 (j 0) (j 1) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis2_of3_ix {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (r : Fin n0) (c : Fin n1) :
    multiReduction .add [2] ⟨2, ![n0, n1]⟩ x 0x00000000#32 h hφ hacc (ix2 r c) = ∑ k : Fin n2, x (ix3 r c k) :=
  vecSum_axis2_of3 x h hφ hacc (ix2 r c)

/-- A vector sum over axis 1 of a rank-2 vector, at `r`: the sum over `k` of the source at `(r, k)`. -/
theorem vecSum_axis1_of2 {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (j : (⟨1, ![n0]⟩ : Shape).Idx) :
    multiReduction .add [1] ⟨1, ![n0]⟩ x 0x00000000#32 h hφ hacc j = ∑ k : Fin n1, x (ix2 (j 0) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (r : Fin n0) :
    multiReduction .add [1] ⟨1, ![n0]⟩ x 0x00000000#32 h hφ hacc (ix1 r) = ∑ k : Fin n1, x (ix2 r k) :=
  vecSum_axis1_of2 x h hφ hacc (ix1 r)

/-- A vector sum over axis 0 of a rank-2 vector, at `c`: the sum over `k` of the source at `(k, c)`. -/
theorem vecSum_axis0_of2 {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (j : (⟨1, ![n1]⟩ : Shape).Idx) :
    multiReduction .add [0] ⟨1, ![n1]⟩ x 0x00000000#32 h hφ hacc j = ∑ k : Fin n0, x (ix2 k (j 0)) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis0_of2_ix {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (c : Fin n1) :
    multiReduction .add [0] ⟨1, ![n1]⟩ x 0x00000000#32 h hφ hacc (ix1 c) = ∑ k : Fin n0, x (ix2 k c) :=
  vecSum_axis0_of2 x h hφ hacc (ix1 c)

/-- The f32 word of `-∞` is the least extended real. -/
theorem ofBits_neg_inf_f32 : Ideal.ofBits .f32 0xFF800000#32 = ⊥ := by
  simp [Ideal.ofBits, Ideal.ieee]

/-- A vector maximum over axis 0 of a rank-3 vector from the accumulator `-∞`, at `(r, c)`: the supremum over the
    coordinate `k` on that axis of the source at `(k, r, c)`. -/
theorem vecMax_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (j : (⟨2, ![n1, n2]⟩ : Shape).Idx) :
    multiReduction .maximumf [0] ⟨2, ![n1, n2]⟩ x 0xFF800000#32 h hφ hacc j
      = (Finset.univ : Finset (Fin n0)).sup (fun k => x (ix3 k (j 0) (j 1))) := by
  refine (Ideal.multiReduction_maximumf_single x 0xFF800000#32 h hφ hacc j).trans ?_
  have hb : (FloatOps.ofBits .f32 0xFF800000#32 : Ideal .f32) = ⊥ := ofBits_neg_inf_f32
  rw [hb]
  refine (fold_max_bot _ _).trans (congrArg (Finset.univ : Finset (Fin n0)).sup (funext fun k => congrArg x (funext fun a => Fin.ext (by
      match a with
      | ⟨0, _⟩ => rfl
      | ⟨1, _⟩ => rfl
      | ⟨2, _⟩ => rfl))))

/-- The same at an index written by coordinates. -/
theorem vecMax_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (r : Fin n1) (c : Fin n2) :
    multiReduction .maximumf [0] ⟨2, ![n1, n2]⟩ x 0xFF800000#32 h hφ hacc (ix2 r c)
      = (Finset.univ : Finset (Fin n0)).sup (fun k => x (ix3 k r c)) :=
  vecMax_axis0_of3 x h hφ hacc (ix2 r c)

end VectorReduce

/-! ## A trailing unit axis added to a vector, and a tile's total by two one-axis sums -/

section UnitAxis
variable {α : Type}

/-- An `[a]` vector cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` vector cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The total of an `[n0, n1]` tile taken as a vector sum over axis 1, a cast of the `[n0]` result to `[n0, 1]`, and a vector
    sum over axis 0: the double sum over the tile. -/
theorem vecSum_all2 {n0 n1 : Nat} (x : FVec Ideal ⟨2, ![n0, n1]⟩ .f32)
    (h1 : Shape.Reduces ⟨2, ![n0, n1]⟩ [1] ⟨1, ![n0]⟩) (hc : (⟨1, ![n0]⟩ : Shape).ShapeCasts ⟨2, ![n0, 1]⟩)
    (h0 : Shape.Reduces ⟨2, ![n0, 1]⟩ [0] ⟨1, ![1]⟩) (hφ hφ' : FKind.Formats .f32)
    (hacc hacc' : (0x00000000#32 : BitVec 32) = 0x00000000#32) (j : (⟨1, ![1]⟩ : Shape).Idx) :
    multiReduction .add [0] ⟨1, ![1]⟩
        (shapeCast ⟨2, ![n0, 1]⟩ (multiReduction .add [1] ⟨1, ![n0]⟩ x 0x00000000#32 h1 hφ hacc) hc)
        0x00000000#32 h0 hφ' hacc' j
      = ∑ r : Fin n0, ∑ c : Fin n1, x (ix2 r c) :=
  (vecSum_axis0_of2 _ h0 hφ' hacc' j).trans (Finset.sum_congr rfl fun r _ =>
    (shapeCast_a_a1_apply _ hc r (j 0)).trans (vecSum_axis1_of2_ix x h1 hφ hacc r))

end UnitAxis

/-! ## Extended-real arithmetic: division by a power of two, words evaluated, a scaled difference squared -/

section Arithmetic

/-- Division by a power of two is the product with its reciprocal, at every extended real (the infinities included). -/
theorem div_two_pow (x : EReal) (k : ℕ) :
    Ideal.div x (((2 : ℝ) ^ k : ℝ) : EReal) = x * ((1 / (2 : ℝ) ^ k : ℝ) : EReal) :=
  Ideal.div_coe (pow_ne_zero k two_ne_zero) x

/-- Division by `4096` is the product with `1/4096`. -/
theorem div_4096 (x : EReal) : Ideal.div x ((4096 : ℝ) : EReal) = x * ((1 / 4096 : ℝ) : EReal) :=
  Ideal.div_coe (by norm_num) x

/-- Division by `256` is the product with `1/256`. -/
theorem div_256 (x : EReal) : Ideal.div x ((256 : ℝ) : EReal) = x * ((1 / 256 : ℝ) : EReal) :=
  Ideal.div_coe (by norm_num) x

/-- The f32 word `0x39800000` denotes `1/4096`. -/
theorem ofBits_f32_39800000 : Ideal.ofBits .f32 0x39800000#32 = ((1 / 4096 : ℝ) : EReal) := by
  simp [Ideal.ofBits, Ideal.ieee, -EReal.coe_mul] <;> norm_num

/-- The f32 word `0x45800000` denotes `4096`. -/
theorem ofBits_f32_45800000 : Ideal.ofBits .f32 0x45800000#32 = ((4096 : ℝ) : EReal) := by
  simp [Ideal.ofBits, Ideal.ieee, -EReal.coe_mul] <;> norm_num

/-- The f32 word `0x3B800000` denotes `1/256`. -/
theorem ofBits_f32_3B800000 : Ideal.ofBits .f32 0x3B800000#32 = ((1 / 256 : ℝ) : EReal) := by
  simp [Ideal.ofBits, Ideal.ieee, -EReal.coe_mul] <;> norm_num

/-- The f32 word `0x43800000` denotes `256`. -/
theorem ofBits_f32_43800000 : Ideal.ofBits .f32 0x43800000#32 = ((256 : ℝ) : EReal) := by
  simp [Ideal.ofBits, Ideal.ieee, -EReal.coe_mul] <;> norm_num

/-- The f32 word `0x45000000` denotes `2048`. -/
theorem ofBits_f32_45000000 : Ideal.ofBits .f32 0x45000000#32 = ((2048 : ℝ) : EReal) := by
  simp [Ideal.ofBits, Ideal.ieee, -EReal.coe_mul] <;> norm_num

/-- The f32 word `0x4B000000` denotes `8388608`. -/
theorem ofBits_f32_4B000000 : Ideal.ofBits .f32 0x4B000000#32 = ((8388608 : ℝ) : EReal) := by
  simp [Ideal.ofBits, Ideal.ieee, -EReal.coe_mul] <;> norm_num

/-- The f32 word `0x47000000` denotes `32768`. -/
theorem ofBits_f32_47000000 : Ideal.ofBits .f32 0x47000000#32 = ((32768 : ℝ) : EReal) := by
  simp [Ideal.ofBits, Ideal.ieee, -EReal.coe_mul] <;> norm_num

/-- The f32 word `0x49000000` denotes `524288`. -/
theorem ofBits_f32_49000000 : Ideal.ofBits .f32 0x49000000#32 = ((524288 : ℝ) : EReal) := by
  simp [Ideal.ofBits, Ideal.ieee, -EReal.coe_mul] <;> norm_num

/-- The f32 word `0x3F000000` denotes `1/2`. -/
theorem ofBits_f32_3F000000 : Ideal.ofBits .f32 0x3F000000#32 = ((1 / 2 : ℝ) : EReal) := by
  simp [Ideal.ofBits, Ideal.ieee, -EReal.coe_mul] <;> norm_num

/-- The f32 word `0x3F800000` denotes `1`. -/
theorem ofBits_f32_3F800000 : Ideal.ofBits .f32 0x3F800000#32 = ((1 : ℝ) : EReal) := by
  simp [Ideal.ofBits, Ideal.ieee, -EReal.coe_mul] <;> norm_num

/-- The f32 word `0x40000000` denotes `2`. -/
theorem ofBits_f32_40000000 : Ideal.ofBits .f32 0x40000000#32 = ((2 : ℝ) : EReal) := by
  simp [Ideal.ofBits, Ideal.ieee, -EReal.coe_mul] <;> norm_num

/-- The f32 word `0x40800000` denotes `4`. -/
theorem ofBits_f32_40800000 : Ideal.ofBits .f32 0x40800000#32 = ((4 : ℝ) : EReal) := by
  simp [Ideal.ofBits, Ideal.ieee, -EReal.coe_mul] <;> norm_num

/-- Division by the word of `4096` is the product with the word of `1/4096`, at every extended real. -/
theorem div_word_4096 (x : EReal) :
    Ideal.div x (Ideal.ofBits .f32 0x45800000#32) = x * Ideal.ofBits .f32 0x39800000#32 := by
  rw [ofBits_f32_45800000, ofBits_f32_39800000]; exact div_4096 x

/-- Division by the word of `256` is the product with the word of `1/256`, at every extended real. -/
theorem div_word_256 (x : EReal) :
    Ideal.div x (Ideal.ofBits .f32 0x43800000#32) = x * Ideal.ofBits .f32 0x3B800000#32 := by
  rw [ofBits_f32_43800000, ofBits_f32_3B800000]; exact div_256 x

/-- For reals, the difference of two numbers scaled by the same factor, squared, is the squared difference times the
    squared factor. -/
theorem scaled_diff_sq_real (s t k : ℝ) : (s * k - t * k) * (s * k - t * k) = (s - t) * (s - t) * (k * k) := by ring

/-- The same among the extended reals, for finite entries. -/
theorem scaled_diff_sq (s t k : ℝ) :
    ((s : EReal) * (k : EReal) - (t : EReal) * (k : EReal)) * ((s : EReal) * (k : EReal) - (t : EReal) * (k : EReal))
      = ((s : EReal) - (t : EReal)) * ((s : EReal) - (t : EReal)) * ((k : EReal) * (k : EReal)) := by
  have h := congrArg (fun r : ℝ => (r : EReal)) (scaled_diff_sq_real s t k)
  simpa only [EReal.coe_mul, EReal.coe_sub] using h

end Arithmetic

end Idealize.ShloMosaic.LibSums

end
-- ==== Proof.KI.Val0.lean ====
/-
  Region 0 (the first linear layer), read at an index, over the extended reals.

  The result array after the region's twenty write-backs is ONE function of the arrays the region finds: at row n and
  column d, the sum over k of the node feature (n, k) times the weight (k, d), multiplied by the degree scale of row n.
  Three steps. First the block the body stores, at row p and column q of the block, from the three blocks it loads: a
  matrix product into a zero accumulator is the plain sum of products, a column spread over 128 columns reads the
  column, and the narrowing of the factors is the identity on extended reals. Then what grid point t writes back: its
  blocks of features and of scales are rows 5000 t … 5000 t + 4999 of their arrays and its block of the weight is the
  weight, so it writes back exactly those rows of the function. Last the cover: row r of the array lies in the block
  of point r / 5000, and every point writes back, so the array ends holding the function everywhere.
-/
import proofs.«409848_j24326694765010_2_alg».proof.Proof.KI.Dat0
import proofs.«409848_j24326694765010_2_alg».proof.Proof.LibSums
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- Multiplication of extended reals, written with its type so that an entry of a buffer may be a factor. -/
local infixl:70 " *ₑ " => (HMul.hMul : EReal → EReal → EReal)

namespace Val0

/-! ## The block's value at an index

The body multiplies the 5000 × 128 block of rows by the 128 × 128 weight and then scales each row of the product by
that row's entry of the 5000 × 1 column of scales. Over the extended reals the narrowing of the two factors changes
nothing, and the product into a zero accumulator is the plain sum of products. -/

/-- A 5000 × 1 column spread over 128 columns reads, at row p and any column, the column's entry of row p. -/
theorem bcast_col_apply {α : Type} (x : S5000x1.Idx → α) (p : Fin 5000) (q : Fin 128) :
    broadcastTo S5000x128 x broadcasts_S5000x1_S5000x128 (ix2 p q) = x (ix2 p 0) :=
  broadcastTo_apply x broadcasts_S5000x1_S5000x128 (ix2 p q) (ix2 p 0) fun a => by
    match a with
    | ⟨0, _⟩ => rfl
    | ⟨1, _⟩ => rfl

/-- The left factor of the product at output index i and contraction index r sits on the output's row … -/
theorem lhs_dot_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and in the column the contraction index names; -/
theorem lhs_dot_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
/-- the right factor sits in the row the contraction index names … -/
theorem rhs_dot_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
/-- … and in the output's column. -/
theorem rhs_dot_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The 5000 × 128 by 128 × 128 product into a zero accumulator, at row p and column q: the sum over k of the left
    factor's (p, k) entry times the right factor's (k, q) entry. -/
theorem mm_apply {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- THE BLOCK'S VALUE at row p and column q, from the three blocks the body loads. -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p 0) := by
  unfold k0_pay1
  refine (mulf_apply _ _ _).trans ?_
  rw [mm_apply, bcast_col_apply, shapeCast_self]
  rfl

/-! ## What a grid point writes back

The result as ONE function of the index into the whole arrays: at row n and column d, the sum over k of the node
feature (n, k) times the weight (k, d), times the scale of row n. Point t of the grid computes exactly rows
5000 t … 5000 t + 4999 of it: its block of features and its block of scales are those rows of their arrays, the
weight block is the whole weight. -/

/-- The result array as a function of the index. -/
def G0 (c : Dev nD) : S100000x128.Idx → EReal := fun i =>
  (∑ k : Fin 128, (V c main_arg0) (ix2 (i 0) k) *ₑ (V c main_arg1) (ix2 k (i 1))) *ₑ (V c main_v15) (ix2 (i 0) 0)

theorem hz00 : (![0, 0] : Fin 2 → Nat) = fun _ => 0 := funext fun a => by fin_cases a <;> rfl

/-- The printed index maps over the grid: the row-blocked windows sit at block row t and block column 0, the weight's
    window at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point t's block of node features at (p, k) is the array's entry (5000 t + p, k). -/
theorem iblk0_0_apply (c : Dev nD) (t : Fin cfg0.N) (p : Fin 5000) (k : Fin 128) (i : S100000x128.Idx)
    (h0 : (i 0).val = 5000 * t.val + p.val) (h1 : (i 1).val = k.val) :
    (iblk0 V c 0 t : Vec Ideal S5000x128 .f32) (ix2 p k) = (V c main_arg0) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- Point t's block of the weight is the weight. -/
theorem iblk0_1_apply (c : Dev nD) (t : Fin cfg0.N) (k : Fin 128) (q : Fin 128) :
    (iblk0 V c 1 t : Vec Ideal S128x128 .f32) (ix2 k q) = (V c main_arg1) (ix2 k q) := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Point t's block of scales at (p, 0) is the array's entry (5000 t + p, 0). -/
theorem iblk0_2_apply (c : Dev nD) (t : Fin cfg0.N) (p : Fin 5000) (i : S100000x1.Idx)
    (h0 : (i 0).val = 5000 * t.val + p.val) :
    (iblk0 V c 2 t : Vec Ideal S5000x1 .f32) (ix2 p 0) = (V c main_v15) i := by
  obtain ⟨-, -, -, -, e0, e1, -⟩ := idx_facts0 t
  unfold iblk0
  rw [View.read_apply]
  show V c main_v15 _ = V c main_v15 _
  congr 1
  funext a
  apply Fin.ext
  match a with
  | ⟨0, _⟩ => show win0_2.index t (0 : Fin 2) * 5000 + 1 * p.val = (i 0).val; rw [e0, h0]; omega
  | ⟨1, _⟩ => show win0_2.index t (1 : Fin 2) * 1 + 1 * 0 = (i 1).val; rw [e1]; have hi : (i 1).val < 1 := (i 1).isLt; omega

/-- WHAT POINT t WRITES BACK is rows 5000 t … 5000 t + 4999 of the result function. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz00]
  simp only [View.ld_unit_zero (S := S5000x128) hz00, View.ld_unit_zero (S := S128x128) hz00, View.ld_unit_zero (S := S5000x1) hz00]
  obtain ⟨-, -, -, -, -, -, e0, e1⟩ := idx_facts0 t
  funext j
  obtain ⟨p, q, rfl⟩ : ∃ (p : Fin 5000) (q : Fin 128), j = ix2 p q := ⟨j 0, j 1, eq_ix2 j⟩
  have ht : t.val < 20 := t.isLt
  obtain ⟨n, hn⟩ : ∃ n : Fin 100000, n.val = 5000 * t.val + p.val := ⟨⟨5000 * t.val + p.val, by omega⟩, rfl⟩
  have hemb : ((cfg0.win 3).blk t).view.emb (ix2 p q) = (ix2 n q : S100000x128.Idx) := by
    funext a; apply Fin.ext
    match a with
    | ⟨0, _⟩ => show win0_3.index t (0 : Fin 2) * 5000 + 1 * p.val = n.val; rw [e0, hn]; omega
    | ⟨1, _⟩ => show win0_3.index t (1 : Fin 2) * 128 + 1 * q.val = q.val; rw [e1]; omega
  show k0_pay1 (iblk0 V c 0 t) (iblk0 V c 1 t) (iblk0 V c 2 t) (ix2 p q) = G0 V c (((cfg0.win 3).blk t).view.emb (ix2 p q))
  rw [hemb]
  refine (pay0_apply _ _ _ p q).trans ?_
  have h2 : @Eq EReal ((iblk0 V c 2 t : Vec Ideal S5000x1 .f32) (ix2 p 0)) ((V c main_v15) (ix2 n 0)) :=
    iblk0_2_apply V c t p (ix2 n 0) hn
  have hs : @Eq EReal (∑ k : Fin 128, (iblk0 V c 0 t : Vec Ideal S5000x128 .f32) (ix2 p k) *ₑ (iblk0 V c 1 t : Vec Ideal S128x128 .f32) (ix2 k q))
      (∑ k : Fin 128, (V c main_arg0) (ix2 n k) *ₑ (V c main_arg1) (ix2 k q)) :=
    Finset.sum_congr rfl fun k _ => congrArg₂ (HMul.hMul : EReal → EReal → EReal) (iblk0_0_apply V c t p k (ix2 n k) hn rfl) (iblk0_1_apply V c t k q)
  exact congrArg₂ (HMul.hMul : EReal → EReal → EReal) hs h2

/-! ## The cover, and the array after the twenty write-backs -/

/-- An index of the array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Row r of the array is in the block of point r / 5000, which writes back. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < 20; omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- THE RESULT ARRAY after the twenty write-backs is the result function. -/
theorem arrAt0_eq (c : Dev nD) : (dat0 (F := Ideal) V c).arrAt 3 cfg0.N = G0 V c :=
  (dat0 (F := Ideal) V c).arrAt_eq_of_cover 3 (G0 V c) (fun t _ => flushed0_eq V c t) cover0

end Val0

/-- THE RESULT ARRAY OF REGION 0 at row n and column d: the sum over k of the node feature (n, k) times the weight
    (k, d), times the scale of row n. -/
theorem arrAt0_apply (c : Dev nD) (n : Fin 100000) (d : Fin 128) :
    ((dat0 (F := Ideal) V c).arrAt 3 cfg0.N) (ix2 n d)
      = (∑ k : Fin 128, (V c main_arg0) (ix2 n k) *ₑ (V c main_arg1) (ix2 k d)) *ₑ (V c main_v15) (ix2 n 0) := by
  rw [Val0.arrAt0_eq]
  rfl

end Cert.KernelIdeal.Hand

end
-- ==== Proof.KI.Val1.lean ====
/-
  Region 1 (the first layer's bias and rectifier fused with the second layer's linear step), read at an index, over the
  extended reals.

  The result array after the region's twenty write-backs is ONE function of the arrays the region finds: at row n and
  column d, the sum over k of max (aggregate (n, k) × scale n + bias k) 0 times the weight (k, d), multiplied by the
  degree scale of row n. The same three steps as for region 0, with a longer body: the block the body stores at an
  index of the block (each pointwise operation read at the index, the bias row spread over the rows, the zero the
  negative part is cut at, the matrix product as a sum of products); what grid point t writes back, which is rows
  5000 t … 5000 t + 4999 of the function because its blocks of aggregates and of scales are those rows of their arrays
  and its blocks of the bias and of the weight are the whole of theirs; and the cover of the array by the twenty blocks.
-/
import proofs.«409848_j24326694765010_2_alg».proof.Proof.KI.Dat1
import proofs.«409848_j24326694765010_2_alg».proof.Proof.KI.Val0
import proofs.«409848_j24326694765010_2_alg».proof.Proof.LibSums
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- Multiplication of extended reals, written with its type so that an entry of a buffer may be a factor. -/
local infixl:70 " *ₑ " => (HMul.hMul : EReal → EReal → EReal)

/-- Addition of extended reals, written with its type so that an entry of a buffer may be a summand. -/
local infixl:65 " +ₑ " => (HAdd.hAdd : EReal → EReal → EReal)

namespace Val1

open Val0

/-! ## The block's value at an index

The body scales each row of the 5000 × 128 block of aggregated features by that row's entry of the 5000 × 1 column of
scales, adds the 1 × 128 bias row to every row, cuts the negative part, multiplies the outcome by the 128 × 128 weight
and scales each row of the product by the row's scale once more. -/

/-- A 1 × 128 row spread over 5000 rows reads, at any row and column q, the row's entry of column q. -/
theorem bcast_row_apply {α : Type} (x : S1x128.Idx → α) (p : Fin 5000) (q : Fin 128) :
    broadcastTo S5000x128 x broadcasts_S1x128_S5000x128 (ix2 p q) = x (ix2 0 q) :=
  broadcastTo_apply x broadcasts_S1x128_S5000x128 (ix2 p q) (ix2 0 q) fun a => by
    match a with
    | ⟨0, _⟩ => rfl
    | ⟨1, _⟩ => rfl

/-- The zero the negative part is cut at is the extended real 0. -/
theorem zero_word : (Scalar.ofBits (F := Ideal) .f32 0x00000000#32 : EReal) = 0 := Ideal.ofBits_zero_f32

/-- THE BLOCK'S VALUE at row p and column q, from the blocks the body loads (the scales are loaded twice). -/
theorem pay1_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 x0 x1 x2 x3 x4 (ix2 p q)
      = (∑ k : Fin 128, max (x0 (ix2 p k) * x1 (ix2 p 0) + x2 (ix2 0 k)) 0 * x3 (ix2 k q)) * x4 (ix2 p 0) := by
  unfold k1_pay1
  refine (mulf_apply _ _ _).trans ?_
  simp only [shapeCast_self]
  rw [mm_apply, bcast_col_apply]
  refine congrArg (fun s : EReal => s * x4 (ix2 p 0)) (Finset.sum_congr rfl fun k _ => ?_)
  refine congrArg (fun s : EReal => s * x3 (ix2 k q)) ?_
  refine (maximumf_apply _ _ _).trans ?_
  rw [broadcast_apply, zero_word]
  refine congrArg (fun s : EReal => max s 0) ?_
  refine (addf_apply _ _ _).trans ?_
  rw [bcast_row_apply]
  refine congrArg (fun s : EReal => s + x2 (ix2 0 k)) ?_
  refine (mulf_apply _ _ _).trans ?_
  rw [bcast_col_apply]

/-! ## What a grid point writes back -/

/-- The result array as a function of the index: at row n and column d, the sum over k of the cut value
    max (aggregate (n, k) × scale n + bias k) 0 times the weight (k, d), times the scale of row n. -/
def G1 (c : Dev nD) : S100000x128.Idx → EReal := fun i =>
  (∑ k : Fin 128, max ((V c main_v27) (ix2 (i 0) k) *ₑ (V c main_v15) (ix2 (i 0) 0) +ₑ (V c main_v28) (ix2 0 k)) 0
      *ₑ (V c main_arg3) (ix2 k (i 1))) *ₑ (V c main_v15) (ix2 (i 0) 0)

/-- The printed index maps over the grid: the row-blocked windows sit at block row t and block column 0, the bias's
    and the weight's windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point t's block of aggregated features at (p, k) is the array's entry (5000 t + p, k). -/
theorem iblk1_0_apply (c : Dev nD) (t : Fin cfg1.N) (p : Fin 5000) (k : Fin 128) (i : S100000x128.Idx)
    (h0 : (i 0).val = 5000 * t.val + p.val) (h1 : (i 1).val = k.val) :
    (iblk1 V c 0 t : Vec Ideal S5000x128 .f32) (ix2 p k) = (V c main_v27) i := by
  obtain ⟨e0, e1, -⟩ := idx_facts1 t
  unfold iblk1
  rw [View.read_apply]
  show V c main_v27 _ = V c main_v27 _
  congr 1
  funext a
  apply Fin.ext
  match a with
  | ⟨0, _⟩ => show win1_0.index t (0 : Fin 2) * 5000 + 1 * p.val = (i 0).val; rw [e0, h0]; omega
  | ⟨1, _⟩ => show win1_0.index t (1 : Fin 2) * 128 + 1 * k.val = (i 1).val; rw [e1, h1]; omega

/-- Point t's block of scales at (p, 0) is the array's entry (5000 t + p, 0). -/
theorem iblk1_1_apply (c : Dev nD) (t : Fin cfg1.N) (p : Fin 5000) (i : S100000x1.Idx)
    (h0 : (i 0).val = 5000 * t.val + p.val) :
    (iblk1 V c 1 t : Vec Ideal S5000x1 .f32) (ix2 p 0) = (V c main_v15) i := by
  obtain ⟨-, -, e0, e1, -⟩ := idx_facts1 t
  unfold iblk1
  rw [View.read_apply]
  show V c main_v15 _ = V c main_v15 _
  congr 1
  funext a
  apply Fin.ext
  match a with
  | ⟨0, _⟩ => show win1_1.index t (0 : Fin 2) * 5000 + 1 * p.val = (i 0).val; rw [e0, h0]; omega
  | ⟨1, _⟩ => show win1_1.index t (1 : Fin 2) * 1 + 1 * 0 = (i 1).val; rw [e1]; have hi : (i 1).val < 1 := (i 1).isLt; omega

/-- Point t's block of the bias is the bias row. -/
theorem iblk1_2_apply (c : Dev nD) (t : Fin cfg1.N) (k : Fin 128) :
    (iblk1 V c 2 t : Vec Ideal S1x128 .f32) (ix2 0 k) = (V c main_v28) (ix2 0 k) := by
  obtain ⟨-, -, -, -, e0, e1, -⟩ := idx_facts1 t
  unfold iblk1
  rw [View.read_apply]
  show V c main_v28 _ = V c main_v28 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- Point t's block of the weight is the weight. -/
theorem iblk1_3_apply (c : Dev nD) (t : Fin cfg1.N) (k : Fin 128) (q : Fin 128) :
    (iblk1 V c 3 t : Vec Ideal S128x128 .f32) (ix2 k q) = (V c main_arg3) (ix2 k q) := by
  obtain ⟨-, -, -, -, -, -, e0, e1, -⟩ := idx_facts1 t
  unfold iblk1
  rw [View.read_apply]
  show V c main_arg3 _ = V c main_arg3 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- WHAT POINT t WRITES BACK is rows 5000 t … 5000 t + 4999 of the result function. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  unfold out1_4
  rw [View.canon_unit_zero hz00]
  simp only [View.ld_unit_zero (S := S5000x128) hz00, View.ld_unit_zero (S := S128x128) hz00, View.ld_unit_zero (S := S5000x1) hz00,
    View.ld_unit_zero (S := S1x128) hz00]
  obtain ⟨-, -, -, -, -, -, -, -, e0, e1⟩ := idx_facts1 t
  funext j
  obtain ⟨p, q, rfl⟩ : ∃ (p : Fin 5000) (q : Fin 128), j = ix2 p q := ⟨j 0, j 1, eq_ix2 j⟩
  have ht : t.val < 20 := t.isLt
  obtain ⟨n, hn⟩ : ∃ n : Fin 100000, n.val = 5000 * t.val + p.val := ⟨⟨5000 * t.val + p.val, by omega⟩, rfl⟩
  have hemb : ((cfg1.win 4).blk t).view.emb (ix2 p q) = (ix2 n q : S100000x128.Idx) := by
    funext a; apply Fin.ext
    match a with
    | ⟨0, _⟩ => show win1_4.index t (0 : Fin 2) * 5000 + 1 * p.val = n.val; rw [e0, hn]; omega
    | ⟨1, _⟩ => show win1_4.index t (1 : Fin 2) * 128 + 1 * q.val = q.val; rw [e1]; omega
  show k1_pay1 (iblk1 V c 0 t) (iblk1 V c 1 t) (iblk1 V c 2 t) (iblk1 V c 3 t) (iblk1 V c 1 t) (ix2 p q)
    = G1 V c (((cfg1.win 4).blk t).view.emb (ix2 p q))
  rw [hemb]
  refine (pay1_apply _ _ _ _ _ p q).trans ?_
  have hd : @Eq EReal ((iblk1 V c 1 t : Vec Ideal S5000x1 .f32) (ix2 p 0)) ((V c main_v15) (ix2 n 0)) :=
    iblk1_1_apply V c t p (ix2 n 0) hn
  have hs : @Eq EReal
      (∑ k : Fin 128, max ((iblk1 V c 0 t : Vec Ideal S5000x128 .f32) (ix2 p k) *ₑ (iblk1 V c 1 t : Vec Ideal S5000x1 .f32) (ix2 p 0)
          +ₑ (iblk1 V c 2 t : Vec Ideal S1x128 .f32) (ix2 0 k)) 0 *ₑ (iblk1 V c 3 t : Vec Ideal S128x128 .f32) (ix2 k q))
      (∑ k : Fin 128, max ((V c main_v27) (ix2 n k) *ₑ (V c main_v15) (ix2 n 0) +ₑ (V c main_v28) (ix2 0 k)) 0
          *ₑ (V c main_arg3) (ix2 k q)) :=
    Finset.sum_congr rfl fun k _ =>
      congrArg₂ (HMul.hMul : EReal → EReal → EReal)
        (congrArg (fun s : EReal => max s 0)
          (congrArg₂ (HAdd.hAdd : EReal → EReal → EReal)
            (congrArg₂ (HMul.hMul : EReal → EReal → EReal) (iblk1_0_apply V c t p k (ix2 n k) hn rfl) hd)
            (iblk1_2_apply V c t k)))
        (iblk1_3_apply V c t k q)
  exact congrArg₂ (HMul.hMul : EReal → EReal → EReal) hs hd

/-! ## The cover, and the array after the twenty write-backs -/

/-- An index of the array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v29).slice (win1_4.rect t)).set ↔ _
  rw [View.set_slice_whole, Rect.mem_set_unit]
  exact Iff.rfl

/-- Row r of the array is in the block of point r / 5000, which writes back. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show (i 0).val / 5000 < 20; omega⟩, rfl⟩
  obtain ⟨-, -, -, -, -, -, -, -, e0, e1⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 128 ≤ (i 1).val ∧ (i 1).val < win1_4.index t (1 : Fin 2) * 128 + 128; rw [e1]; omega

/-- THE RESULT ARRAY after the twenty write-backs is the result function. -/
theorem arrAt1_eq (c : Dev nD) : (dat1 (F := Ideal) V c).arrAt 4 cfg1.N = G1 V c :=
  (dat1 (F := Ideal) V c).arrAt_eq_of_cover 4 (G1 V c) (fun t _ => flushed1_eq V c t) cover1

end Val1

/-- THE RESULT ARRAY OF REGION 1 at row n and column d: the sum over k of max (aggregate (n, k) × scale n + bias k) 0
    times the weight (k, d), times the scale of row n. -/
theorem arrAt1_apply (c : Dev nD) (n : Fin 100000) (d : Fin 128) :
    ((dat1 (F := Ideal) V c).arrAt 4 cfg1.N) (ix2 n d)
      = (∑ k : Fin 128, max ((V c main_v27) (ix2 n k) *ₑ (V c main_v15) (ix2 n 0) +ₑ (V c main_v28) (ix2 0 k)) 0
          *ₑ (V c main_arg3) (ix2 k d)) *ₑ (V c main_v15) (ix2 n 0) := by
  rw [Val1.arrAt1_eq]
  rfl

end Cert.KernelIdeal.Hand

end
-- ==== Proof.KI.Val2.lean ====
/-
  Region 2 (the second layer's bias and rectifier fused with the pooling), read at an index, over the extended reals.

  The result array after the region's one write-back is, at graph g and column d, the sum over all 100000 rows n of
  the one-hot entry of row n's graph id against g times the rectified row: max (agg (n, d) · scale n + bias d, 0).
  Four steps. First one grid point's update of the 64 × 128 accumulator at an entry, from the four blocks the body
  loads: the matrix product contracts the row axis of both factors into a zero accumulator, so it is the plain sum over
  the block's 5000 rows of the products; the left factor at (r, g) is the comparison of row r's graph id with g read
  as a number, 1 or 0; the right factor at (r, d) is the rectified row; the narrowing of the factors is the identity on
  extended reals. Then each input block read where it sits in its array: point t's row blocks are rows
  5000 t … 5000 t + 4999, the bias block is the bias. Then, by induction on the point, the accumulator after point n is
  the sum of the contributions of the rows of points 0 … n; after the last point the twenty blocks of 5000 rows are all
  100000 rows. Last the array: the result window's block never moves and is written back at the last point only, where
  it covers the whole array, so the array ends holding the accumulator after the last point.
-/
import proofs.«409848_j24326694765010_2_alg».proof.Proof.KI.Dat2
import Idealize.ShloMosaic.Lib.ValueIdx
import Idealize.ShloMosaic.Lib.ValueLayout
import Idealize.ShloMosaic.Lib.Pipeline.Value
import Idealize.ShloMosaic.PureOps.Ideal.Laws
import proofs.«409848_j24326694765010_2_alg».proof.Proof.LibSums

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- Multiplication and addition of extended reals, written with their type so that an entry of a buffer may be an operand. -/
local infixl:70 " *ₑ " => (HMul.hMul : EReal → EReal → EReal)
local infixl:65 " +ₑ " => (HAdd.hAdd : EReal → EReal → EReal)

namespace Val2

theorem hz2 : (![0, 0] : Fin 2 → Nat) = fun _ => 0 := funext fun a => by
  match a with
  | ⟨0, _⟩ => rfl
  | ⟨1, _⟩ => rfl

/-- The one-hot entry of a row's graph id against graph g. -/
def oh (w : BitVec 32) (g : Fin 64) : EReal := if w = BitVec.ofNat 32 g.val then 1 else 0

theorem lhs2_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs2_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs2_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs2_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

theorem step2_eq (x0 : Vec Ideal S5000x128 .f32) (x1 : Vec Ideal S5000x1 .f32) (x2 : Vec Ideal S1x128 .f32)
    (x3 : Vec Ideal S5000x1 .i32) (acc : Vec Ideal S64x128 .f32) :
    step2 x0 x1 x2 x3 acc = k2_pay2 x0 x1 x2 x3 acc := by
  unfold step2
  rw [View.canon_unit_zero hz2]
  simp only [View.ld_unit_zero (S := S5000x128) hz2, View.ld_unit_zero (S := S5000x1) hz2,
    View.ld_unit_zero (S := S1x128) hz2, View.ld_unit_zero (S := S64x128) hz2]

/-- The comparison of a word with graph g's number, widened and read as a number, is the one-hot entry. -/
theorem oh_word (w : BitVec 32) (g : Fin 64) :
    (FloatOps.sitofp (F := Ideal) .f32 ((IntOp.cmpi .eq w (BitVec.ofNat 32 g.val)).setWidth 32) : EReal) = oh w g := by
  unfold oh IntOp.cmpi
  by_cases h : w = BitVec.ofNat 32 g.val
  · rw [if_pos h]
    have e : ((BitVec.ofBool (w == BitVec.ofNat 32 g.val)).setWidth 32).toInt = 1 := by
      rw [show (w == BitVec.ofNat 32 g.val) = true from beq_iff_eq.mpr h]; decide
    show (((((BitVec.ofBool (w == BitVec.ofNat 32 g.val)).setWidth 32).toInt : ℝ)) : EReal) = 1
    rw [e]; simp
  · rw [if_neg h]
    have e : ((BitVec.ofBool (w == BitVec.ofNat 32 g.val)).setWidth 32).toInt = 0 := by
      rw [show (w == BitVec.ofNat 32 g.val) = false from beq_eq_false_iff_ne.mpr h]; decide
    show (((((BitVec.ofBool (w == BitVec.ofNat 32 g.val)).setWidth 32).toInt : ℝ)) : EReal) = 0
    rw [e]; simp

/-- The payload of the one store at an entry: the accumulator there plus the sum over the block's rows of the one-hot
    entry times the rectified row. -/
theorem pay2_apply (x0 : Vec Ideal S5000x128 .f32) (x1 : Vec Ideal S5000x1 .f32) (x2 : Vec Ideal S1x128 .f32)
    (x3 : Vec Ideal S5000x1 .i32) (acc : Vec Ideal S64x128 .f32) (g : Fin 64) (d : Fin 128) :
    k2_pay2 x0 x1 x2 x3 acc (ix2 g d)
      = acc (ix2 g d) + ∑ r : Fin 5000, oh (x3 (ix2 r 0)) g * max (x0 (ix2 r d) * x1 (ix2 r 0) + x2 (ix2 0 d)) 0 := by
  unfold k2_pay2
  simp only [shapeCast_self]
  refine (addf_apply _ _ _).trans ?_
  refine congrArg (acc (ix2 g d) + ·) ?_
  refine (Ideal.matmul_constant_zero_apply dot_S5000x64_S5000x128_S64x128_0_0_1_1_n_n none _ _ (ix2 g d)).trans ?_
  refine (Equiv.sum_comp (contrEquiv1 dot_S5000x64_S5000x128_S64x128_0_0_1_1_n_n 5000 rfl rfl).symm _).symm.trans ?_
  refine Finset.sum_congr rfl fun r _ => ?_
  have hk := contrEquiv1_symm_val dot_S5000x64_S5000x128_S64x128_0_0_1_1_n_n 5000 rfl rfl r
  have el : dot_S5000x64_S5000x128_S64x128_0_0_1_1_n_n.lhsIdx (ix2 g d) ((contrEquiv1 dot_S5000x64_S5000x128_S64x128_0_0_1_1_n_n 5000 rfl rfl).symm r) = (ix2 r g : S5000x64.Idx) := funext fun a => Fin.ext (by
    match a with
    | ⟨0, _⟩ => exact (lhs2_0 _ _).trans hk
    | ⟨1, _⟩ => exact lhs2_1 _ _)
  have er : dot_S5000x64_S5000x128_S64x128_0_0_1_1_n_n.rhsIdx (ix2 g d) ((contrEquiv1 dot_S5000x64_S5000x128_S64x128_0_0_1_1_n_n 5000 rfl rfl).symm r) = (ix2 r d : S5000x128.Idx) := funext fun a => Fin.ext (by
    match a with
    | ⟨0, _⟩ => exact (rhs2_0 _ _).trans hk
    | ⟨1, _⟩ => exact rhs2_1 _ _)
  rw [el, er]
  have hb3 : broadcastTo S5000x64 x3 broadcasts_S5000x1_S5000x64 (ix2 r g) = x3 (ix2 r 0) :=
    broadcastTo_apply x3 _ (ix2 r g) (ix2 r 0) (fun a => by
      match a with
      | ⟨0, _⟩ => rfl
      | ⟨1, _⟩ => rfl)
  have hb1 : broadcastTo S5000x128 x1 broadcasts_S5000x1_S5000x128 (ix2 r d) = x1 (ix2 r 0) :=
    broadcastTo_apply x1 _ (ix2 r d) (ix2 r 0) (fun a => by
      match a with
      | ⟨0, _⟩ => rfl
      | ⟨1, _⟩ => rfl)
  have hb2 : broadcastTo S5000x128 x2 broadcasts_S1x128_S5000x128 (ix2 r d) = x2 (ix2 0 d) :=
    broadcastTo_apply x2 _ (ix2 r d) (ix2 0 d) (fun a => by
      match a with
      | ⟨0, _⟩ => rfl
      | ⟨1, _⟩ => rfl)
  have hio : iota .tc S5000x64 32 [1] iota_S5000x64_d1_w32 (ix2 r g) = BitVec.ofNat 32 g.val :=
    iota_single_apply .tc S5000x64 32 1 iota_S5000x64_d1_w32 (ix2 r g)
  show FloatOps.sitofp (F := Ideal) .f32 ((IntOp.cmpi .eq (broadcastTo S5000x64 x3 broadcasts_S5000x1_S5000x64 (ix2 r g)) (iota .tc S5000x64 32 [1] iota_S5000x64_d1_w32 (ix2 r g))).setWidth 32)
      * max (x0 (ix2 r d) * broadcastTo S5000x128 x1 broadcasts_S5000x1_S5000x128 (ix2 r d) + broadcastTo S5000x128 x2 broadcasts_S1x128_S5000x128 (ix2 r d)) (Ideal.ofBits .f32 0x00000000#32) = _
  rw [hb3, hb1, hb2, hio, oh_word, Ideal.ofBits_zero_f32]

theorem init2_apply (g : Fin 64) (d : Fin 128) : (init2 (F := Ideal)) (ix2 g d) = 0 := by
  unfold init2
  rw [View.canon_unit_zero hz2]
  unfold k2_pay1
  simp only [shapeCast_self]
  exact Ideal.ofBits_zero_f32

/-- One point's update at an entry. -/
theorem step2_apply (x0 : Vec Ideal S5000x128 .f32) (x1 : Vec Ideal S5000x1 .f32) (x2 : Vec Ideal S1x128 .f32)
    (x3 : Vec Ideal S5000x1 .i32) (acc : Vec Ideal S64x128 .f32) (g : Fin 64) (d : Fin 128) :
    step2 x0 x1 x2 x3 acc (ix2 g d)
      = acc (ix2 g d) + ∑ r : Fin 5000, oh (x3 (ix2 r 0)) g * max (x0 (ix2 r d) * x1 (ix2 r 0) + x2 (ix2 0 d)) 0 := by
  rw [step2_eq]; exact pay2_apply x0 x1 x2 x3 acc g d

/-- The printed index maps over the grid: the row blocks move with the point, the bias and the result stay. -/
theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0 :=
  (by decide +kernel : ∀ t : Fin grid2.N, _)

/-- Row r of point t's block is row 5000 t + r of the array. -/
def row2 (t : Fin cfg2.N) (r : Fin 5000) : Fin 100000 :=
  ⟨t.val * 5000 + r.val, by
    have h20 : t.val < 20 := lt_of_lt_of_eq t.isLt N_2
    have := r.isLt; omega⟩

theorem iblk2_0_apply (c : Dev nD) (t : Fin cfg2.N) (r : Fin 5000) (j : Fin 128) :
    (iblk2 V c 0 t : Vec Ideal S5000x128 .f32) (ix2 r j) = (V c main_v39 : Vec Ideal S100000x128 .f32) (ix2 (row2 t r) j) := by
  obtain ⟨e0, e1, -⟩ := idx2_facts t
  unfold iblk2
  rw [View.read_apply]
  show V c main_v39 _ = V c main_v39 _
  congr 1
  funext a; apply Fin.ext
  match a with
  | ⟨0, _⟩ => show win2_0.index t (0 : Fin 2) * 5000 + 1 * r.val = t.val * 5000 + r.val; rw [e0]; omega
  | ⟨1, _⟩ => show win2_0.index t (1 : Fin 2) * 128 + 1 * j.val = j.val; rw [e1]; omega

theorem iblk2_1_apply (c : Dev nD) (t : Fin cfg2.N) (r : Fin 5000) (j : Fin 1) :
    (iblk2 V c 1 t : Vec Ideal S5000x1 .f32) (ix2 r j) = (V c main_v15 : Vec Ideal S100000x1 .f32) (ix2 (row2 t r) j) := by
  obtain ⟨-, -, e0, e1, -⟩ := idx2_facts t
  unfold iblk2
  rw [View.read_apply]
  show V c main_v15 _ = V c main_v15 _
  congr 1
  funext a; apply Fin.ext
  match a with
  | ⟨0, _⟩ => show win2_1.index t (0 : Fin 2) * 5000 + 1 * r.val = t.val * 5000 + r.val; rw [e0]; omega
  | ⟨1, _⟩ => show win2_1.index t (1 : Fin 2) * 1 + 1 * j.val = j.val; rw [e1]; omega

theorem iblk2_2_apply (c : Dev nD) (t : Fin cfg2.N) (i : Fin 1) (j : Fin 128) :
    (iblk2 V c 2 t : Vec Ideal S1x128 .f32) (ix2 i j) = (V c main_v40 : Vec Ideal S1x128 .f32) (ix2 i j) := by
  obtain ⟨-, -, -, -, e0, e1, -⟩ := idx2_facts t
  unfold iblk2
  rw [View.read_apply]
  show V c main_v40 _ = V c main_v40 _
  congr 1
  funext a; apply Fin.ext
  match a with
  | ⟨0, _⟩ => show win2_2.index t (0 : Fin 2) * 1 + 1 * i.val = i.val; rw [e0]; omega
  | ⟨1, _⟩ => show win2_2.index t (1 : Fin 2) * 128 + 1 * j.val = j.val; rw [e1]; omega

theorem iblk2_3_apply (c : Dev nD) (t : Fin cfg2.N) (r : Fin 5000) (j : Fin 1) :
    (iblk2 V c 3 t : Vec Ideal S5000x1 .i32) (ix2 r j) = (V c main_v16 : Vec Ideal S100000x1 .i32) (ix2 (row2 t r) j) := by
  obtain ⟨-, -, -, -, -, -, e0, e1, -⟩ := idx2_facts t
  unfold iblk2
  rw [View.read_apply]
  show V c main_v16 _ = V c main_v16 _
  congr 1
  funext a; apply Fin.ext
  match a with
  | ⟨0, _⟩ => show win2_3.index t (0 : Fin 2) * 5000 + 1 * r.val = t.val * 5000 + r.val; rw [e0]; omega
  | ⟨1, _⟩ => show win2_3.index t (1 : Fin 2) * 1 + 1 * j.val = j.val; rw [e1]; omega

/-- Row n's contribution to entry (g, d) of the pooled sums. -/
def term2 (c : Dev nD) (g : Fin 64) (d : Fin 128) (n : Fin 100000) : EReal :=
  oh ((V c main_v16) (ix2 n 0)) g
    *ₑ (max : EReal → EReal → EReal) ((V c main_v39) (ix2 n d) *ₑ (V c main_v15) (ix2 n 0) +ₑ (V c main_v40) (ix2 0 d)) 0

/-- The same over the naturals, zero past the last row. -/
def term2N (c : Dev nD) (g : Fin 64) (d : Fin 128) (k : ℕ) : EReal :=
  if h : k < 100000 then term2 V c g d ⟨k, h⟩ else 0

theorem term2N_of_lt (c : Dev nD) (g : Fin 64) (d : Fin 128) (k : ℕ) (h : k < 100000) :
    term2N V c g d k = term2 V c g d ⟨k, h⟩ := by
  unfold term2N; rw [dif_pos h]

/-- One point's update at an entry, over the arrays: the point's 5000 rows' contributions are added. -/
theorem step2_point (c : Dev nD) (t : Fin cfg2.N) (acc : Vec Ideal S64x128 .f32) (g : Fin 64) (d : Fin 128) :
    step2 (iblk2 V c 0 t) (iblk2 V c 1 t) (iblk2 V c 2 t) (iblk2 V c 3 t) acc (ix2 g d)
      = acc (ix2 g d) + ∑ r : Fin 5000, term2N V c g d (t.val * 5000 + r.val) := by
  refine (step2_apply _ _ _ _ acc g d).trans ?_
  refine congrArg (acc (ix2 g d) + ·) ?_
  refine Finset.sum_congr rfl fun r _ => ?_
  rw [iblk2_0_apply, iblk2_1_apply, iblk2_2_apply, iblk2_3_apply,
    term2N_of_lt V c g d (t.val * 5000 + r.val) (row2 t r).isLt]
  rfl

/-- The accumulator after point n at an entry: the contributions of the rows of points 0 … n. -/
theorem accAt2_apply (c : Dev nD) (g : Fin 64) (d : Fin 128) : ∀ (n : ℕ) (h : n < cfg2.N),
    accAt2 V c n h (ix2 g d) = ∑ t' ∈ Finset.range (n + 1), ∑ r : Fin 5000, term2N V c g d (t' * 5000 + r.val)
  | 0, h => by
    rw [accAt2_zero, step2_point V c ⟨0, h⟩, init2_apply, zero_add, Finset.sum_range_one]
  | n + 1, h => by
    rw [accAt2_succ, step2_point V c ⟨n + 1, h⟩, accAt2_apply c g d n (Nat.lt_of_succ_lt h), Finset.sum_range_succ _ (n + 1)]

/-- The last grid point. -/
abbrev t19 : Fin cfg2.N := ⟨19, by decide⟩

/-- The accumulator after the last point, as contents of the result array (its one block is the array). -/
abbrev result2 (c : Dev nD) : Buf (Elt Ideal) ((c : Thread nD τ).loc main_v41) := accAt2 V c 19 (by decide)

/-- The one write-back, at the last point, writes it: block (0, 0) of the 64 × 128 array is the array. -/
theorem flushed2_eq (c : Dev nD) (t : Fin cfg2.N) (hf : (cfg2.win 4).flush t = true) :
    (dat2 V c).flushed 4 t = ((cfg2.win 4).blk t).view.read (Elt Ideal) (result2 V c) := by
  have h20 : t.val < 20 := lt_of_lt_of_eq t.isLt N_2
  have h19 : t.val = 19 := by have := (flush2_4 t).mp hf; omega
  obtain rfl : t = t19 := Fin.ext h19
  show (cfg2.win 4).cut (grid2.coords t19) ((dat2 V c).after 4 t19) = _
  rw [after2_4]
  obtain ⟨-, -, -, -, -, -, -, -, e0, e1⟩ := idx2_facts t19
  have hz' : (fun a => win2_4.index t19 a * main_v41.ty.shape.size a) = fun _ => 0 := funext fun a => by
    match a with
    | ⟨0, _⟩ => show win2_4.index t19 (0 : Fin 2) * 64 = 0; rw [e0]
    | ⟨1, _⟩ => show win2_4.index t19 (1 : Fin 2) * 128 = 0; rw [e1]
  exact (Memref.read_access_unit_zero (Elt Ideal) main_v41 hz' (fun a => by rw [congrFun hz' a]; simp) (result2 V c)).symm

/-- So the result array ends holding the accumulator after the last point. -/
theorem final2 (c : Dev nD) : (dat2 V c).arrAt 4 cfg2.N = result2 V c :=
  (dat2 V c).arrAt_eq_of_cover 4 (result2 V c) (flushed2_eq V c) fun i =>
    ⟨t19, (flush2_4 t19).mpr rfl, by
      show i ∈ ((View.whole main_v41).slice (win2_4.rect t19)).set
      rw [View.set_slice_whole, Rect.mem_set_unit]
      intro a
      have h0 : (i 0 : Nat) < 64 := (i 0).isLt
      have h1 : (i 1 : Nat) < 128 := (i 1).isLt
      obtain ⟨-, -, -, -, -, -, -, -, e0, e1⟩ := idx2_facts t19
      match a with
      | ⟨0, _⟩ =>
        show win2_4.index t19 (0 : Fin 2) * 64 ≤ (i 0 : Nat) ∧ (i 0 : Nat) < win2_4.index t19 (0 : Fin 2) * 64 + win2_4.xsize (grid2.coords t19) 0
        rw [e0, show win2_4.xsize (grid2.coords t19) 0 = 64 from rfl]; omega
      | ⟨1, _⟩ =>
        show win2_4.index t19 (1 : Fin 2) * 128 ≤ (i 1 : Nat) ∧ (i 1 : Nat) < win2_4.index t19 (1 : Fin 2) * 128 + win2_4.xsize (grid2.coords t19) 1
        rw [e1, show win2_4.xsize (grid2.coords t19) 1 = 128 from rfl]; omega⟩

end Val2

/-- THE POOLED SUMS: the result array of region 2 at graph g and column d is the sum over all 100000 rows of the one-hot
    entry of the row's graph id against g times the rectified row at d. -/
theorem arrAt2_apply (c : Dev nD) (g : Fin 64) (d : Fin 128) :
    ((dat2 (F := Ideal) V c).arrAt 4 cfg2.N) (ix2 g d)
      = ∑ n : Fin 100000, (if @Eq (BitVec 32) ((V c main_v16) (ix2 n 0)) (BitVec.ofNat 32 g.val) then (1 : EReal) else 0)
          * (max : EReal → EReal → EReal) ((V c main_v39) (ix2 n d) *ₑ (V c main_v15) (ix2 n 0) +ₑ (V c main_v40) (ix2 0 d)) 0 := by
  rw [Val2.final2 V c]
  show accAt2 V c 19 _ (ix2 g d) = _
  rw [Val2.accAt2_apply V c g d 19]
  show ∑ t' ∈ Finset.range 20, ∑ r : Fin 5000, Val2.term2N V c g d (t' * 5000 + r.val) = _
  rw [Finset.sum_range (fun t' => ∑ r : Fin 5000, Val2.term2N V c g d (t' * 5000 + r.val)),
    LibSums.sum_flat_relay (a := 100000) (b := 1) (a' := 20) (b' := 5000) (by norm_num) (Val2.term2N V c g d)]
  refine Finset.sum_congr rfl fun n _ => ?_
  rw [Fin.sum_univ_one]
  refine (congrArg (Val2.term2N V c g d) (show n.val * 1 + ((0 : Fin 1) : ℕ) = n.val by simp)).trans ?_
  rw [Val2.term2N_of_lt V c g d n.val n.isLt]
  rfl

end Cert.KernelIdeal.Hand

end
-- ==== Proof.GatherScatter.lean ====
/-
  A row gather and a row scatter-add, read at an index.

  `table[idx]` on the rows of a table is a gather whose start index is read off the index array as a SIGNED
  integer and CLAMPED into the table: a negative index reads row 0, one past the end reads the last row.
  A segment sum is a scatter with an add body whose start index is read SIGNED and NOT clamped: an update whose
  row lies outside the operand is dropped. These lemmas say so coordinate by coordinate.
-/
import Idealize.ShloMosaic.PureOps.Dims
import Idealize.ShloMosaic.PureOps.ShapeOps
import Idealize.ShloMosaic.PureOps.Ideal
import Idealize.ShloMosaic.Lib.ValueIdx
import Mathlib.Algebra.BigOperators.Fin
import Mathlib.Algebra.BigOperators.Group.Finset.Basic

noncomputable section

open scoped BigOperators

namespace Cert.GS

open Idealize.ShloMosaic Idealize.ShloMosaic.ValueIdx

/-- A 32-bit word read as a signed integer and clamped into the rows `0 … R − 1` of a table with `R > 0` rows. -/
def clampRow (R : ℕ) (hR : 0 < R) (w : BitVec 32) : Fin R := ⟨min w.toInt.toNat (R - 1), by omega⟩

/-- A 32-bit word read as a signed integer, as a row of a table with `R` rows when it is one, else nothing. -/
def rowOf (R : ℕ) (w : BitVec 32) : Option (Fin R) :=
  if h : 0 ≤ w.toInt ∧ w.toInt < R then some ⟨w.toInt.toNat, by omega⟩ else none

/-- The word names row `r` exactly when its signed value is `r`. -/
theorem rowOf_eq_some_iff {R : ℕ} {w : BitVec 32} {r : Fin R} : rowOf R w = some r ↔ w.toInt = (r.val : ℤ) := by
  have hr := r.isLt
  unfold rowOf
  split
  · rename_i h
    rw [Option.some.injEq, Fin.ext_iff]
    show w.toInt.toNat = r.val ↔ _
    omega
  · rename_i h
    constructor
    · intro hc; exact absurd hc (by simp)
    · intro hc; exact absurd ⟨by omega, by omega⟩ h

/-- A word that names a row is clamped to that row. -/
theorem clampRow_of_rowOf {R : ℕ} (hR : 0 < R) {w : BitVec 32} {r : Fin R} (h : rowOf R w = some r) :
    clampRow R hR w = r := by
  have hr := r.isLt
  rw [rowOf_eq_some_iff] at h
  apply Fin.ext
  show min w.toInt.toNat (R - 1) = r.val
  omega

/-- The gather of rows of an `R × C` table at an `E × 1` column of start indices: result element `(e, j)` is the
    table at row `idx[e, 0]` (signed, clamped) and column `j`. -/
theorem gather_rows2 {R C E : ℕ} (hR : 0 < R) (d : GatherDims ⟨2, ![R, C]⟩ ⟨2, ![E, 1]⟩ ⟨2, ![E, C]⟩)
    (h_off : d.offsetDims = [1]) (h_col : d.collapsedSliceDims = [0]) (h_ob : d.operandBatchingDims = [])
    (h_sb : d.startIndicesBatchingDims = []) (h_map : d.startIndexMap = [0]) (h_ivd : d.indexVectorDim = 1)
    (h_ss : d.sliceSizes = ![1, C])
    {α : Type} (x : (⟨2, ![R, C]⟩ : Shape).Idx → α) (idx : IVec ⟨2, ![E, 1]⟩ 32) (e : Fin E) (j : Fin C) :
    Host.gather d x idx (ix2 e j) = x (ix2 (clampRow R hR (idx (ix2 e 0))) j) := by
  obtain ⟨od, cd, ob, sb, sm, iv, ss, wf⟩ := d
  simp only at h_off h_col h_ob h_sb h_map h_ivd h_ss
  subst h_off h_col h_ob h_sb h_map h_ivd h_ss
  unfold Host.gather
  congr 1
  funext a
  refine Fin.ext ?_
  match a with
  | ⟨0, _⟩ =>
    -- the row axis is collapsed and start-indexed: the clamped start, no batching, no offset
    show GatherDims.start _ (ix2 e j) idx 0 + GatherDims.batchCoord _ (ix2 e j) 0 + GatherDims.offCoord _ (ix2 e j) 0
      = min (idx (ix2 e 0)).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (R - 1) = min (idx (ix2 e 0)).toInt.toNat (R - 1)
    congr 3
    congr 1
    funext b
    refine Fin.ext ?_
    match b with
    | ⟨0, _⟩ => rfl
    | ⟨1, _⟩ => rfl
  | ⟨1, _⟩ =>
    -- the column axis is the one offset axis: start 0, no batching, the result's column coordinate
    show GatherDims.start _ (ix2 e j) idx 1 + GatherDims.batchCoord _ (ix2 e j) 1 + GatherDims.offCoord _ (ix2 e j) 1
      = j.val
    rw [GatherDims.batchCoord_eq_zero _ _ _ List.not_mem_nil]
    unfold GatherDims.start
    rw [dif_neg (show (1 : Fin 2) ∉ [0] by decide)]
    simp only [Nat.zero_add, Nat.add_zero]
    rfl

/-- The gather of entries of a flat table of `R` entries at an `E × 1` column of start indices: result element
    `e` is the table at position `idx[e, 0]` (signed, clamped). -/
theorem gather_rows1 {R E : ℕ} (hR : 0 < R) (d : GatherDims ⟨1, ![R]⟩ ⟨2, ![E, 1]⟩ ⟨1, ![E]⟩)
    (h_off : d.offsetDims = []) (h_col : d.collapsedSliceDims = [0]) (h_ob : d.operandBatchingDims = [])
    (h_sb : d.startIndicesBatchingDims = []) (h_map : d.startIndexMap = [0]) (h_ivd : d.indexVectorDim = 1)
    (h_ss : d.sliceSizes = ![1])
    {α : Type} (x : (⟨1, ![R]⟩ : Shape).Idx → α) (idx : IVec ⟨2, ![E, 1]⟩ 32) (e : Fin E) :
    Host.gather d x idx (ix1 e) = x (ix1 (clampRow R hR (idx (ix2 e 0)))) := by
  obtain ⟨od, cd, ob, sb, sm, iv, ss, wf⟩ := d
  simp only at h_off h_col h_ob h_sb h_map h_ivd h_ss
  subst h_off h_col h_ob h_sb h_map h_ivd h_ss
  unfold Host.gather
  congr 1
  funext a
  refine Fin.ext ?_
  match a with
  | ⟨0, _⟩ =>
    -- the one axis is collapsed and start-indexed: the clamped start, no batching, no offset
    show GatherDims.start _ (ix1 e) idx 0 + GatherDims.batchCoord _ (ix1 e) 0 + GatherDims.offCoord _ (ix1 e) 0
      = min (idx (ix2 e 0)).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (R - 1) = min (idx (ix2 e 0)).toInt.toNat (R - 1)
    congr 3
    congr 1
    funext b
    refine Fin.ext ?_
    match b with
    | ⟨0, _⟩ => rfl
    | ⟨1, _⟩ => rfl
/-! ## The row scatter-add -/

/-- The dimension numbers of a row scatter into an `R × C` operand from `E × C` updates at an `E × 1` column of
    start indices: the updates' column axis is the window, the operand's row axis is inserted and start-indexed. -/
abbrev sd2 (R C E : ℕ) (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ := ⟨[1], [0], [0], 1, wf⟩

section Sd2
variable {R C E : ℕ} (wf : ScatterDims.WF ⟨2, ![R, C]⟩ ⟨2, ![E, 1]⟩ ⟨2, ![E, C]⟩ [1] [0] [0] 1)
  (idx : IVec ⟨2, ![E, 1]⟩ 32) (e : Fin E) (j' : Fin C)

/-- On the row axis the window starts at the update row's start index, read signed. -/
theorem sd2_start0 : (sd2 R C E wf).start (ix2 e j') idx 0 = (idx (ix2 e 0)).toInt := by
  unfold ScatterDims.start
  rw [dif_pos (show (0 : Fin 2) ∈ [0] from List.mem_singleton.mpr rfl)]
  congr 2
  funext b
  refine Fin.ext ?_
  match b with
  | ⟨0, _⟩ => rfl
  | ⟨1, _⟩ => rfl

/-- On the column axis the window starts at 0. -/
theorem sd2_start1 : (sd2 R C E wf).start (ix2 e j') idx 1 = 0 := by
  unfold ScatterDims.start
  rw [dif_neg (show (1 : Fin 2) ∉ [0] by decide)]

/-- The row axis is inserted: no window coordinate. -/
theorem sd2_win0 : (sd2 R C E wf).window (ix2 e j') 0 = 0 := by
  unfold ScatterDims.window
  rw [dif_neg]
  show (0 : Fin 2) ∉ (List.finRange 2).filter (· ∉ [0])
  decide

/-- The column axis carries the update's column coordinate. -/
theorem sd2_win1 : (sd2 R C E wf).window (ix2 e j') 1 = j'.val := by
  unfold ScatterDims.window
  rw [dif_pos]
  · rfl
  · show (1 : Fin 2) ∈ (List.finRange 2).filter (· ∉ [0])
    decide

end Sd2

/-- WHERE AN UPDATE LANDS: update element `(e, j')` lands on operand element `(r, j)` exactly when its start index,
    read signed, is the row `r` and its column is `j`; an update whose start index is no row of the operand lands
    nowhere. -/
theorem resultIdx_rows2 {R C E : ℕ} (d : ScatterDims ⟨2, ![R, C]⟩ ⟨2, ![E, 1]⟩ ⟨2, ![E, C]⟩)
    (h_uw : d.updateWindowDims = [1]) (h_iw : d.insertedWindowDims = [0]) (h_map : d.scatterDimsToOperandDims = [0])
    (h_ivd : d.indexVectorDim = 1) (idx : IVec ⟨2, ![E, 1]⟩ 32) (e : Fin E) (j' : Fin C) (r : Fin R) (j : Fin C) :
    d.resultIdx? (ix2 e j') idx = some (ix2 r j) ↔ rowOf R (idx (ix2 e 0)) = some r ∧ j' = j := by
  obtain ⟨uw, iw, sd, iv, wf⟩ := d
  simp only at h_uw h_iw h_map h_ivd
  subst h_uw h_iw h_map h_ivd
  change (sd2 R C E wf).resultIdx? (ix2 e j') idx = some (ix2 r j) ↔ _
  have hs0 := sd2_start0 wf idx e j'
  have hs1 := sd2_start1 wf idx e j'
  have hw0 := sd2_win0 wf e j'
  have hw1 := sd2_win1 wf e j'
  have hr := r.isLt
  have hj' := j'.isLt
  rw [rowOf_eq_some_iff]
  unfold ScatterDims.resultIdx?
  split
  · rename_i h
    rw [Option.some.injEq]
    have h0 := h 0
    rw [hs0, hw0] at h0
    constructor
    · intro hf
      have e0 : ((sd2 R C E wf).start (ix2 e j') idx 0 + ((sd2 R C E wf).window (ix2 e j') 0 : ℤ)).toNat = r.val :=
        congrArg (fun f : (⟨2, ![R, C]⟩ : Shape).Idx => (f 0).val) hf
      have e1 : ((sd2 R C E wf).start (ix2 e j') idx 1 + ((sd2 R C E wf).window (ix2 e j') 1 : ℤ)).toNat = j.val :=
        congrArg (fun f : (⟨2, ![R, C]⟩ : Shape).Idx => (f 1).val) hf
      rw [hs0, hw0] at e0
      rw [hs1, hw1] at e1
      exact ⟨by omega, Fin.ext (by omega)⟩
    · rintro ⟨ht, rfl⟩
      funext a
      refine Fin.ext ?_
      match a with
      | ⟨0, _⟩ =>
        show ((sd2 R C E wf).start (ix2 e j') idx 0 + ((sd2 R C E wf).window (ix2 e j') 0 : ℤ)).toNat = r.val
        rw [hs0, hw0]; omega
      | ⟨1, _⟩ =>
        show ((sd2 R C E wf).start (ix2 e j') idx 1 + ((sd2 R C E wf).window (ix2 e j') 1 : ℤ)).toNat = j'.val
        rw [hs1, hw1]; omega
  · rename_i h
    constructor
    · intro hc; exact absurd hc (by simp)
    · rintro ⟨ht, rfl⟩
      exfalso
      apply h
      intro a
      match a with
      | ⟨0, _⟩ =>
        show 0 ≤ (sd2 R C E wf).start (ix2 e j') idx 0 + ((sd2 R C E wf).window (ix2 e j') 0 : ℤ) ∧
          (sd2 R C E wf).start (ix2 e j') idx 0 + ((sd2 R C E wf).window (ix2 e j') 0 : ℤ) < (R : ℤ)
        rw [hs0, hw0]; omega
      | ⟨1, _⟩ =>
        show 0 ≤ (sd2 R C E wf).start (ix2 e j') idx 1 + ((sd2 R C E wf).window (ix2 e j') 1 : ℤ) ∧
          (sd2 R C E wf).start (ix2 e j') idx 1 + ((sd2 R C E wf).window (ix2 e j') 1 : ℤ) < (C : ℤ)
        rw [hs1, hw1]; omega

/-- THE ROW SCATTER-ADD AT AN ELEMENT: operand element `(r, j)` plus the sum, over the update rows `e` whose start
    index (read signed, not clamped) is the row `r`, of update element `(e, j)`; update rows whose start index is no
    row of the operand are dropped. -/
theorem scatterAdd_rows2 {R C E : ℕ} (d : ScatterDims ⟨2, ![R, C]⟩ ⟨2, ![E, 1]⟩ ⟨2, ![E, C]⟩)
    (h_uw : d.updateWindowDims = [1]) (h_iw : d.insertedWindowDims = [0]) (h_map : d.scatterDimsToOperandDims = [0])
    (h_ivd : d.indexVectorDim = 1)
    (x : (⟨2, ![R, C]⟩ : Shape).Idx → EReal) (idx : IVec ⟨2, ![E, 1]⟩ 32) (upd : (⟨2, ![E, C]⟩ : Shape).Idx → EReal)
    (r : Fin R) (j : Fin C) :
    Ideal.hostScatterAdd d x idx upd (ix2 r j)
      = x (ix2 r j) + ∑ e ∈ Finset.univ.filter (fun e : Fin E => rowOf R (idx (ix2 e 0)) = some r), upd (ix2 e j) := by
  unfold Ideal.hostScatterAdd
  congr 1
  rw [Finset.sum_filter, Finset.sum_filter, sum_idx2]
  refine Finset.sum_congr rfl fun e _ => ?_
  simp only [resultIdx_rows2 d h_uw h_iw h_map h_ivd idx]
  by_cases hq : rowOf R (idx (ix2 e 0)) = some r
  · simp only [hq, true_and, if_true]
    rw [Finset.sum_ite_eq' Finset.univ j (fun j' => upd (ix2 e j'))]
    simp
  · simp only [hq, false_and, if_false]
    exact Finset.sum_const_zero

/-! ## The scatter-add into a flat array -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The dimension numbers of a scatter into a flat operand of `R` entries from `E` updates at an `E × 1` column of
    start indices: no window axes, the operand's one axis inserted and start-indexed. -/
abbrev sd1 (R E : ℕ) (wf : ScatterDims.WF ⟨1, ![R]⟩ ⟨2, ![E, 1]⟩ ⟨1, ![E]⟩ [] [0] [0] 1) :
    ScatterDims ⟨1, ![R]⟩ ⟨2, ![E, 1]⟩ ⟨1, ![E]⟩ := ⟨[], [0], [0], 1, wf⟩

/-- The window starts at the update's start index, read signed. -/
theorem sd1_start0 {R E : ℕ} (wf : ScatterDims.WF ⟨1, ![R]⟩ ⟨2, ![E, 1]⟩ ⟨1, ![E]⟩ [] [0] [0] 1)
    (idx : IVec ⟨2, ![E, 1]⟩ 32) (e : Fin E) : (sd1 R E wf).start (ix1 e) idx 0 = (idx (ix2 e 0)).toInt := by
  unfold ScatterDims.start
  rw [dif_pos (show (0 : Fin 1) ∈ [0] from List.mem_singleton.mpr rfl)]
  congr 2
  funext b
  refine Fin.ext ?_
  match b with
  | ⟨0, _⟩ => rfl
  | ⟨1, _⟩ => rfl

/-- The one axis is inserted: no window coordinate. -/
theorem sd1_win0 {R E : ℕ} (wf : ScatterDims.WF ⟨1, ![R]⟩ ⟨2, ![E, 1]⟩ ⟨1, ![E]⟩ [] [0] [0] 1) (e : Fin E) :
    (sd1 R E wf).window (ix1 e) 0 = 0 := by
  unfold ScatterDims.window
  rw [dif_neg]
  show (0 : Fin 1) ∉ (List.finRange 1).filter (· ∉ [0])
  decide

/-- WHERE AN UPDATE LANDS: update `e` lands on operand entry `r` exactly when its start index, read signed, is `r`;
    an update whose start index is no position of the operand lands nowhere. -/
theorem resultIdx_rows1 {R E : ℕ} (d : ScatterDims ⟨1, ![R]⟩ ⟨2, ![E, 1]⟩ ⟨1, ![E]⟩)
    (h_uw : d.updateWindowDims = []) (h_iw : d.insertedWindowDims = [0]) (h_map : d.scatterDimsToOperandDims = [0])
    (h_ivd : d.indexVectorDim = 1) (idx : IVec ⟨2, ![E, 1]⟩ 32) (e : Fin E) (r : Fin R) :
    d.resultIdx? (ix1 e) idx = some (ix1 r) ↔ rowOf R (idx (ix2 e 0)) = some r := by
  obtain ⟨uw, iw, sd, iv, wf⟩ := d
  simp only at h_uw h_iw h_map h_ivd
  subst h_uw h_iw h_map h_ivd
  change (sd1 R E wf).resultIdx? (ix1 e) idx = some (ix1 r) ↔ _
  have hs0 := sd1_start0 wf idx e
  have hw0 := sd1_win0 wf e
  have hr := r.isLt
  rw [rowOf_eq_some_iff]
  unfold ScatterDims.resultIdx?
  split
  · rename_i h
    rw [Option.some.injEq]
    have h0 := h 0
    rw [hs0, hw0] at h0
    constructor
    · intro hf
      have e0 : ((sd1 R E wf).start (ix1 e) idx 0 + ((sd1 R E wf).window (ix1 e) 0 : ℤ)).toNat = r.val :=
        congrArg (fun f : (⟨1, ![R]⟩ : Shape).Idx => (f 0).val) hf
      rw [hs0, hw0] at e0
      omega
    · intro ht
      funext a
      refine Fin.ext ?_
      match a with
      | ⟨0, _⟩ =>
        show ((sd1 R E wf).start (ix1 e) idx 0 + ((sd1 R E wf).window (ix1 e) 0 : ℤ)).toNat = r.val
        rw [hs0, hw0]; omega
  · rename_i h
    constructor
    · intro hc; exact absurd hc (by simp)
    · intro ht
      exfalso
      apply h
      intro a
      match a with
      | ⟨0, _⟩ =>
        show 0 ≤ (sd1 R E wf).start (ix1 e) idx 0 + ((sd1 R E wf).window (ix1 e) 0 : ℤ) ∧
          (sd1 R E wf).start (ix1 e) idx 0 + ((sd1 R E wf).window (ix1 e) 0 : ℤ) < (R : ℤ)
        rw [hs0, hw0]; omega

/-- THE FLAT SCATTER-ADD AT AN ENTRY: operand entry `r` plus the sum of the updates `e` whose start index (read
    signed, not clamped) is `r`; updates whose start index is no position of the operand are dropped. -/
theorem scatterAdd_rows1 {R E : ℕ} (d : ScatterDims ⟨1, ![R]⟩ ⟨2, ![E, 1]⟩ ⟨1, ![E]⟩)
    (h_uw : d.updateWindowDims = []) (h_iw : d.insertedWindowDims = [0]) (h_map : d.scatterDimsToOperandDims = [0])
    (h_ivd : d.indexVectorDim = 1)
    (x : (⟨1, ![R]⟩ : Shape).Idx → EReal) (idx : IVec ⟨2, ![E, 1]⟩ 32) (upd : (⟨1, ![E]⟩ : Shape).Idx → EReal)
    (r : Fin R) :
    Ideal.hostScatterAdd d x idx upd (ix1 r)
      = x (ix1 r) + ∑ e ∈ Finset.univ.filter (fun e : Fin E => rowOf R (idx (ix2 e 0)) = some r), upd (ix1 e) := by
  unfold Ideal.hostScatterAdd
  congr 1
  rw [Finset.sum_filter, Finset.sum_filter, sum_idx1]
  refine Finset.sum_congr rfl fun e _ => ?_
  simp only [resultIdx_rows1 d h_uw h_iw h_map h_ivd idx]

end Cert.GS

end
-- ==== Proof.Math.lean ====
/-
  A two-layer graph convolution with symmetric degree normalisation, followed by mean pooling, written in two ways
  over the extended reals, and the proof that the two ways give the same value with no finiteness assumption on the
  node features.

  * In the first way each edge message is the gathered feature row times the product of the two degree scales
    (the scale of the source row and the scale of the target row), and the messages are added per target node.
  * In the second way every node row is scaled once before the messages are added, and the per-node total is
    scaled once more afterwards; the pooling is a sum weighted by a zero/one membership table.

  The extended reals are not a ring: `⊤ + ⊥ = ⊥`, and multiplication does not distribute over addition in general.
  It does distribute when the common factor is a nonnegative REAL number, and that is the only distributive law used:
  each degree scale is assumed to be a nonnegative real. Multiplication itself is commutative and associative with
  `0 * a = 0` and `1 * a = a` everywhere, which is all the rest of the argument needs.
-/
import Mathlib.Data.EReal.Operations
import Mathlib.Data.EReal.Inv
import Mathlib.Algebra.BigOperators.Fin

noncomputable section

open scoped BigOperators

namespace Cert.GcnMath

/-! ## Two facts of extended-real arithmetic -/

/-- A nonnegative real factor distributes over a sum of two extended reals. -/
theorem add_mul_nonneg_real (a b : EReal) (r : ℝ) (hr : 0 ≤ r) :
    (a + b) * (r : EReal) = a * (r : EReal) + b * (r : EReal) :=
  EReal.right_distrib_of_nonneg_of_ne_top (by exact_mod_cast hr) (EReal.coe_ne_top r) a b

/-- A nonnegative real factor distributes over a finite sum of extended reals. -/
theorem sum_mul_nonneg_real {ι : Type} (s : Finset ι) (y : ι → EReal) (r : ℝ) (hr : 0 ≤ r) :
    (∑ i ∈ s, y i) * (r : EReal) = ∑ i ∈ s, y i * (r : EReal) := by
  classical
  induction s using Finset.induction_on with
  | empty => simp
  | insert a s ha ih =>
    rw [Finset.sum_insert ha, Finset.sum_insert ha, add_mul_nonneg_real _ _ r hr, ih]

/-- The same with the sum started from zero. -/
theorem zero_add_sum_mul_nonneg_real {ι : Type} (s : Finset ι) (y : ι → EReal) (r : ℝ) (hr : 0 ≤ r) :
    (0 + ∑ i ∈ s, y i) * (r : EReal) = 0 + ∑ i ∈ s, y i * (r : EReal) := by
  rw [zero_add, zero_add, sum_mul_nonneg_real s y r hr]

/-- A sum weighted by a zero/one membership table is the sum over the members. -/
theorem onehot_sum {N G : Type} [Fintype N] [DecidableEq G] (bS : N → Option G) (g : G) (f : N → EReal) :
    ∑ n, (if bS n = some g then (1 : EReal) else 0) * f n
      = 0 + ∑ n ∈ Finset.univ.filter (fun n => bS n = some g), f n := by
  rw [zero_add, Finset.sum_filter]
  refine Finset.sum_congr rfl (fun n _ => ?_)
  split_ifs <;> simp

/-! ## The two computations -/

variable {N M K G : Type} [Fintype N] [Fintype M] [Fintype K] [Fintype G]
  [DecidableEq N] [DecidableEq G]
variable (x : N → K → EReal) (W1 W2 : K → K → EReal) (b1 b2 : K → EReal) (dinv : N → EReal)
  (sI dG : M → N) (dS : M → Option N) (bS : N → Option G) (oh : N → G → EReal)
  (cnt : G → EReal) (dv : EReal → EReal → EReal)

/-! ### First way: messages scaled by the product of the two degree scales -/

/-- Node features times the first weight matrix. -/
def h (n : N) (d : K) : EReal := ∑ k, x n k * W1 k d

/-- First aggregation: per target node, the sum of the scaled messages. -/
def a1 (n : N) (d : K) : EReal :=
  0 + ∑ e ∈ Finset.univ.filter (fun e => dS e = some n),
    h x W1 (sI e) d * (dinv (sI e) * dinv (dG e))

/-- First layer output: bias added, negative part cut. -/
def r1 (n : N) (d : K) : EReal := max (a1 x W1 dinv sI dG dS n d + b1 d) 0

/-- First layer output times the second weight matrix. -/
def h2 (n : N) (d : K) : EReal := ∑ k, r1 x W1 b1 dinv sI dG dS n k * W2 k d

/-- Second aggregation. -/
def a2 (n : N) (d : K) : EReal :=
  0 + ∑ e ∈ Finset.univ.filter (fun e => dS e = some n),
    h2 x W1 W2 b1 dinv sI dG dS (sI e) d * (dinv (sI e) * dinv (dG e))

/-- Second layer output. -/
def r2 (n : N) (d : K) : EReal := max (a2 x W1 W2 b1 dinv sI dG dS n d + b2 d) 0

/-- Pooled result: per graph, the sum over its nodes, divided by the node count. -/
def resR (g : G) (d : K) : EReal :=
  dv (0 + ∑ n ∈ Finset.univ.filter (fun n => bS n = some g), r2 x W1 W2 b1 b2 dinv sI dG dS n d) (cnt g)

/-! ### Second way: rows scaled once before and once after the aggregation -/

/-- Node features times the first weight matrix, each row scaled by its degree scale. -/
def h1s (n : N) (d : K) : EReal := (∑ k, x n k * W1 k d) * dinv n

/-- First aggregation of the pre-scaled rows. -/
def agg1 (n : N) (d : K) : EReal :=
  0 + ∑ e ∈ Finset.univ.filter (fun e => dS e = some n), h1s x W1 dinv (sI e) d

/-- First layer output: the total scaled by the target's degree scale, bias added, negative part cut. -/
def q1 (n : N) (d : K) : EReal := max (agg1 x W1 dinv sI dS n d * dinv n + b1 d) 0

/-- First layer output times the second weight matrix, each row scaled. -/
def h2s (n : N) (d : K) : EReal := (∑ k, q1 x W1 b1 dinv sI dS n k * W2 k d) * dinv n

/-- Second aggregation of the pre-scaled rows. -/
def agg2 (n : N) (d : K) : EReal :=
  0 + ∑ e ∈ Finset.univ.filter (fun e => dS e = some n), h2s x W1 W2 b1 dinv sI dS (sI e) d

/-- Second layer output. -/
def q2 (n : N) (d : K) : EReal := max (agg2 x W1 W2 b1 dinv sI dS n d * dinv n + b2 d) 0

/-- Pooled result: the sum weighted by the membership table, divided by the node count. -/
def resK (g : G) (d : K) : EReal := dv (∑ n, oh n g * q2 x W1 W2 b1 b2 dinv sI dS n d) (cnt g)

/-! ## The two ways agree -/

/-- One aggregation step. For any per-node quantity `f`, scaling the rows before adding the messages and the total
afterwards is the same as scaling each message by the product of the two scales: the target's scale is a
nonnegative real, so it distributes over the sum of the messages; and every message added into node `n` has
`n` as its target row, so the target's scale inside the sum is the scale of `n`. -/
theorem layer_scale (hd : ∀ n, ∃ r : ℝ, 0 ≤ r ∧ dinv n = (r : EReal))
    (hcompat : ∀ e n, dS e = some n → dG e = n) (f : N → EReal) (n : N) :
    (0 + ∑ e ∈ Finset.univ.filter (fun e => dS e = some n), f (sI e) * dinv (sI e)) * dinv n
      = 0 + ∑ e ∈ Finset.univ.filter (fun e => dS e = some n), f (sI e) * (dinv (sI e) * dinv (dG e)) := by
  obtain ⟨r, hr, hrn⟩ := hd n
  rw [hrn, zero_add_sum_mul_nonneg_real _ _ r hr]
  congr 1
  refine Finset.sum_congr rfl (fun e he => ?_)
  have hG : dG e = n := hcompat e n (Finset.mem_filter.mp he).2
  rw [hG, hrn]
  exact mul_assoc (f (sI e)) (dinv (sI e)) (r : EReal)

/-- The first layer outputs agree. -/
theorem q1_eq_r1 (hd : ∀ n, ∃ r : ℝ, 0 ≤ r ∧ dinv n = (r : EReal))
    (hcompat : ∀ e n, dS e = some n → dG e = n) (n : N) (d : K) :
    q1 x W1 b1 dinv sI dS n d = r1 x W1 b1 dinv sI dG dS n d := by
  have key : agg1 x W1 dinv sI dS n d * dinv n = a1 x W1 dinv sI dG dS n d :=
    layer_scale dinv sI dG dS hd hcompat (fun m => h x W1 m d) n
  unfold q1 r1
  rw [key]

/-- The second layer outputs agree. -/
theorem q2_eq_r2 (hd : ∀ n, ∃ r : ℝ, 0 ≤ r ∧ dinv n = (r : EReal))
    (hcompat : ∀ e n, dS e = some n → dG e = n) (n : N) (d : K) :
    q2 x W1 W2 b1 b2 dinv sI dS n d = r2 x W1 W2 b1 b2 dinv sI dG dS n d := by
  have hq : q1 x W1 b1 dinv sI dS = r1 x W1 b1 dinv sI dG dS := by
    funext m k
    exact q1_eq_r1 x W1 b1 dinv sI dG dS hd hcompat m k
  have key : agg2 x W1 W2 b1 dinv sI dS n d * dinv n = a2 x W1 W2 b1 dinv sI dG dS n d := by
    have := layer_scale dinv sI dG dS hd hcompat (fun m => h2 x W1 W2 b1 dinv sI dG dS m d) n
    unfold agg2 h2s a2
    rw [hq]
    exact this
  unfold q2 r2
  rw [key]

/-- The pooled results agree. -/
theorem resK_eq_resR (hd : ∀ n, ∃ r : ℝ, 0 ≤ r ∧ dinv n = (r : EReal))
    (hcompat : ∀ e n, dS e = some n → dG e = n)
    (hoh : ∀ n g, oh n g = if bS n = some g then 1 else 0) (g : G) (d : K) :
    resK x W1 W2 b1 b2 dinv sI dS oh cnt dv g d = resR x W1 W2 b1 b2 dinv sI dG dS bS cnt dv g d := by
  unfold resK resR
  congr 1
  have hq : q2 x W1 W2 b1 b2 dinv sI dS = r2 x W1 W2 b1 b2 dinv sI dG dS := by
    funext m k
    exact q2_eq_r2 x W1 W2 b1 b2 dinv sI dG dS hd hcompat m k
  rw [hq]
  simp only [hoh]
  exact onehot_sum bS g (fun n => r2 x W1 W2 b1 b2 dinv sI dG dS n d)

end Cert.GcnMath
-- ==== Proof.KI.KerVal.lean ====
/-
  The kernel program's result, read at an index.

  The program runs three regions between stretches of host operations. This module follows the buffers through
  the stretches: what each buffer that a region reads, and the buffer the final division writes, holds, as the
  program's own host operations applied to the launch contents and to the regions' result arrays. The graph
  quantities (edge ends, degree scale, node counts) are the named functions of the edge list and the graph ids;
  a region's result array is named, never unfolded.

  Two aggregations have the same shape: the rows of a region's result are gathered at the source end of every
  edge and added up at the target end. Read at a row and a column, such an aggregate is zero plus the sum, over the
  edges whose target is that row, of the gathered row's entry in that column.
-/
import proofs.«409848_j24326694765010_2_alg».proof.Proof.Gen.KernelIdeal.Launch
import proofs.«409848_j24326694765010_2_alg».proof.Proof.Gen.KernelIdeal.Skeleton
import proofs.«409848_j24326694765010_2_alg».proof.Proof.Gen.KernelIdeal.Points
import proofs.«409848_j24326694765010_2_alg».proof.Proof.KI.Stages
import proofs.«409848_j24326694765010_2_alg».proof.Proof.KI.Vocab
import proofs.«409848_j24326694765010_2_alg».proof.Proof.KI.Val0
import proofs.«409848_j24326694765010_2_alg».proof.Proof.KI.Val1
import proofs.«409848_j24326694765010_2_alg».proof.Proof.KI.Val2
import proofs.«409848_j24326694765010_2_alg».proof.Proof.GatherScatter
import proofs.«409848_j24326694765010_2_alg».proof.Proof.Math
import proofs.«409848_j24326694765010_2_alg».proof.Proof.LibSums
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

/-! ## After the first stretch of host operations -/

section Stretches
variable (X : Valuation τ sig (Elt F))

theorem after0_v3 : StableHlo.after hostOps0 X (Proc.devRef .tc main_v3) = Ksrc (X (Proc.devRef .tc main_arg5)) := by
  after_results <;> rfl
theorem after0_v6 : StableHlo.after hostOps0 X (Proc.devRef .tc main_v6) = Kdst (X (Proc.devRef .tc main_arg5)) := by
  after_results <;> rfl
theorem after0_v12 : StableHlo.after hostOps0 X (Proc.devRef .tc main_v12)
      = cmpf .ogt (Kdeg (X (Proc.devRef .tc main_arg5))) (broadcastInDim S100000 ![] bcast_S_S100000 (constant S_ .f32 0x00000000#32)) := by
  after_results <;> rfl
theorem after0_v13 : StableHlo.after hostOps0 X (Proc.devRef .tc main_v13) = Host.rsqrt (Kdeg (X (Proc.devRef .tc main_arg5))) := by
  after_results <;> rfl
theorem after0_cst2 : StableHlo.after hostOps0 X (Proc.devRef .tc main_cst_2) = constant S_ .f32 0x00000000#32 := by
  after_results

/-- The degree scale is selected from the three values the first stretch leaves. -/
theorem after01_v14 : StableHlo.after hostOps0_1 X (Proc.devRef .tc main_v14)
      = select (X (Proc.devRef .tc main_v12)) (X (Proc.devRef .tc main_v13))
          (broadcastInDim S100000 ![] bcast_S_S100000 (id (X (Proc.devRef .tc main_cst_2)))) := by
  after_results <;> rfl

/-- The degree scale and the graph ids as one-column arrays. -/
theorem after02_v15 : StableHlo.after hostOps0_2 X (Proc.devRef .tc main_v15)
      = shapeCast S100000x1 (X (Proc.devRef .tc main_v14)) shapeCasts_S100000_S100000x1 := by
  after_results <;> rfl
theorem after02_v16 : StableHlo.after hostOps0_2 X (Proc.devRef .tc main_v16)
      = shapeCast S100000x1 (X (Proc.devRef .tc main_arg6)) shapeCasts_S100000_S100000x1 := by
  after_results <;> rfl

/-- Between regions 0 and 1: region 0's result rows gathered at the source ends and added up at the target ends;
    the first bias as a one-row array. -/
theorem after1_v27 : StableHlo.after hostOps1 X (Proc.devRef .tc main_v27)
      = Host.scatterAdd scatter_S100000x128_S1700000x1_S1700000x128_1_0_0_1
          (broadcastInDim S100000x128 ![] bcast_S_S100000x128 (constant S_ .f32 0x00000000#32))
          (broadcastInDim S1700000x1 ![0] bcast_S1700000_S1700000x1_0 (X (Proc.devRef .tc main_v6)))
          (Host.gather gather_S100000x128_S1700000x1_S1700000x128_1_0_n_n_0_1_1128 (X (Proc.devRef .tc main_v17))
            (broadcastInDim S1700000x1 ![0] bcast_S1700000_S1700000x1_0
              (select (cmpi .slt (X (Proc.devRef .tc main_v3)) (broadcastInDim S1700000 ![] bcast_S_S1700000 (constantI S_ 32 0#32)))
                (addi (X (Proc.devRef .tc main_v3)) (broadcastInDim S1700000 ![] bcast_S_S1700000 (constantI S_ 32 100000#32)))
                (X (Proc.devRef .tc main_v3))))) := by
  after_results <;> rfl
theorem after1_v28 : StableHlo.after hostOps1 X (Proc.devRef .tc main_v28)
      = shapeCast S1x128 (X (Proc.devRef .tc main_arg2)) shapeCasts_S128_S1x128 := by
  after_results <;> rfl

end Stretches

/-! ## What the buffers hold when regions 0 and 1 are entered -/

section Entry
variable (m : (ℓ : Loc nD τ sig) → Buf (Elt F) ℓ) (c : Dev nD)

theorem V1_v3 : Gen.V1 m c (Proc.devRef .tc main_v3) = Ksrc (m ((c.tc : Thread nD τ).loc main_arg5)) := after0_v3 (Gen.V0 m c)
theorem V1_v6 : Gen.V1 m c (Proc.devRef .tc main_v6) = Kdst (m ((c.tc : Thread nD τ).loc main_arg5)) := after0_v6 (Gen.V0 m c)
theorem V1_v12 : Gen.V1 m c (Proc.devRef .tc main_v12)
    = cmpf .ogt (Kdeg (m ((c.tc : Thread nD τ).loc main_arg5))) (broadcastInDim S100000 ![] bcast_S_S100000 (constant S_ .f32 0x00000000#32)) :=
  after0_v12 (Gen.V0 m c)
theorem V1_v13 : Gen.V1 m c (Proc.devRef .tc main_v13) = Host.rsqrt (Kdeg (m ((c.tc : Thread nD τ).loc main_arg5))) := after0_v13 (Gen.V0 m c)
theorem V1_cst2 : Gen.V1 m c (Proc.devRef .tc main_cst_2) = constant S_ .f32 0x00000000#32 := after0_cst2 (Gen.V0 m c)

/-- The degree scale, after the second stretch. -/
theorem V2_v14 : Gen.V2 m c (Proc.devRef .tc main_v14) = Kdinv (m ((c.tc : Thread nD τ).loc main_arg5)) := by
  refine (after01_v14 (Gen.V1 m c)).trans ?_
  rw [V1_v12, V1_v13, V1_cst2]; rfl

/-- Region 0 finds the features and the first weight as launched, and the degree scale as a one-column array. -/
theorem E0_arg0 : E0 m c main_arg0 = m ((c.tc : Thread nD τ).loc main_arg0) :=
  (Gen.V3_of m c main_arg0 (by decide)).trans <| (Gen.V2_of m c main_arg0 (by decide)).trans <| (Gen.V1_of m c main_arg0 (by decide)).trans rfl
theorem E0_arg1 : E0 m c main_arg1 = m ((c.tc : Thread nD τ).loc main_arg1) :=
  (Gen.V3_of m c main_arg1 (by decide)).trans <| (Gen.V2_of m c main_arg1 (by decide)).trans <| (Gen.V1_of m c main_arg1 (by decide)).trans rfl
theorem E0_v15 : E0 m c main_v15
    = shapeCast S100000x1 (Kdinv (m ((c.tc : Thread nD τ).loc main_arg5))) shapeCasts_S100000_S100000x1 := by
  refine (after02_v15 (Gen.V2 m c)).trans ?_
  rw [V2_v14]
theorem V3_v16 : Gen.V3 m c (Proc.devRef .tc main_v16)
    = shapeCast S100000x1 (m ((c.tc : Thread nD τ).loc main_arg6)) shapeCasts_S100000_S100000x1 := by
  refine (after02_v16 (Gen.V2 m c)).trans ?_
  rw [show Gen.V2 m c (Proc.devRef .tc main_arg6) = m ((c.tc : Thread nD τ).loc main_arg6) from
    (Gen.V2_of m c main_arg6 (by decide)).trans <| (Gen.V1_of m c main_arg6 (by decide)).trans rfl]

/-- What region 0 leaves in its result array. -/
theorem V4_v17 : Gen.V4 m (outsA m) c (Proc.devRef .tc main_v17) = (dat0 (E0 m) c).arrAt 3 cfg0.N := by
  show Function.update (Gen.V3 m c) (Proc.devRef .tc main_v17) (outsA m 4 main_v17 c) (Proc.devRef .tc main_v17) = _
  rw [Function.update_self]
  exact Pipeline.withArrays_arr spec0 launch0.win.arr_inj c (Gen.V3 m c) (fun w => (dat0 (E0 m) c).arrAt w cfg0.N) 3

theorem V4_v3 : Gen.V4 m (outsA m) c (Proc.devRef .tc main_v3) = Ksrc (m ((c.tc : Thread nD τ).loc main_arg5)) :=
  (Gen.V4_of m (outsA m) c main_v3 (by decide)).trans <| (Gen.V3_of m c main_v3 (by decide)).trans <|
    (Gen.V2_of m c main_v3 (by decide)).trans (V1_v3 m c)
theorem V4_v6 : Gen.V4 m (outsA m) c (Proc.devRef .tc main_v6) = Kdst (m ((c.tc : Thread nD τ).loc main_arg5)) :=
  (Gen.V4_of m (outsA m) c main_v6 (by decide)).trans <| (Gen.V3_of m c main_v6 (by decide)).trans <|
    (Gen.V2_of m c main_v6 (by decide)).trans (V1_v6 m c)

/-- Region 1 finds: region 0's result rows gathered at the source ends and added up at the target ends; -/
theorem E1_v27 : E1 m c main_v27
    = Host.scatterAdd scatter_S100000x128_S1700000x1_S1700000x128_1_0_0_1
        (broadcastInDim S100000x128 ![] bcast_S_S100000x128 (constant S_ .f32 0x00000000#32))
        (broadcastInDim S1700000x1 ![0] bcast_S1700000_S1700000x1_0 (Kdst (m ((c.tc : Thread nD τ).loc main_arg5))))
        (Host.gather gather_S100000x128_S1700000x1_S1700000x128_1_0_n_n_0_1_1128 ((dat0 (E0 m) c).arrAt 3 cfg0.N)
          (broadcastInDim S1700000x1 ![0] bcast_S1700000_S1700000x1_0 (KsrcN (m ((c.tc : Thread nD τ).loc main_arg5))))) := by
  refine (after1_v27 (Gen.V4 m (outsA m) c)).trans ?_
  rw [V4_v17, V4_v3, V4_v6]; rfl
/-- the degree scale as a one-column array; the first bias as a one-row array; the second weight as launched. -/
theorem E1_v15 : E1 m c main_v15
    = shapeCast S100000x1 (Kdinv (m ((c.tc : Thread nD τ).loc main_arg5))) shapeCasts_S100000_S100000x1 :=
  (Gen.V5_of m (outsA m) c main_v15 (by decide)).trans <| (Gen.V4_of m (outsA m) c main_v15 (by decide)).trans (E0_v15 m c)
theorem E1_v28 : E1 m c main_v28
    = shapeCast S1x128 (m ((c.tc : Thread nD τ).loc main_arg2)) shapeCasts_S128_S1x128 := by
  refine (after1_v28 (Gen.V4 m (outsA m) c)).trans ?_
  rw [show Gen.V4 m (outsA m) c (Proc.devRef .tc main_arg2) = m ((c.tc : Thread nD τ).loc main_arg2) from
    (Gen.V4_of m (outsA m) c main_arg2 (by decide)).trans <| (Gen.V3_of m c main_arg2 (by decide)).trans <|
      (Gen.V2_of m c main_arg2 (by decide)).trans <| (Gen.V1_of m c main_arg2 (by decide)).trans rfl]
theorem E1_arg3 : E1 m c main_arg3 = m ((c.tc : Thread nD τ).loc main_arg3) :=
  (Gen.V5_of m (outsA m) c main_arg3 (by decide)).trans <| (Gen.V4_of m (outsA m) c main_arg3 (by decide)).trans <|
    (Gen.V3_of m c main_arg3 (by decide)).trans <| (Gen.V2_of m c main_arg3 (by decide)).trans <|
      (Gen.V1_of m c main_arg3 (by decide)).trans rfl

end Entry

/-! ## Between regions 1 and 2, and after region 2 -/

section Stretches2
variable (X : Valuation τ sig (Elt F))

/-- Region 1's result rows gathered at the source ends and added up at the target ends; the second bias as a
    one-row array. -/
theorem after2_v39 : StableHlo.after hostOps2 X (Proc.devRef .tc main_v39)
      = Host.scatterAdd scatter_S100000x128_S1700000x1_S1700000x128_1_0_0_1
          (broadcastInDim S100000x128 ![] bcast_S_S100000x128 (constant S_ .f32 0x00000000#32))
          (broadcastInDim S1700000x1 ![0] bcast_S1700000_S1700000x1_0 (X (Proc.devRef .tc main_v6)))
          (Host.gather gather_S100000x128_S1700000x1_S1700000x128_1_0_n_n_0_1_1128 (X (Proc.devRef .tc main_v29))
            (broadcastInDim S1700000x1 ![0] bcast_S1700000_S1700000x1_0
              (select (cmpi .slt (X (Proc.devRef .tc main_v3)) (broadcastInDim S1700000 ![] bcast_S_S1700000 (constantI S_ 32 0#32)))
                (addi (X (Proc.devRef .tc main_v3)) (broadcastInDim S1700000 ![] bcast_S_S1700000 (constantI S_ 32 100000#32)))
                (X (Proc.devRef .tc main_v3))))) := by
  after_results <;> rfl
theorem after2_v40 : StableHlo.after hostOps2 X (Proc.devRef .tc main_v40)
      = shapeCast S1x128 (X (Proc.devRef .tc main_arg4)) shapeCasts_S128_S1x128 := by
  after_results <;> rfl

/-- The pooled sums divided by the node counts. -/
theorem after3_v50 : StableHlo.after hostOps3 X (Proc.devRef .tc main_v50)
      = Host.divf (X (Proc.devRef .tc main_v41))
          (broadcastInDim S64x128 ![0, 1] bcast_S64x1_S64x128_0_1
            (broadcastInDim S64x1 ![0] bcast_S64_S64x1_0 (Kcnt (X (Proc.devRef .tc main_arg6))))) := by
  after_results <;> rfl

end Stretches2

section Entry2
variable (m : (ℓ : Loc nD τ sig) → Buf (Elt F) ℓ) (c : Dev nD)

theorem V5_outsB : Gen.V5 m (outsB m) c = Gen.V5 m (outsA m) c := rfl

/-- What region 1 leaves in its result array. -/
theorem V6_v29 : Gen.V6 m (outsB m) c (Proc.devRef .tc main_v29) = (dat1 (E1 m) c).arrAt 4 cfg1.N := by
  show Function.update (Gen.V5 m (outsB m) c) (Proc.devRef .tc main_v29) (outsB m 6 main_v29 c) (Proc.devRef .tc main_v29) = _
  rw [Function.update_self]
  exact Pipeline.withArrays_arr spec1 launch1.win.arr_inj c (Gen.V5 m (outsA m) c) (fun w => (dat1 (E1 m) c).arrAt w cfg1.N) 4

theorem V6_v3 : Gen.V6 m (outsB m) c (Proc.devRef .tc main_v3) = Ksrc (m ((c.tc : Thread nD τ).loc main_arg5)) :=
  (Gen.V6_of m (outsB m) c main_v3 (by decide)).trans <| (Gen.V5_of m (outsB m) c main_v3 (by decide)).trans <|
    (Gen.V4_of m (outsB m) c main_v3 (by decide)).trans <| (Gen.V3_of m c main_v3 (by decide)).trans <|
      (Gen.V2_of m c main_v3 (by decide)).trans (V1_v3 m c)
theorem V6_v6 : Gen.V6 m (outsB m) c (Proc.devRef .tc main_v6) = Kdst (m ((c.tc : Thread nD τ).loc main_arg5)) :=
  (Gen.V6_of m (outsB m) c main_v6 (by decide)).trans <| (Gen.V5_of m (outsB m) c main_v6 (by decide)).trans <|
    (Gen.V4_of m (outsB m) c main_v6 (by decide)).trans <| (Gen.V3_of m c main_v6 (by decide)).trans <|
      (Gen.V2_of m c main_v6 (by decide)).trans (V1_v6 m c)

/-- Region 2 finds: region 1's result rows gathered at the source ends and added up at the target ends; -/
theorem E2_v39 : E2 m c main_v39
    = Host.scatterAdd scatter_S100000x128_S1700000x1_S1700000x128_1_0_0_1
        (broadcastInDim S100000x128 ![] bcast_S_S100000x128 (constant S_ .f32 0x00000000#32))
        (broadcastInDim S1700000x1 ![0] bcast_S1700000_S1700000x1_0 (Kdst (m ((c.tc : Thread nD τ).loc main_arg5))))
        (Host.gather gather_S100000x128_S1700000x1_S1700000x128_1_0_n_n_0_1_1128 ((dat1 (E1 m) c).arrAt 4 cfg1.N)
          (broadcastInDim S1700000x1 ![0] bcast_S1700000_S1700000x1_0 (KsrcN (m ((c.tc : Thread nD τ).loc main_arg5))))) := by
  refine (after2_v39 (Gen.V6 m (outsB m) c)).trans ?_
  rw [V6_v29, V6_v3, V6_v6]; rfl
/-- the degree scale and the graph ids as one-column arrays; the second bias as a one-row array. -/
theorem E2_v15 : E2 m c main_v15
    = shapeCast S100000x1 (Kdinv (m ((c.tc : Thread nD τ).loc main_arg5))) shapeCasts_S100000_S100000x1 :=
  (Gen.V7_of m (outsB m) c main_v15 (by decide)).trans <| (Gen.V6_of m (outsB m) c main_v15 (by decide)).trans <|
    (Gen.V5_of m (outsB m) c main_v15 (by decide)).trans <| (Gen.V4_of m (outsB m) c main_v15 (by decide)).trans (E0_v15 m c)
theorem E2_v16 : E2 m c main_v16
    = shapeCast S100000x1 (m ((c.tc : Thread nD τ).loc main_arg6)) shapeCasts_S100000_S100000x1 :=
  (Gen.V7_of m (outsB m) c main_v16 (by decide)).trans <| (Gen.V6_of m (outsB m) c main_v16 (by decide)).trans <|
    (Gen.V5_of m (outsB m) c main_v16 (by decide)).trans <| (Gen.V4_of m (outsB m) c main_v16 (by decide)).trans (V3_v16 m c)
theorem E2_v40 : E2 m c main_v40
    = shapeCast S1x128 (m ((c.tc : Thread nD τ).loc main_arg4)) shapeCasts_S128_S1x128 := by
  refine (after2_v40 (Gen.V6 m (outsB m) c)).trans ?_
  rw [show Gen.V6 m (outsB m) c (Proc.devRef .tc main_arg4) = m ((c.tc : Thread nD τ).loc main_arg4) from
    (Gen.V6_of m (outsB m) c main_arg4 (by decide)).trans <| (Gen.V5_of m (outsB m) c main_arg4 (by decide)).trans <|
      (Gen.V4_of m (outsB m) c main_arg4 (by decide)).trans <| (Gen.V3_of m c main_arg4 (by decide)).trans <|
        (Gen.V2_of m c main_arg4 (by decide)).trans <| (Gen.V1_of m c main_arg4 (by decide)).trans rfl]

/-- What region 2 leaves in its result array. -/
theorem V8_v41 : Gen.V8 m (outs m) c (Proc.devRef .tc main_v41) = (dat2 (E2 m) c).arrAt 4 cfg2.N := by
  show Function.update (Gen.V7 m (outs m) c) (Proc.devRef .tc main_v41) (outs m 8 main_v41 c) (Proc.devRef .tc main_v41) = _
  rw [Function.update_self]
  exact Pipeline.withArrays_arr spec2 launch2.win.arr_inj c (Gen.V7 m (outsB m) c) (fun w => (dat2 (E2 m) c).arrAt w cfg2.N) 4

/-- The program's result: the pooled sums divided by the node counts. -/
theorem V9_v50 : Gen.V9 m (outs m) c (Proc.devRef .tc main_v50)
    = Host.divf ((dat2 (E2 m) c).arrAt 4 cfg2.N)
        (broadcastInDim S64x128 ![0, 1] bcast_S64x1_S64x128_0_1
          (broadcastInDim S64x1 ![0] bcast_S64_S64x1_0 (Kcnt (m ((c.tc : Thread nD τ).loc main_arg6))))) := by
  refine (after3_v50 (Gen.V8 m (outs m) c)).trans ?_
  rw [V8_v41, show Gen.V8 m (outs m) c (Proc.devRef .tc main_arg6) = m ((c.tc : Thread nD τ).loc main_arg6) from
    (Gen.V8_of m (outs m) c main_arg6 (by decide)).trans <| (Gen.V7_of m (outs m) c main_arg6 (by decide)).trans <|
      (Gen.V6_of m (outs m) c main_arg6 (by decide)).trans <| (Gen.V5_of m (outs m) c main_arg6 (by decide)).trans <|
        (Gen.V4_of m (outs m) c main_arg6 (by decide)).trans <| (Gen.V3_of m c main_arg6 (by decide)).trans <|
          (Gen.V2_of m c main_arg6 (by decide)).trans <| (Gen.V1_of m c main_arg6 (by decide)).trans rfl]

end Entry2

/-! ## Reading broadcasts, at the program's shapes -/

section Reads
variable {α : Type}

/-- A vector of 1700000 entries made a one-column array reads, at row e, the vector at e. -/
theorem col1700000_apply (v : S1700000.Idx → α) (e : Fin 1700000) (u : Fin 1) :
    broadcastInDim S1700000x1 ![0] bcast_S1700000_S1700000x1_0 v (ix2 e u) = v (ix1 e) :=
  broadcastInDim_apply _ _ v _ (ix1 e) (fun a => match a with
    | ⟨0, _⟩ => (if_neg (show ¬ (1700000 : ℕ) = 1 by decide)).symm)

/-- A vector of 64 entries made a one-column array, then spread over 128 columns, reads, at (g, d), the vector at g. -/
theorem spread64_apply (v : S64.Idx → α) (g : Fin 64) (d : Fin 128) :
    broadcastInDim S64x128 ![0, 1] bcast_S64x1_S64x128_0_1 (broadcastInDim S64x1 ![0] bcast_S64_S64x1_0 v) (ix2 g d) = v (ix1 g) := by
  rw [broadcastInDim_apply _ _ _ _ (ix2 g (0 : Fin 1)) (fun a => match a with
    | ⟨0, _⟩ => (if_neg (show ¬ (64 : ℕ) = 1 by decide)).symm
    | ⟨1, _⟩ => (if_pos rfl).symm)]
  exact broadcastInDim_apply _ _ v _ (ix1 g) (fun a => match a with
    | ⟨0, _⟩ => (if_neg (show ¬ (64 : ℕ) = 1 by decide)).symm)

/-- A single number spread over a 100000 x 128 array reads that number everywhere. -/
theorem fill100000x128_apply (v : S_.Idx → α) (j : S100000x128.Idx) :
    broadcastInDim S100000x128 ![] bcast_S_S100000x128 v j = v ix0 :=
  broadcastInDim_apply _ _ v _ ix0 (fun a => a.elim0)

end Reads

/-! ## The formula's ingredients, read off the launch contents -/

/-- The node features, the two weights and the two biases as tables of extended reals. -/
def KX (x0 : (⟨S100000x128, .f32⟩ : BufTy).Contents (Elt Ideal)) : Fin 100000 → Fin 128 → EReal := fun n k => x0 (ix2 n k)
def KW1 (x1 : (⟨S128x128, .f32⟩ : BufTy).Contents (Elt Ideal)) : Fin 128 → Fin 128 → EReal := fun k d => x1 (ix2 k d)
def KB1 (x2 : (⟨S128, .f32⟩ : BufTy).Contents (Elt Ideal)) : Fin 128 → EReal := fun d => x2 (ix1 d)
def KW2 (x3 : (⟨S128x128, .f32⟩ : BufTy).Contents (Elt Ideal)) : Fin 128 → Fin 128 → EReal := fun k d => x3 (ix2 k d)
def KB2 (x4 : (⟨S128, .f32⟩ : BufTy).Contents (Elt Ideal)) : Fin 128 → EReal := fun d => x4 (ix1 d)
/-- The degree scale of node n. -/
def KDINV (x5 : (⟨S2x1600000, .i32⟩ : BufTy).Contents (Elt Ideal)) : Fin 100000 → EReal := fun n => Kdinv x5 (ix1 n)
/-- The row edge e gathers: its source end, clamped into the node list. -/
def KSI (x5 : (⟨S2x1600000, .i32⟩ : BufTy).Contents (Elt Ideal)) : Fin 1700000 → Fin 100000 :=
  fun e => Cert.GS.clampRow 100000 (by decide) (KsrcN x5 (ix1 e))
/-- The row edge e adds into: its target end when that is a node, else none. -/
def KDS (x5 : (⟨S2x1600000, .i32⟩ : BufTy).Contents (Elt Ideal)) : Fin 1700000 → Option (Fin 100000) :=
  fun e => Cert.GS.rowOf 100000 (Kdst x5 (ix1 e))
/-- One where node n belongs to graph g, zero elsewhere. -/
def KOH (x6 : (⟨S100000, .i32⟩ : BufTy).Contents (Elt Ideal)) : Fin 100000 → Fin 64 → EReal :=
  fun n g => if @Eq (BitVec 32) (x6 (ix1 n)) (BitVec.ofNat 32 g.val) then 1 else 0
/-- The node count of graph g, at least one. -/
def KCNT (x6 : (⟨S100000, .i32⟩ : BufTy).Contents (Elt Ideal)) : Fin 64 → EReal := fun g => Kcnt x6 (ix1 g)

/-! ## One aggregation over the edges -/

section Formula

local infixl:70 " *ₑ " => (HMul.hMul : EReal → EReal → EReal)
local infixl:65 " +ₑ " => (HAdd.hAdd : EReal → EReal → EReal)

/-- The program's row gather, of any 100000 x 128 table at any one-column array of start indices: entry (e, j) is
    the table at the row the index at e names (read signed, clamped into the table) and column j. -/
theorem gatherRows_apply {α : Type} (R : S100000x128.Idx → α) (idx : IVec S1700000x1 32) (e : Fin 1700000) (j : Fin 128) :
    Host.gather gather_S100000x128_S1700000x1_S1700000x128_1_0_n_n_0_1_1128 R idx (ix2 e j)
      = R (ix2 (Cert.GS.clampRow 100000 (by decide) (idx (ix2 e 0))) j) :=
  Cert.GS.gather_rows2 (by decide) gather_S100000x128_S1700000x1_S1700000x128_1_0_n_n_0_1_1128 rfl rfl rfl rfl rfl rfl rfl R idx e j

/-- The program's row scatter-add, of any operands: entry (r, j) is the operand's plus the sum of the updates' entries
    (e, j) over the e whose index names row r. -/
theorem scatterRows_apply (x : FVec Ideal S100000x128 .f32) (idx : IVec S1700000x1 32) (upd : FVec Ideal S1700000x128 .f32)
    (r : Fin 100000) (j : Fin 128) :
    Host.scatterAdd scatter_S100000x128_S1700000x1_S1700000x128_1_0_0_1 x idx upd (ix2 r j)
      = (x (ix2 r j) : EReal) +ₑ ∑ e ∈ Finset.univ.filter (fun e : Fin 1700000 => Cert.GS.rowOf 100000 (idx (ix2 e 0)) = some r),
          (upd (ix2 e j) : EReal) :=
  Cert.GS.scatterAdd_rows2 scatter_S100000x128_S1700000x1_S1700000x128_1_0_0_1 rfl rfl rfl rfl x idx upd r j

/-- ONE AGGREGATION, for any two vectors of edge ends. The rows of a 100000 x 128 array R gathered at the rows the
    vector s names and added up at the rows the vector t names, from zero, read at row n and column d: zero plus the
    sum, over the edges e whose t-entry names n, of R at the row e's s-entry names and column d. -/
theorem aggregate_ends (t s : IVec S1700000 32) (R : FVec Ideal S100000x128 .f32) (n : Fin 100000) (d : Fin 128) :
    (Host.scatterAdd (F := Ideal) scatter_S100000x128_S1700000x1_S1700000x128_1_0_0_1
        (broadcastInDim S100000x128 ![] bcast_S_S100000x128 (constant S_ .f32 0x00000000#32))
        (broadcastInDim S1700000x1 ![0] bcast_S1700000_S1700000x1_0 t)
        (Host.gather gather_S100000x128_S1700000x1_S1700000x128_1_0_n_n_0_1_1128 R
          (broadcastInDim S1700000x1 ![0] bcast_S1700000_S1700000x1_0 s))) (ix2 n d)
      = 0 +ₑ ∑ e ∈ Finset.univ.filter (fun e : Fin 1700000 => Cert.GS.rowOf 100000 (t (ix1 e)) = some n),
          (R (ix2 (Cert.GS.clampRow 100000 (by decide) (s (ix1 e))) d) : EReal) := by
  refine (scatterRows_apply _ _ _ n d).trans ?_
  rw [fill100000x128_apply, constant_apply, Ideal.ofBits_zero_f32]
  refine congrArg (fun z : EReal => (0 : EReal) +ₑ z) ?_
  refine Finset.sum_congr (Finset.filter_congr fun e _ => by rw [col1700000_apply]) fun e _ => ?_
  rw [gatherRows_apply, col1700000_apply]

/-- The same at the program's own edge ends. -/
theorem aggregate_apply (x5 : (⟨S2x1600000, .i32⟩ : BufTy).Contents (Elt Ideal))
    (R : FVec Ideal S100000x128 .f32) (n : Fin 100000) (d : Fin 128) :
    (Host.scatterAdd (F := Ideal) scatter_S100000x128_S1700000x1_S1700000x128_1_0_0_1
        (broadcastInDim S100000x128 ![] bcast_S_S100000x128 (constant S_ .f32 0x00000000#32))
        (broadcastInDim S1700000x1 ![0] bcast_S1700000_S1700000x1_0 (Kdst x5))
        (Host.gather gather_S100000x128_S1700000x1_S1700000x128_1_0_n_n_0_1_1128 R
          (broadcastInDim S1700000x1 ![0] bcast_S1700000_S1700000x1_0 (KsrcN x5)))) (ix2 n d)
      = 0 +ₑ ∑ e ∈ Finset.univ.filter (fun e : Fin 1700000 => KDS x5 e = some n), (R (ix2 (KSI x5 e) d) : EReal) := by
  unfold KDS KSI
  exact aggregate_ends (Kdst x5) (KsrcN x5) R n d

/-- A 32-bit word is the number g < 64 exactly when, read as a signed row of a 64-row table, it is row g. -/
theorem word_eq_iff_row64 (w : BitVec 32) (g : Fin 64) : w = BitVec.ofNat 32 g.val ↔ Cert.GS.rowOf 64 w = some g := by
  have hg := g.isLt
  have hw := w.isLt
  rw [Cert.GS.rowOf_eq_some_iff, BitVec.toInt_eq_toNat_cond]
  constructor
  · intro h
    rw [h, BitVec.toNat_ofNat]
    split <;> omega
  · intro h
    apply BitVec.eq_of_toNat_eq
    rw [BitVec.toNat_ofNat]
    split at h <;> omega

/-- The membership table is the one the graph ids, read as rows of a 64-row table, define. -/
theorem KOH_eq (x6 : (⟨S100000, .i32⟩ : BufTy).Contents (Elt Ideal)) (n : Fin 100000) (g : Fin 64) :
    KOH x6 n g = if Cert.GS.rowOf 64 (x6 (ix1 n)) = some g then 1 else 0 := by
  unfold KOH
  exact if_congr (word_eq_iff_row64 _ g) rfl rfl

/-! ## The result, region by region -/

variable (m : (ℓ : Loc nD τ sig) → Buf (Elt Ideal) ℓ) (c : Dev nD)

/-- The host's quotient of two arrays, read at an index. -/
theorem hostDivf_apply {s : Shape} {φ : FTy} (a b : FVec Ideal s φ) (i : s.Idx) : Host.divf a b i = Ideal.div (a i) (b i) := rfl

/-! ### What the regions read, at an index -/

theorem E0_x (n : Fin 100000) (k : Fin 128) : (E0 m c main_arg0) (ix2 n k) = KX (m ((c.tc : Thread nD τ).loc main_arg0)) n k := by
  rw [E0_arg0]; rfl
theorem E0_w1 (k d : Fin 128) : (E0 m c main_arg1) (ix2 k d) = KW1 (m ((c.tc : Thread nD τ).loc main_arg1)) k d := by
  rw [E0_arg1]; rfl
theorem E0_dinv (n : Fin 100000) : (E0 m c main_v15) (ix2 n 0) = KDINV (m ((c.tc : Thread nD τ).loc main_arg5)) n := by
  rw [E0_v15, LibSums.shapeCast_a_a1_apply]; rfl
theorem E1_dinv (n : Fin 100000) : (E1 m c main_v15) (ix2 n 0) = KDINV (m ((c.tc : Thread nD τ).loc main_arg5)) n := by
  rw [E1_v15, LibSums.shapeCast_a_a1_apply]; rfl
theorem E1_b1 (k : Fin 128) : (E1 m c main_v28) (ix2 0 k) = KB1 (m ((c.tc : Thread nD τ).loc main_arg2)) k := by
  rw [E1_v28, shapeCast_a_1a_apply]; rfl
theorem E1_w2 (k d : Fin 128) : (E1 m c main_arg3) (ix2 k d) = KW2 (m ((c.tc : Thread nD τ).loc main_arg3)) k d := by
  rw [E1_arg3]; rfl
theorem E2_dinv (n : Fin 100000) : (E2 m c main_v15) (ix2 n 0) = KDINV (m ((c.tc : Thread nD τ).loc main_arg5)) n := by
  rw [E2_v15, LibSums.shapeCast_a_a1_apply]; rfl
theorem E2_ids (n : Fin 100000) : (E2 m c main_v16) (ix2 n 0) = (m ((c.tc : Thread nD τ).loc main_arg6)) (ix1 n) := by
  rw [E2_v16, LibSums.shapeCast_a_a1_apply]
theorem E2_b2 (d : Fin 128) : (E2 m c main_v40) (ix2 0 d) = KB2 (m ((c.tc : Thread nD τ).loc main_arg4)) d := by
  rw [E2_v40, shapeCast_a_1a_apply]; rfl

/-! ### The chain -/

/-- Region 0's result at row n and column d: the feature row times the first weight, scaled by the row's degree
    scale. -/
theorem region0_apply (n : Fin 100000) (d : Fin 128) :
    ((dat0 (E0 m) c).arrAt 3 cfg0.N) (ix2 n d)
      = Cert.GcnMath.h1s (KX (m ((c.tc : Thread nD τ).loc main_arg0))) (KW1 (m ((c.tc : Thread nD τ).loc main_arg1)))
          (KDINV (m ((c.tc : Thread nD τ).loc main_arg5))) n d := by
  refine (arrAt0_apply (E0 m) c n d).trans ?_
  unfold Cert.GcnMath.h1s
  rw [E0_dinv m c n]
  refine congrArg (fun z : EReal => z *ₑ KDINV (m ((c.tc : Thread nD τ).loc main_arg5)) n) ?_
  refine Finset.sum_congr rfl fun k _ => ?_
  rw [E0_x m c n k, E0_w1 m c k d]

/-- What region 1 reads as aggregated features: the first aggregation of region 0's rows. -/
theorem stretch1_apply (n : Fin 100000) (k : Fin 128) :
    (E1 m c main_v27) (ix2 n k)
      = Cert.GcnMath.agg1 (KX (m ((c.tc : Thread nD τ).loc main_arg0))) (KW1 (m ((c.tc : Thread nD τ).loc main_arg1)))
          (KDINV (m ((c.tc : Thread nD τ).loc main_arg5))) (KSI (m ((c.tc : Thread nD τ).loc main_arg5)))
          (KDS (m ((c.tc : Thread nD τ).loc main_arg5))) n k := by
  refine (congrFun (E1_v27 m c) (ix2 n k)).trans ((aggregate_apply _ _ n k).trans ?_)
  unfold Cert.GcnMath.agg1
  refine congrArg (fun z : EReal => (0 : EReal) +ₑ z) ?_
  exact Finset.sum_congr rfl fun e _ => region0_apply m c _ k

/-- Region 1's result at row n and column d. -/
theorem region1_apply (n : Fin 100000) (d : Fin 128) :
    ((dat1 (E1 m) c).arrAt 4 cfg1.N) (ix2 n d)
      = Cert.GcnMath.h2s (KX (m ((c.tc : Thread nD τ).loc main_arg0))) (KW1 (m ((c.tc : Thread nD τ).loc main_arg1)))
          (KW2 (m ((c.tc : Thread nD τ).loc main_arg3))) (KB1 (m ((c.tc : Thread nD τ).loc main_arg2)))
          (KDINV (m ((c.tc : Thread nD τ).loc main_arg5))) (KSI (m ((c.tc : Thread nD τ).loc main_arg5)))
          (KDS (m ((c.tc : Thread nD τ).loc main_arg5))) n d := by
  refine (arrAt1_apply (E1 m) c n d).trans ?_
  unfold Cert.GcnMath.h2s
  rw [E1_dinv m c n]
  refine congrArg (fun z : EReal => z *ₑ KDINV (m ((c.tc : Thread nD τ).loc main_arg5)) n) ?_
  refine Finset.sum_congr rfl fun k _ => ?_
  rw [stretch1_apply m c n k, E1_b1 m c k, E1_w2 m c k d]
  unfold Cert.GcnMath.q1
  with_reducible rfl

/-- What region 2 reads as aggregated features: the second aggregation, of region 1's rows. -/
theorem stretch2_apply (n : Fin 100000) (k : Fin 128) :
    (E2 m c main_v39) (ix2 n k)
      = Cert.GcnMath.agg2 (KX (m ((c.tc : Thread nD τ).loc main_arg0))) (KW1 (m ((c.tc : Thread nD τ).loc main_arg1)))
          (KW2 (m ((c.tc : Thread nD τ).loc main_arg3))) (KB1 (m ((c.tc : Thread nD τ).loc main_arg2)))
          (KDINV (m ((c.tc : Thread nD τ).loc main_arg5))) (KSI (m ((c.tc : Thread nD τ).loc main_arg5)))
          (KDS (m ((c.tc : Thread nD τ).loc main_arg5))) n k := by
  refine (congrFun (E2_v39 m c) (ix2 n k)).trans ((aggregate_apply _ _ n k).trans ?_)
  unfold Cert.GcnMath.agg2
  refine congrArg (fun z : EReal => (0 : EReal) +ₑ z) ?_
  exact Finset.sum_congr rfl fun e _ => region1_apply m c _ k

/-- Region 2's result at graph g and column d: the second layer's output rows, summed over the graph's nodes. -/
theorem region2_apply (g : Fin 64) (d : Fin 128) :
    ((dat2 (E2 m) c).arrAt 4 cfg2.N) (ix2 g d)
      = ∑ n : Fin 100000, KOH (m ((c.tc : Thread nD τ).loc main_arg6)) n g
          *ₑ Cert.GcnMath.q2 (KX (m ((c.tc : Thread nD τ).loc main_arg0))) (KW1 (m ((c.tc : Thread nD τ).loc main_arg1)))
              (KW2 (m ((c.tc : Thread nD τ).loc main_arg3))) (KB1 (m ((c.tc : Thread nD τ).loc main_arg2)))
              (KB2 (m ((c.tc : Thread nD τ).loc main_arg4)))
              (KDINV (m ((c.tc : Thread nD τ).loc main_arg5))) (KSI (m ((c.tc : Thread nD τ).loc main_arg5)))
              (KDS (m ((c.tc : Thread nD τ).loc main_arg5))) n d := by
  refine (arrAt2_apply (E2 m) c g d).trans ?_
  refine (show (∑ n : Fin 100000, (_ : EReal)) = ∑ n : Fin 100000, (_ : EReal) from Finset.sum_congr rfl fun n _ => ?_)
  rw [E2_ids m c n, stretch2_apply m c n d, E2_dinv m c n, E2_b2 m c d]
  unfold Cert.GcnMath.q2 KOH
  with_reducible rfl

/-- THE KERNEL PROGRAM'S RESULT at graph g and column d is the second way of computing the two-layer graph
    convolution with mean pooling, at the tables read off the launch contents. -/
theorem ker_apply (g : Fin 64) (d : Fin 128) :
    (Gen.V9 m (outs m) c main_v50) (ix2 g d)
      = Cert.GcnMath.resK (N := Fin 100000) (M := Fin 1700000) (K := Fin 128) (G := Fin 64)
          (KX (m ((c.tc : Thread nD τ).loc main_arg0))) (KW1 (m ((c.tc : Thread nD τ).loc main_arg1)))
          (KW2 (m ((c.tc : Thread nD τ).loc main_arg3))) (KB1 (m ((c.tc : Thread nD τ).loc main_arg2)))
          (KB2 (m ((c.tc : Thread nD τ).loc main_arg4)))
          (KDINV (m ((c.tc : Thread nD τ).loc main_arg5))) (KSI (m ((c.tc : Thread nD τ).loc main_arg5)))
          (KDS (m ((c.tc : Thread nD τ).loc main_arg5))) (KOH (m ((c.tc : Thread nD τ).loc main_arg6)))
          (KCNT (m ((c.tc : Thread nD τ).loc main_arg6))) Ideal.div g d := by
  refine (congrFun (V9_v50 m c) (ix2 g d)).trans ((hostDivf_apply _ _ _).trans ?_)
  rw [region2_apply m c g d, spread64_apply]
  unfold Cert.GcnMath.resK KCNT
  with_reducible rfl

end Formula

end Cert.KernelIdeal.Hand

end
-- ==== Proof.RefTail.lean ====
/-
  The reference's three row scatter-adds, read at an element.

  Each adds, into a table of zeros, the rows of an array of updates at the rows an index column names: element
  (n, k) of the result is the table's element plus the sum, over the update rows whose index (read as a signed
  integer, not clamped) is the row n, of the update's element in column k; an update row whose index names no row of
  the table is dropped.
-/
import proofs.«409848_j24326694765010_2_alg».proof.Proof.RefRead
import proofs.«409848_j24326694765010_2_alg».proof.Proof.GatherScatter
import Idealize.ShloMosaic.Lib.ValueIdx
import Idealize.ShloMosaic.PureOps.Ideal

noncomputable section

open scoped BigOperators

namespace Cert.ReferenceIdeal.RefTail

open Cert.ReferenceIdeal Cert.ReferenceIdeal.Gen Idealize.ShloMosaic Idealize.ShloMosaic.TcCoe Idealize.SL.Sem
  Idealize.ShloMosaic.StableHlo Idealize.ShloMosaic.ValueIdx

/-- Over the extended reals the host's accumulating scatter is the exact sum of the colliding updates. -/
theorem scatterAdd_ideal {s si u : Shape} {φ : FTy} {w : Nat} (d : ScatterDims s si u) (x : FVec Ideal s φ)
    (idx : IVec si w) (upd : FVec Ideal u φ) : Host.scatterAdd d x idx upd = Ideal.hostScatterAdd d x idx upd := rfl

/-- The scatter-add of 1700000 update rows into a 100000 × 128 table, at element (n, k), for any operands. -/
theorem scatter_edges (x : (⟨S100000x128, .f32⟩ : BufTy).Contents (Elt Ideal))
    (idx : (⟨S1700000x1, .i32⟩ : BufTy).Contents (Elt Ideal)) (upd : (⟨S1700000x128, .f32⟩ : BufTy).Contents (Elt Ideal))
    (n : Fin 100000) (k : Fin 128) :
    Host.scatterAdd (F := Ideal) (φ := .f32) scatter_S100000x128_S1700000x1_S1700000x128_1_0_0_1 x idx upd (ix2 n k)
      = x (ix2 n k) + ∑ e ∈ Finset.univ.filter (fun e : Fin 1700000 => Cert.GS.rowOf 100000 (idx (ix2 e 0)) = some n),
          upd (ix2 e k) := by
  rw [scatterAdd_ideal]
  exact Cert.GS.scatterAdd_rows2 scatter_S100000x128_S1700000x1_S1700000x128_1_0_0_1 rfl rfl rfl rfl x idx upd n k

/-- The scatter-add of 100000 update rows into a 64 × 128 table, at element (g, d), for any operands. -/
theorem scatter_nodes (x : (⟨S64x128, .f32⟩ : BufTy).Contents (Elt Ideal))
    (idx : (⟨S100000x1, .i32⟩ : BufTy).Contents (Elt Ideal)) (upd : (⟨S100000x128, .f32⟩ : BufTy).Contents (Elt Ideal))
    (g : Fin 64) (d : Fin 128) :
    Host.scatterAdd (F := Ideal) (φ := .f32) scatter_S64x128_S100000x1_S100000x128_1_0_0_1 x idx upd (ix2 g d)
      = x (ix2 g d) + ∑ n ∈ Finset.univ.filter (fun n : Fin 100000 => Cert.GS.rowOf 64 (idx (ix2 n 0)) = some g),
          upd (ix2 n d) := by
  rw [scatterAdd_ideal]
  exact Cert.GS.scatterAdd_rows2 scatter_S64x128_S100000x1_S100000x128_1_0_0_1 rfl rfl rfl rfl x idx upd g d

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S2x1600000, .i32⟩ : BufTy).Contents (Elt Ideal))
  (x6 : (⟨S100000, .i32⟩ : BufTy).Contents (Elt Ideal))

/-- The first layer's aggregate is the scatter-add of its messages into zeros at the target rows. -/
theorem v43_def : PRead.val_main_v43 (F := Ideal) x0 x1 x5
    = Host.scatterAdd (F := Ideal) (φ := .f32) scatter_S100000x128_S1700000x1_S1700000x128_1_0_0_1
        (PRead.val_main_v41 (F := Ideal)) (PRead.val_main_v42 (F := Ideal) x5) (PRead.val_main_v40 (F := Ideal) x0 x1 x5) := rfl

/-- THE FIRST LAYER'S AGGREGATE at node n and column k: the sum of the messages of the edges whose target is n. -/
theorem v43_scatter (n : Fin 100000) (k : Fin 128) :
    PRead.val_main_v43 (F := Ideal) x0 x1 x5 (ix2 n k)
      = PRead.val_main_v41 (F := Ideal) (ix2 n k)
        + ∑ e ∈ Finset.univ.filter (fun e : Fin 1700000 =>
            Cert.GS.rowOf 100000 (PRead.val_main_v42 (F := Ideal) x5 (ix2 e 0)) = some n),
          PRead.val_main_v40 (F := Ideal) x0 x1 x5 (ix2 e k) := by
  rw [v43_def]
  exact scatter_edges _ _ _ n k

/-- The second layer's aggregate is the scatter-add of its messages into zeros at the target rows. -/
theorem v61_def : PRead.val_main_v61 (F := Ideal) x0 x1 x2 x3 x5
    = Host.scatterAdd (F := Ideal) (φ := .f32) scatter_S100000x128_S1700000x1_S1700000x128_1_0_0_1
        (PRead.val_main_v59 (F := Ideal)) (PRead.val_main_v60 (F := Ideal) x5)
        (PRead.val_main_v58 (F := Ideal) x0 x1 x2 x3 x5) := rfl

/-- THE SECOND LAYER'S AGGREGATE at node n and column k. -/
theorem v61_scatter (n : Fin 100000) (k : Fin 128) :
    PRead.val_main_v61 (F := Ideal) x0 x1 x2 x3 x5 (ix2 n k)
      = PRead.val_main_v59 (F := Ideal) (ix2 n k)
        + ∑ e ∈ Finset.univ.filter (fun e : Fin 1700000 =>
            Cert.GS.rowOf 100000 (PRead.val_main_v60 (F := Ideal) x5 (ix2 e 0)) = some n),
          PRead.val_main_v58 (F := Ideal) x0 x1 x2 x3 x5 (ix2 e k) := by
  rw [v61_def]
  exact scatter_edges _ _ _ n k

/-- The pooled sums are the scatter-add of the node rows into zeros at the rows' graph ids. -/
theorem v68_def : PRead.val_main_v68 (F := Ideal) x0 x1 x2 x3 x4 x5 x6
    = Host.scatterAdd (F := Ideal) (φ := .f32) scatter_S64x128_S100000x1_S100000x128_1_0_0_1
        (PRead.val_main_v66 (F := Ideal)) (PRead.val_main_v67 (F := Ideal) x6)
        (PRead.val_main_v65 (F := Ideal) x0 x1 x2 x3 x4 x5) := rfl

/-- THE POOLED SUMS at graph g and column d: the sum of the rows of the nodes whose graph id is g. -/
theorem v68_scatter (g : Fin 64) (d : Fin 128) :
    PRead.val_main_v68 (F := Ideal) x0 x1 x2 x3 x4 x5 x6 (ix2 g d)
      = PRead.val_main_v66 (F := Ideal) (ix2 g d)
        + ∑ n ∈ Finset.univ.filter (fun n : Fin 100000 =>
            Cert.GS.rowOf 64 (PRead.val_main_v67 (F := Ideal) x6 (ix2 n 0)) = some g),
          PRead.val_main_v65 (F := Ideal) x0 x1 x2 x3 x4 x5 (ix2 n d) := by
  rw [v68_def]
  exact scatter_nodes _ _ _ g d

end Cert.ReferenceIdeal.RefTail

end
-- ==== Proof.RefVal.lean ====
/-
  The reference's result, read at an index.

  The reference is a two-layer graph convolution with symmetric degree normalisation followed by mean pooling.
  Read at one element `(g, d)` of its result, it is the pooled value of the mathematical statement
  (`Cert.GcnMath.resR`) over these readings of its seven arguments:

  * the node features, the two weight matrices and the two biases are the argument arrays by coordinates;
  * the degree scale of a node is the stage that selects between the reciprocal square root of the degree and zero,
    kept as one opaque array — all that is used of it is that every entry is a nonnegative real;
  * an edge's source row and target row are its normalised index words read signed and clamped into the table,
    as a row gather reads them; the row an edge's message is added into is its raw target word read signed and NOT
    clamped, as a scatter-add reads it (a word outside the table drops the message);
  * the graph a node is pooled into is its batch word read the same way;
  * the node count of a graph is the stage that takes the maximum of the count and one, kept opaque.
-/
import proofs.«409848_j24326694765010_2_alg».proof.Proof.RefRead
import proofs.«409848_j24326694765010_2_alg».proof.Proof.LibSums
import proofs.«409848_j24326694765010_2_alg».proof.Proof.Math
import proofs.«409848_j24326694765010_2_alg».proof.Proof.GatherScatter
import proofs.«409848_j24326694765010_2_alg».proof.Proof.RefTail
import Mathlib.Tactic.NormNum

noncomputable section

open scoped BigOperators

namespace Cert.ReferenceIdeal.RefVal

open Cert.ReferenceIdeal Cert.ReferenceIdeal.Gen Idealize.ShloMosaic Idealize.ShloMosaic.ValueIdx

/-! ## The readings of the arguments -/

section Readings

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S2x1600000, .i32⟩ : BufTy).Contents (Elt Ideal))
  (x6 : (⟨S100000, .i32⟩ : BufTy).Contents (Elt Ideal))

/-- Node features. -/
def X (n : Fin 100000) (k : Fin 128) : EReal := x0 (ix2 n k)
/-- First weight matrix. -/
def W1 (k d : Fin 128) : EReal := x1 (ix2 k d)
/-- First bias. -/
def B1 (d : Fin 128) : EReal := x2 (ix1 d)
/-- Second weight matrix. -/
def W2 (k d : Fin 128) : EReal := x3 (ix2 k d)
/-- Second bias. -/
def B2 (d : Fin 128) : EReal := x4 (ix1 d)
/-- The degree scale of a node (kept as the opaque stage). -/
def DINV (n : Fin 100000) : EReal := PRead.val_main_v14 (F := Ideal) x5 (ix1 n)
/-- The row an edge gathers its message from: the normalised source word, signed and clamped. -/
def SI (e : Fin 1700000) : Fin 100000 :=
  Cert.GS.clampRow 100000 (by norm_num) (PRead.val_main_v19 (F := Ideal) x5 (ix1 e))
/-- The row an edge gathers its target scale from: the normalised target word, signed and clamped. -/
def DG (e : Fin 1700000) : Fin 100000 :=
  Cert.GS.clampRow 100000 (by norm_num) (PRead.val_main_v26 (F := Ideal) x5 (ix1 e))
/-- The row an edge's message is added into: the raw target word, signed, dropped when outside the table. -/
def DS (e : Fin 1700000) : Option (Fin 100000) :=
  Cert.GS.rowOf 100000 (PRead.val_main_v6 (F := Ideal) x5 (ix1 e))
/-- The graph a node is pooled into: its batch word, signed, dropped when outside the range of graphs. -/
def BS (n : Fin 100000) : Option (Fin 64) := Cert.GS.rowOf 64 (x6 (ix1 n))
/-- The node count of a graph, at least one (kept as the opaque stage). -/
def CNT (g : Fin 64) : EReal := PRead.val_main_v74 (F := Ideal) x6 (ix1 g)

/-! ## Constants and index arrays at coordinates -/

theorem zero_word : FloatOps.ofBits (F := Ideal) .f32 0x00000000#32 = (0 : EReal) := by
  rw [Ideal.ofBits_def, Ideal.ofBits_zero_f32]

theorem v41_ix (i : S100000x128.Idx) : PRead.val_main_v41 (F := Ideal) i = (0 : EReal) := by
  rw [PRead.val_main_v41_apply, PRead.val_main_cst_8_apply, zero_word]
theorem v59_ix (i : S100000x128.Idx) : PRead.val_main_v59 (F := Ideal) i = (0 : EReal) := by
  rw [PRead.val_main_v59_apply, PRead.val_main_cst_11_apply, zero_word]
theorem v66_ix (i : S64x128.Idx) : PRead.val_main_v66 (F := Ideal) i = (0 : EReal) := by
  rw [PRead.val_main_v66_apply, PRead.val_main_cst_12_apply, zero_word]
theorem call1_v0_ix (i : S100000x128.Idx) : PRead.val_main_call1_v0 (F := Ideal) i = (0 : EReal) := by
  rw [PRead.val_main_call1_v0_apply, PRead.val_main_call1_cst_apply, zero_word]
theorem call2_v0_ix (i : S100000x128.Idx) : PRead.val_main_call2_v0 (F := Ideal) i = (0 : EReal) := by
  rw [PRead.val_main_call2_v0_apply, PRead.val_main_call2_cst_apply, zero_word]

/-- The three later copies of the source-index normalisation are the first one. -/
theorem v35_eq : PRead.val_main_v35 (F := Ideal) x5 = PRead.val_main_v19 (F := Ideal) x5 := rfl
theorem v53_eq : PRead.val_main_v53 (F := Ideal) x5 = PRead.val_main_v19 (F := Ideal) x5 := rfl

theorem v20_ix (e : Fin 1700000) : PRead.val_main_v20 (F := Ideal) x5 (ix2 e 0) = PRead.val_main_v19 (F := Ideal) x5 (ix1 e) :=
  (PRead.val_main_v20_apply x5 _).trans (congrArg _ (by funext a; match a with | ⟨0, _⟩ => rfl))
theorem v27_ix (e : Fin 1700000) : PRead.val_main_v27 (F := Ideal) x5 (ix2 e 0) = PRead.val_main_v26 (F := Ideal) x5 (ix1 e) :=
  (PRead.val_main_v27_apply x5 _).trans (congrArg _ (by funext a; match a with | ⟨0, _⟩ => rfl))
theorem v36_ix (e : Fin 1700000) : PRead.val_main_v36 (F := Ideal) x5 (ix2 e 0) = PRead.val_main_v19 (F := Ideal) x5 (ix1 e) :=
  ((PRead.val_main_v36_apply x5 _).trans (congrArg _ (by funext a; match a with | ⟨0, _⟩ => rfl))).trans
    (congrFun (v35_eq x5) _)
theorem v54_ix (e : Fin 1700000) : PRead.val_main_v54 (F := Ideal) x5 (ix2 e 0) = PRead.val_main_v19 (F := Ideal) x5 (ix1 e) :=
  ((PRead.val_main_v54_apply x5 _).trans (congrArg _ (by funext a; match a with | ⟨0, _⟩ => rfl))).trans
    (congrFun (v53_eq x5) _)
theorem v42_ix (e : Fin 1700000) : PRead.val_main_v42 (F := Ideal) x5 (ix2 e 0) = PRead.val_main_v6 (F := Ideal) x5 (ix1 e) :=
  (PRead.val_main_v42_apply x5 _).trans (congrArg _ (by funext a; match a with | ⟨0, _⟩ => rfl))
theorem v60_ix (e : Fin 1700000) : PRead.val_main_v60 (F := Ideal) x5 (ix2 e 0) = PRead.val_main_v6 (F := Ideal) x5 (ix1 e) :=
  (PRead.val_main_v60_apply x5 _).trans (congrArg _ (by funext a; match a with | ⟨0, _⟩ => rfl))
theorem v67_ix (n : Fin 100000) : PRead.val_main_v67 (F := Ideal) x6 (ix2 n 0) = x6 (ix1 n) :=
  (PRead.val_main_v67_apply x6 _).trans (congrArg _ (by funext a; match a with | ⟨0, _⟩ => rfl))

/-! ## The bias rows and the edge scale at coordinates -/

theorem v45_ix (n : Fin 100000) (k : Fin 128) : PRead.val_main_v45 (F := Ideal) x2 (ix2 n k) = B1 x2 k := by
  rw [PRead.val_main_v45_apply, PRead.val_main_v44_apply]
  exact congrArg _ (by funext a; match a with | ⟨0, _⟩ => rfl)
theorem v63_ix (n : Fin 100000) (k : Fin 128) : PRead.val_main_v63 (F := Ideal) x4 (ix2 n k) = B2 x4 k := by
  rw [PRead.val_main_v63_apply, PRead.val_main_v62_apply]
  exact congrArg _ (by funext a; match a with | ⟨0, _⟩ => rfl)

theorem v21_ix (e : Fin 1700000) : PRead.val_main_v21 (F := Ideal) x5 (ix1 e) = DINV x5 (SI x5 e) := by
  unfold PRead.val_main_v21
  rw [Cert.GS.gather_rows1 (R := 100000) (by norm_num) _ rfl rfl rfl rfl rfl rfl rfl, v20_ix]
  rfl
theorem v28_ix (e : Fin 1700000) : PRead.val_main_v28 (F := Ideal) x5 (ix1 e) = DINV x5 (DG x5 e) := by
  unfold PRead.val_main_v28
  rw [Cert.GS.gather_rows1 (R := 100000) (by norm_num) _ rfl rfl rfl rfl rfl rfl rfl, v27_ix]
  rfl
theorem v29_ix (e : Fin 1700000) :
    PRead.val_main_v29 (F := Ideal) x5 (ix1 e) = DINV x5 (SI x5 e) * DINV x5 (DG x5 e) := by
  rw [PRead.val_main_v29_apply, Ideal.mulf_def, v21_ix, v28_ix]
theorem v39_ix (e : Fin 1700000) (k : Fin 128) :
    PRead.val_main_v39 (F := Ideal) x5 (ix2 e k) = DINV x5 (SI x5 e) * DINV x5 (DG x5 e) := by
  rw [PRead.val_main_v39_apply, PRead.val_main_v38_apply, ← v29_ix]
  exact congrArg _ (by funext a; match a with | ⟨0, _⟩ => rfl)
theorem v57_ix (e : Fin 1700000) (k : Fin 128) :
    PRead.val_main_v57 (F := Ideal) x5 (ix2 e k) = DINV x5 (SI x5 e) * DINV x5 (DG x5 e) := by
  rw [PRead.val_main_v57_apply, PRead.val_main_v56_apply, ← v29_ix]
  exact congrArg _ (by funext a; match a with | ⟨0, _⟩ => rfl)

/-! ## The first layer -/

theorem v30_ix (n : Fin 100000) (k : Fin 128) :
    PRead.val_main_v30 (F := Ideal) x0 x1 (ix2 n k) = Cert.GcnMath.h (X x0) (W1 x1) n k := by
  rw [PRead.val_main_v30_apply]
  unfold Cert.GcnMath.h X W1
  refine Finset.sum_congr rfl (fun j _ => ?_)
  have e1 : PRead.lidx_main_v30 (ix2 n k) j = ix2 n j := by
    funext a; match a with | ⟨0, _⟩ => rfl | ⟨1, _⟩ => rfl
  have e2 : PRead.ridx_main_v30 (ix2 n k) j = ix2 j k := by
    funext a; match a with | ⟨0, _⟩ => rfl | ⟨1, _⟩ => rfl
  rw [e1, e2]

theorem v37_ix (e : Fin 1700000) (k : Fin 128) :
    PRead.val_main_v37 (F := Ideal) x0 x1 x5 (ix2 e k) = Cert.GcnMath.h (X x0) (W1 x1) (SI x5 e) k := by
  unfold PRead.val_main_v37
  rw [Cert.GS.gather_rows2 (R := 100000) (by norm_num) _ rfl rfl rfl rfl rfl rfl rfl, v36_ix, ← v30_ix]
  rfl

theorem v43_ix (n : Fin 100000) (k : Fin 128) :
    PRead.val_main_v43 (F := Ideal) x0 x1 x5 (ix2 n k)
      = Cert.GcnMath.a1 (X x0) (W1 x1) (DINV x5) (SI x5) (DG x5) (DS x5) n k := by
  rw [RefTail.v43_scatter x0 x1 x5 n k, v41_ix, Cert.GcnMath.a1]
  refine congrArg (fun s : EReal => (0 : EReal) + s) ?_
  refine Finset.sum_congr (Finset.filter_congr (fun e _ => ?_)) (fun e _ => ?_)
  · rw [v42_ix]; exact Iff.rfl
  · rw [PRead.val_main_v40_apply, Ideal.mulf_def, v37_ix, v39_ix]

theorem v47_ix (n : Fin 100000) (k : Fin 128) :
    PRead.val_main_v47 (F := Ideal) x0 x1 x2 x5 (ix2 n k)
      = Cert.GcnMath.r1 (X x0) (W1 x1) (B1 x2) (DINV x5) (SI x5) (DG x5) (DS x5) n k := by
  rw [PRead.val_main_v47_apply, PRead.val_main_v46_apply, Ideal.maximumf_def, Ideal.addf_def, v43_ix, v45_ix,
    call1_v0_ix]
  rfl

/-! ## The second layer -/

theorem v48_ix (n : Fin 100000) (d : Fin 128) :
    PRead.val_main_v48 (F := Ideal) x0 x1 x2 x3 x5 (ix2 n d)
      = Cert.GcnMath.h2 (X x0) (W1 x1) (W2 x3) (B1 x2) (DINV x5) (SI x5) (DG x5) (DS x5) n d := by
  rw [PRead.val_main_v48_apply]
  unfold Cert.GcnMath.h2 W2
  refine Finset.sum_congr rfl (fun j _ => ?_)
  have e1 : PRead.lidx_main_v48 (ix2 n d) j = ix2 n j := by
    funext a; match a with | ⟨0, _⟩ => rfl | ⟨1, _⟩ => rfl
  have e2 : PRead.ridx_main_v48 (ix2 n d) j = ix2 j d := by
    funext a; match a with | ⟨0, _⟩ => rfl | ⟨1, _⟩ => rfl
  rw [e1, e2, v47_ix]

theorem v55_ix (e : Fin 1700000) (d : Fin 128) :
    PRead.val_main_v55 (F := Ideal) x0 x1 x2 x3 x5 (ix2 e d)
      = Cert.GcnMath.h2 (X x0) (W1 x1) (W2 x3) (B1 x2) (DINV x5) (SI x5) (DG x5) (DS x5) (SI x5 e) d := by
  unfold PRead.val_main_v55
  rw [Cert.GS.gather_rows2 (R := 100000) (by norm_num) _ rfl rfl rfl rfl rfl rfl rfl, v54_ix, ← v48_ix]
  rfl

theorem v61_ix (n : Fin 100000) (d : Fin 128) :
    PRead.val_main_v61 (F := Ideal) x0 x1 x2 x3 x5 (ix2 n d)
      = Cert.GcnMath.a2 (X x0) (W1 x1) (W2 x3) (B1 x2) (DINV x5) (SI x5) (DG x5) (DS x5) n d := by
  rw [RefTail.v61_scatter x0 x1 x2 x3 x5 n d, v59_ix, Cert.GcnMath.a2]
  refine congrArg (fun s : EReal => (0 : EReal) + s) ?_
  refine Finset.sum_congr (Finset.filter_congr (fun e _ => ?_)) (fun e _ => ?_)
  · rw [v60_ix]; exact Iff.rfl
  · rw [PRead.val_main_v58_apply, Ideal.mulf_def, v55_ix, v57_ix]

theorem v65_ix (n : Fin 100000) (d : Fin 128) :
    PRead.val_main_v65 (F := Ideal) x0 x1 x2 x3 x4 x5 (ix2 n d)
      = Cert.GcnMath.r2 (X x0) (W1 x1) (W2 x3) (B1 x2) (B2 x4) (DINV x5) (SI x5) (DG x5) (DS x5) n d := by
  rw [PRead.val_main_v65_apply, PRead.val_main_v64_apply, Ideal.maximumf_def, Ideal.addf_def, v61_ix, v63_ix,
    call2_v0_ix]
  rfl

/-! ## The pooling and the result -/

theorem v76_ix (g : Fin 64) (d : Fin 128) : PRead.val_main_v76 (F := Ideal) x6 (ix2 g d) = CNT x6 g := by
  rw [PRead.val_main_v76_apply, PRead.val_main_v75_apply]
  exact congrArg _ (by funext a; match a with | ⟨0, _⟩ => rfl)

/-- THE REFERENCE AT AN INDEX: its result element `(g, d)` is the pooled value of the mathematical statement over
the readings above, the final division being the extended reals' quotient. -/
theorem ref_apply (g : Fin 64) (d : Fin 128) :
    PRead.val_main_v77 (F := Ideal) x0 x1 x2 x3 x4 x5 x6 (ix2 g d)
      = Cert.GcnMath.resR (N := Fin 100000) (M := Fin 1700000) (K := Fin 128) (G := Fin 64)
          (X x0) (W1 x1) (W2 x3) (B1 x2) (B2 x4) (DINV x5) (SI x5) (DG x5) (DS x5) (BS x6) (CNT x6) Ideal.div g d := by
  rw [PRead.val_main_v77_apply, Ideal.hostDivf_def, v76_ix, Cert.GcnMath.resR]
  refine congrArg (fun s : EReal => Ideal.div s (CNT x6 g)) ?_
  rw [RefTail.v68_scatter x0 x1 x2 x3 x4 x5 x6 g d, v66_ix]
  refine congrArg (fun s : EReal => (0 : EReal) + s) ?_
  refine Finset.sum_congr (Finset.filter_congr (fun n _ => ?_)) (fun n _ => ?_)
  · rw [v67_ix]; exact Iff.rfl
  · rw [v65_ix]

end Readings

end Cert.ReferenceIdeal.RefVal

end
-- ==== Proof.RefFacts.lean ====
/-
  Two facts about the reference's host operations, each read at one index.

  * The inverse square root of the degree, taken where the degree is positive and replaced by 0 elsewhere, is a
    nonnegative REAL at every node, whatever extended real the degree is: at +∞ the inverse root is 0, at a positive
    real it is the inverse of a real square root, and elsewhere the 0 is chosen.
  * A destination index that names a node is left as it is by the wrap of negative indices (add the node count where
    the index is negative), so the clamped wrapped index is that node.
-/
import proofs.«409848_j24326694765010_2_alg».proof.Proof.RefRead
import proofs.«409848_j24326694765010_2_alg».proof.Proof.GatherScatter
import Idealize.ShloMosaic.Lib.ValueIdx
import Idealize.ShloMosaic.PureOps.Ideal
import Idealize.ShloMosaic.PureOps.Ideal.Laws
import Mathlib.Data.EReal.Basic
import Mathlib.Analysis.Real.Sqrt

noncomputable section

namespace Cert.ReferenceIdeal.RefFacts

open Cert.ReferenceIdeal Cert.ReferenceIdeal.Gen Idealize.ShloMosaic Idealize.ShloMosaic.TcCoe Idealize.SL.Sem
  Idealize.ShloMosaic.StableHlo Idealize.ShloMosaic.ValueIdx

/-- For every extended real `y`: the inverse square root of `y` where `y > 0`, and 0 elsewhere, is a nonnegative real. -/
theorem rsqrt_pos_or_zero (y : EReal) :
    ∃ r : ℝ, 0 ≤ r ∧ Scalar.select (Ideal.cmp .ogt y 0) (Ideal.rsqrt y) (0 : EReal) = (r : EReal) := by
  induction y using EReal.rec with
  | bot =>
    refine ⟨0, le_refl _, ?_⟩
    have hc : Ideal.cmp .ogt (⊥ : EReal) 0 = 0#1 := by simp [Ideal.cmp]
    rw [hc, select_zero]; rfl
  | top =>
    refine ⟨0, le_refl _, ?_⟩
    have hc : Ideal.cmp .ogt (⊤ : EReal) 0 = 1#1 := by simp [Ideal.cmp]
    rw [hc, select_one, Ideal.rsqrt_top]; rfl
  | coe r =>
    by_cases hr : 0 < r
    · refine ⟨(Real.sqrt r)⁻¹, inv_nonneg.mpr (Real.sqrt_nonneg r), ?_⟩
      have hc : Ideal.cmp .ogt (r : EReal) 0 = 1#1 := by simp [Ideal.cmp, hr]
      rw [hc, select_one, Ideal.rsqrt_coe, if_neg (not_lt.mpr hr.le), if_neg hr.ne']
    · refine ⟨0, le_refl _, ?_⟩
      have hc : Ideal.cmp .ogt (r : EReal) 0 = 0#1 := by simp [Ideal.cmp, hr]
      rw [hc, select_zero]; rfl

variable (x5 : (⟨S2x1600000, .i32⟩ : BufTy).Contents (Elt Ideal))

/-- The normalising factor of every node is a nonnegative real. -/
theorem dinv_nonneg_real (n : Fin 100000) :
    ∃ r : ℝ, 0 ≤ r ∧ PRead.val_main_v14 (F := Ideal) x5 (ix1 n) = (r : EReal) := by
  rw [PRead.val_main_v14_apply, PRead.val_main_v12_apply, PRead.val_main_v13_apply, PRead.val_main_call0_v1_apply,
    PRead.val_main_call0_v0_apply, PRead.val_main_cst_2_apply, PRead.val_main_v11_apply, PRead.val_main_cst_1_apply]
  generalize PRead.val_main_v10 (F := Ideal) x5 (ix1 n) = y
  rw [Ideal.ofBits_def, Ideal.ofBits_zero_f32, Ideal.hostUnary_rsqrt_def]
  exact rsqrt_pos_or_zero y

/-- A destination index that names node `n` is, wrapped and clamped, the node `n`. -/
theorem dst_compat (e : Fin 1700000) (n : Fin 100000) :
    Cert.GS.rowOf 100000 (PRead.val_main_v6 (F := Ideal) x5 (ix1 e)) = some n →
      Cert.GS.clampRow 100000 (by decide) (PRead.val_main_v26 (F := Ideal) x5 (ix1 e)) = n := by
  intro h
  rw [PRead.val_main_v26_apply, PRead.val_main_v23_apply, PRead.val_main_v22_apply, PRead.val_main_c_4_apply]
  generalize PRead.val_main_v6 (F := Ideal) x5 (ix1 e) = w at h ⊢
  have hw := Cert.GS.rowOf_eq_some_iff.mp h
  have hc : IntOp.cmpi .slt w 0#32 = 0#1 := by
    have h0 : ¬ ((n.val : ℤ) < 0) := by omega
    unfold IntOp.cmpi
    simp [BitVec.slt, hw, h0]
  rw [hc, select_zero]
  exact Cert.GS.clampRow_of_rowOf _ h

end Cert.ReferenceIdeal.RefFacts

end
-- ==== Proof.Cross.lean ====
/-
  The two programs compute the same graph quantities on the host.

  The kernel program and the reference both start from the edge list and the graph ids with the same operations in
  the same order: the source and the target ends of the edges followed by every node once more, the degree of every
  node and its inverse-square-root scale (zero where the degree is not positive), the source ends with negative
  indices counted from the end of the node list, and the number of nodes of every graph (at least one). Each of the
  kernel program's quantities is therefore EQUAL, as a function of the arguments, to the reference's stage that
  computes it: both sides are the same composition of the same operations, over any float arithmetic.
-/
import proofs.«409848_j24326694765010_2_alg».proof.Proof.KI.Vocab
import proofs.«409848_j24326694765010_2_alg».proof.Proof.RefRead

noncomputable section

namespace Cert.Cross

open Idealize.ShloMosaic Idealize.SL.Sem

variable {F : FTy → Type} [FloatOps F]

/-- The source ends, followed by every node once more. -/
theorem Ksrc_eq (x5 : (⟨Cert.ReferenceIdeal.S2x1600000, .i32⟩ : BufTy).Contents (Elt F)) :
    Cert.KernelIdeal.Hand.Ksrc (F := F) x5 = Cert.ReferenceIdeal.PRead.val_main_v3 (F := F) x5 := by
  unfold Cert.KernelIdeal.Hand.Ksrc Cert.ReferenceIdeal.PRead.val_main_v3 Cert.ReferenceIdeal.PRead.val_main_v2
    Cert.ReferenceIdeal.PRead.val_main_v1 Cert.ReferenceIdeal.PRead.val_main_v0
  rfl

/-- The target ends, followed by every node once more. -/
theorem Kdst_eq (x5 : (⟨Cert.ReferenceIdeal.S2x1600000, .i32⟩ : BufTy).Contents (Elt F)) :
    Cert.KernelIdeal.Hand.Kdst (F := F) x5 = Cert.ReferenceIdeal.PRead.val_main_v6 (F := F) x5 := by
  unfold Cert.KernelIdeal.Hand.Kdst Cert.ReferenceIdeal.PRead.val_main_v6 Cert.ReferenceIdeal.PRead.val_main_v5
    Cert.ReferenceIdeal.PRead.val_main_v4 Cert.ReferenceIdeal.PRead.val_main_v0
  rfl

/-- The degree of every node. -/
theorem Kdeg_eq (x5 : (⟨Cert.ReferenceIdeal.S2x1600000, .i32⟩ : BufTy).Contents (Elt F)) :
    Cert.KernelIdeal.Hand.Kdeg (F := F) x5 = Cert.ReferenceIdeal.PRead.val_main_v10 (F := F) x5 := by
  unfold Cert.KernelIdeal.Hand.Kdeg Cert.ReferenceIdeal.PRead.val_main_v10 Cert.ReferenceIdeal.PRead.val_main_v9
    Cert.ReferenceIdeal.PRead.val_main_v8 Cert.ReferenceIdeal.PRead.val_main_v7 Cert.ReferenceIdeal.PRead.val_main_cst
    Cert.ReferenceIdeal.PRead.val_main_cst_0
  rewrite [Kdst_eq]
  rfl

/-- The degree scale of every node. -/
theorem Kdinv_eq (x5 : (⟨Cert.ReferenceIdeal.S2x1600000, .i32⟩ : BufTy).Contents (Elt F)) :
    Cert.KernelIdeal.Hand.Kdinv (F := F) x5 = Cert.ReferenceIdeal.PRead.val_main_v14 (F := F) x5 := by
  unfold Cert.KernelIdeal.Hand.Kdinv Cert.ReferenceIdeal.PRead.val_main_v14 Cert.ReferenceIdeal.PRead.val_main_v12
    Cert.ReferenceIdeal.PRead.val_main_v13 Cert.ReferenceIdeal.PRead.val_main_v11 Cert.ReferenceIdeal.PRead.val_main_cst_1
    Cert.ReferenceIdeal.PRead.val_main_call0_v1 Cert.ReferenceIdeal.PRead.val_main_call0_v0
    Cert.ReferenceIdeal.PRead.val_main_cst_2
  rewrite [Kdeg_eq]
  rfl

/-- The source ends with a negative index counted from the end of the node list. -/
theorem KsrcN_eq (x5 : (⟨Cert.ReferenceIdeal.S2x1600000, .i32⟩ : BufTy).Contents (Elt F)) :
    Cert.KernelIdeal.Hand.KsrcN (F := F) x5 = Cert.ReferenceIdeal.PRead.val_main_v19 (F := F) x5 := by
  unfold Cert.KernelIdeal.Hand.KsrcN Cert.ReferenceIdeal.PRead.val_main_v19 Cert.ReferenceIdeal.PRead.val_main_v16
    Cert.ReferenceIdeal.PRead.val_main_v18 Cert.ReferenceIdeal.PRead.val_main_v15 Cert.ReferenceIdeal.PRead.val_main_v17
    Cert.ReferenceIdeal.PRead.val_main_c Cert.ReferenceIdeal.PRead.val_main_c_3
  rewrite [Ksrc_eq]
  rfl

/-- The number of nodes of every graph, at least one. -/
theorem Kcnt_eq (x6 : (⟨Cert.ReferenceIdeal.S100000, .i32⟩ : BufTy).Contents (Elt F)) :
    Cert.KernelIdeal.Hand.Kcnt (F := F) x6 = Cert.ReferenceIdeal.PRead.val_main_v74 (F := F) x6 := by
  unfold Cert.KernelIdeal.Hand.Kcnt Cert.ReferenceIdeal.PRead.val_main_v74 Cert.ReferenceIdeal.PRead.val_main_v72
    Cert.ReferenceIdeal.PRead.val_main_v73 Cert.ReferenceIdeal.PRead.val_main_v71 Cert.ReferenceIdeal.PRead.val_main_v70
    Cert.ReferenceIdeal.PRead.val_main_v69 Cert.ReferenceIdeal.PRead.val_main_cst_13
    Cert.ReferenceIdeal.PRead.val_main_cst_14 Cert.ReferenceIdeal.PRead.val_main_cst_15
  rfl

end Cert.Cross

end
-- ==== Proof.Algebraic.lean ====
/-
  The value claim: at the ideal values (a float is an extended real, every operation exact), from memories that agree
  on the seven arguments, the kernel program and the reference program both run, end with equal results, and leave
  their arguments unchanged.

  The program is a two-layer graph convolution with symmetric degree normalisation followed by mean pooling over 64
  graphs. Both results are read at graph g and column d.

  * The reference's result there is the pooled convolution in which each edge message is the gathered feature row
    times the product of the two degree scales (of the edge's source row and of its target row), the messages are
    added per target node, and a graph's rows are those whose graph id is that graph.
  * The kernel's result there is the same convolution with every node row scaled once before the messages are added
    and the per-node total scaled once more afterwards, pooled by a sum weighted with a zero/one membership table.
  * The quantities both programs compute from the edge list and the graph ids on the host (the degree scale, the
    source and target ends of the edges with every node's edge to itself, the node counts) are the same functions of
    the arguments.
  * Over the extended reals the two ways of writing the convolution agree because every degree scale is a nonnegative
    REAL number (so it distributes over the sum of the messages), because every message added into a node has that
    node as its target row, and because the membership table is one exactly where the node's graph id names the
    graph. No finiteness of the node features is needed.
-/
import proofs.«409848_j24326694765010_2_alg».proof.Defs
import proofs.«409848_j24326694765010_2_alg».proof.Proof.Gen.KernelIdeal
import proofs.«409848_j24326694765010_2_alg».proof.Proof.Gen.ReferenceIdeal
import proofs.«409848_j24326694765010_2_alg».proof.Proof.Gen.Pre_finite_inputs
import proofs.«409848_j24326694765010_2_alg».proof.Proof.KI.Run
import proofs.«409848_j24326694765010_2_alg».proof.Proof.KI.Body0
import proofs.«409848_j24326694765010_2_alg».proof.Proof.KI.Body1
import proofs.«409848_j24326694765010_2_alg».proof.Proof.KI.Body2
import proofs.«409848_j24326694765010_2_alg».proof.Proof.KI.Vocab
import proofs.«409848_j24326694765010_2_alg».proof.Proof.KI.KerVal
import proofs.«409848_j24326694765010_2_alg».proof.Proof.RefRun
import proofs.«409848_j24326694765010_2_alg».proof.Proof.RefRead
import proofs.«409848_j24326694765010_2_alg».proof.Proof.RefVal
import proofs.«409848_j24326694765010_2_alg».proof.Proof.RefFacts
import proofs.«409848_j24326694765010_2_alg».proof.Proof.Cross
import proofs.«409848_j24326694765010_2_alg».proof.Proof.GatherScatter
import proofs.«409848_j24326694765010_2_alg».proof.Proof.Math
import Idealize.ShloMosaic.Lib.ValueIdx

set_option maxRecDepth 16384

noncomputable section

open Idealize.ShloMosaic Idealize.ShloMosaic.TcCoe Idealize.SL.Sem
open Idealize.ShloMosaic.ValueIdx

namespace Cert.Proof.Alg

open Cert.KernelIdeal.Hand

/-- The two programs' results agree: from memories that agree on the seven arguments, the reference's result, read at
    graph g and column d, is the pooled two-layer graph convolution with each edge message scaled by the product of the two
    degree scales, and the kernel's is the same convolution with every row scaled once before and once after each
    aggregation; the two are equal because every degree scale is a nonnegative real, every edge added into a node has
    that node as its target, and the kernel's zero/one membership table is the reference's graph id of the node. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.PValue.res_main_v77 m' c
      = Cert.KernelIdeal.Gen.V9 m (outs m) c Cert.KernelIdeal.main_v50 := by
  rw [Cert.ReferenceIdeal.PRead.val_main_v77_eq, h0, h1, h2, h3, h4, h5, h6]
  funext i
  obtain ⟨g, d, rfl⟩ : ∃ (g : Fin 64) (d : Fin 128), i = ix2 g d := ⟨i 0, i 1, eq_ix2 i⟩
  refine (Cert.ReferenceIdeal.RefVal.ref_apply _ _ _ _ _ _ _ g d).trans ?_
  refine Eq.trans ?_ (ker_apply m c g d).symm
  -- the quantities computed on the host are the same functions of the arguments in both programs
  have eD : ∀ x5, KDINV x5 = Cert.ReferenceIdeal.RefVal.DINV x5 := fun x5 =>
    funext fun n => congrFun (Cert.Cross.Kdinv_eq x5) (ix1 n)
  have eSI : ∀ x5, KSI x5 = Cert.ReferenceIdeal.RefVal.SI x5 := fun x5 =>
    funext fun e => congrArg (Cert.GS.clampRow 100000 (by decide)) (congrFun (Cert.Cross.KsrcN_eq x5) (ix1 e))
  have eDS : ∀ x5, KDS x5 = Cert.ReferenceIdeal.RefVal.DS x5 := fun x5 =>
    funext fun e => congrArg (Cert.GS.rowOf 100000) (congrFun (Cert.Cross.Kdst_eq x5) (ix1 e))
  have eCNT : ∀ x6, KCNT x6 = Cert.ReferenceIdeal.RefVal.CNT x6 := fun x6 =>
    funext fun g => congrFun (Cert.Cross.Kcnt_eq x6) (ix1 g)
  have eX : ∀ x0, KX x0 = Cert.ReferenceIdeal.RefVal.X x0 := fun _ => rfl
  have eW1 : ∀ x1, KW1 x1 = Cert.ReferenceIdeal.RefVal.W1 x1 := fun _ => rfl
  have eW2 : ∀ x3, KW2 x3 = Cert.ReferenceIdeal.RefVal.W2 x3 := fun _ => rfl
  have eB1 : ∀ x2, KB1 x2 = Cert.ReferenceIdeal.RefVal.B1 x2 := fun _ => rfl
  have eB2 : ∀ x4, KB2 x4 = Cert.ReferenceIdeal.RefVal.B2 x4 := fun _ => rfl
  rw [eD, eSI, eDS, eCNT, eX, eW1, eW2, eB1, eB2]
  exact (Cert.GcnMath.resK_eq_resR
    (Cert.ReferenceIdeal.RefVal.X _) (Cert.ReferenceIdeal.RefVal.W1 _) (Cert.ReferenceIdeal.RefVal.W2 _)
    (Cert.ReferenceIdeal.RefVal.B1 _) (Cert.ReferenceIdeal.RefVal.B2 _) (Cert.ReferenceIdeal.RefVal.DINV _)
    (Cert.ReferenceIdeal.RefVal.SI _) (Cert.ReferenceIdeal.RefVal.DG _) (Cert.ReferenceIdeal.RefVal.DS _)
    (Cert.ReferenceIdeal.RefVal.BS _) (KOH _) (Cert.ReferenceIdeal.RefVal.CNT _) Ideal.div
    (fun n => Cert.ReferenceIdeal.RefFacts.dinv_nonneg_real _ n)
    (fun e n => Cert.ReferenceIdeal.RefFacts.dst_compat _ e n)
    (fun n g => KOH_eq _ n g) g d).symm

/-- THE VALUE CLAIM: at the ideal values, from memories that agree on the arguments, both programs run, end with equal
    results and leave their arguments unchanged. -/
theorem algebraic : Cert.algebraic_KernelIdeal_ReferenceIdeal := by
  intro m ρ m' ρ' _ hagree
  refine ⟨fun c => Cert.KernelIdeal.Gen.V9 m (outs m) c Cert.KernelIdeal.main_v50,
    run_outs (F := Ideal) m ρ (fun c => body_obligation0 (E0 m) c) (fun c => body_obligation1 (E1 m) c)
      (fun c => body_obligation2 (E2 m) c) (fun c => hin2 (E2 m) c) (fun c => hout2 (E2 m) c), ?_⟩
  refine (θ_run Cert.ReferenceIdeal.defs _ _).mono (fun _ h c => ⟨(h c).1.trans ?_, (h c).2⟩)
    (Cert.ReferenceIdeal.PValue.run (F := Ideal) m' ρ')
  obtain ⟨h0, h1, h2, h3, h4, h5, h6⟩ := hagree c
  exact result_eq m m' c h0 h1 h2 h3 h4 h5 h6

end Cert.Proof.Alg

end
-- ==== Proof.lean ====
/-
  The certificate of a two-layer graph convolution with mean pooling, computed by three kernels, against its reference.

  The reference gathers each edge's source row of the transformed features, scales it by the product of the inverse
  square roots of the two end points' degrees, adds it into the target row, adds the bias and clips below at zero —
  twice — and then averages the rows of each graph. The kernel program moves the two degree factors out of the edge
  sum: the first kernel scales the transformed rows by their own factor before the edges are summed, the next kernel
  scales the summed row by the target's factor — which is the same number for every edge that lands on that row —,
  adds the bias, clips, transforms and scales again, and the last kernel does the same and pools by multiplying with the
  one-hot matrix of the graph ids, accumulated over the row blocks. The two agree on the extended reals because a degree
  factor is a nonnegative real number, and a product with a nonnegative real distributes over any sum of extended
  reals; the one-hot product is the sum over the rows of the graph, a row whose id is out of range contributing to
  neither side.

  The three frames: each kernel program terminates on every weakly fair execution, faults nowhere and leaves its
  arguments unchanged — region by region between the stretches of host operations (Proof/KI, and its word-level twin
  Proof/KB); the reference is a sequence of host operations.
-/
import proofs.«409848_j24326694765010_2_alg».proof.Defs
import proofs.«409848_j24326694765010_2_alg».proof.Proof.Gen.Kernel
import proofs.«409848_j24326694765010_2_alg».proof.Proof.Gen.Kernel.Skeleton
import proofs.«409848_j24326694765010_2_alg».proof.Proof.Gen.Kernel.Launch
import proofs.«409848_j24326694765010_2_alg».proof.Proof.Gen.Kernel.Regions
import proofs.«409848_j24326694765010_2_alg».proof.Proof.Gen.Kernel.Points
import proofs.«409848_j24326694765010_2_alg».proof.Proof.Gen.KernelIdeal
import proofs.«409848_j24326694765010_2_alg».proof.Proof.Gen.KernelIdeal.Skeleton
import proofs.«409848_j24326694765010_2_alg».proof.Proof.Gen.KernelIdeal.Launch
import proofs.«409848_j24326694765010_2_alg».proof.Proof.Gen.KernelIdeal.Regions
import proofs.«409848_j24326694765010_2_alg».proof.Proof.Gen.KernelIdeal.Points
import proofs.«409848_j24326694765010_2_alg».proof.Proof.Gen.ReferenceIdeal
import proofs.«409848_j24326694765010_2_alg».proof.Proof.Gen.Pre_finite_inputs
import proofs.«409848_j24326694765010_2_alg».proof.Proof.KB.Frame
import proofs.«409848_j24326694765010_2_alg».proof.Proof.KI.Frame
import proofs.«409848_j24326694765010_2_alg».proof.Proof.Algebraic
import Idealize.ShloMosaic.Adequacy
import Idealize.ShloMosaic.Init

noncomputable section

namespace Cert.Proof

open Idealize.ShloMosaic Idealize.SL.Sem

/-- The word-level kernel program runs to its end and leaves its arguments as launched. -/
theorem frame_kernel : Cert.frame_Kernel := fun m ρ _ => Cert.Kernel.Hand.frame (F := Bits) m ρ

/-- So does its reading over the extended reals. -/
theorem frame_kernelIdeal : Cert.frame_KernelIdeal := fun m ρ _ => Cert.KernelIdeal.Hand.frame (F := Ideal) m ρ

/-- The reference is host operations only: its run, the result dropped. -/
theorem frame_reference : Cert.frame_ReferenceIdeal := fun m ρ _ =>
  (θ_run Cert.ReferenceIdeal.defs _ _).mono (fun _ h c => (h c).2) (Cert.ReferenceIdeal.PValue.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Proof.Alg.algebraic⟩

end Cert.Proof

end
